-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S2x800000 32) (main_arg2 : FVec F S256x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S5000x256 : Shape := ⟨2, ![5000, 256]⟩
abbrev S5000x128 : Shape := ⟨2, ![5000, 128]⟩
abbrev S900000x128 : Shape := ⟨2, ![900000, 128]⟩
abbrev S1x128 : Shape := ⟨2, ![1, 128]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 100
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000, .f32⟩
  | .hbm, ⟨51, _⟩ => ⟨S900000, .f32⟩
  | .hbm, ⟨52, _⟩ => ⟨S100000x128, .f32⟩
  | .hbm, ⟨53, _⟩ => ⟨S128x128, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x128, .f32⟩
  | .hbm, ⟨63, _⟩ => ⟨S900000x1, .f32⟩
  | .hbm, ⟨64, _⟩ => ⟨S900000x128, .f32⟩
  | .hbm, ⟨65, _⟩ => ⟨S900000x128, .f32⟩
  | .hbm, ⟨66, _⟩ => ⟨S_, .f32⟩
  | .hbm, ⟨67, _⟩ => ⟨S100000x128, .f32⟩
  | .hbm, ⟨68, _⟩ => ⟨S900000x1, .i32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S_, .i32⟩
  | .hbm, ⟨78, _⟩ => ⟨S900000, .i32⟩
  | .hbm, ⟨79, _⟩ => ⟨S900000, .i1⟩
  | .hbm, ⟨80, _⟩ => ⟨S_, .i32⟩
  | .hbm, ⟨81, _⟩ => ⟨S900000, .i32⟩
  | .hbm, ⟨82, _⟩ => ⟨S900000, .i32⟩
  | .hbm, ⟨83, _⟩ => ⟨S900000, .i32⟩
  | .hbm, ⟨84, _⟩ => ⟨S900000x1, .i32⟩
  | .hbm, ⟨85, _⟩ => ⟨S900000x128, .f32⟩
  | .hbm, ⟨86, _⟩ => ⟨S900000x1, .f32⟩
  | .hbm, ⟨87, _⟩ => ⟨S900000x128, .f32⟩
  | .hbm, ⟨88, _⟩ => ⟨S900000x128, .f32⟩
  | .hbm, ⟨89, _⟩ => ⟨S_, .f32⟩
  | .hbm, ⟨90, _⟩ => ⟨S100000x128, .f32⟩
  | .hbm, ⟨91, _⟩ => ⟨S900000x1, .i32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S1x16, .f32⟩
  | .hbm, ⟨99, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x16, .f32⟩
  | .local _ .vmem, ⟨31, _⟩ => ⟨S1x16, .f32⟩
  | .local _ .vmem, ⟨32, _⟩ => ⟨S5000x16, .f32⟩
  | .local _ .vmem, ⟨33, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S128x128_S128x128_0_0 : ∀ a, (![0, 0] : Fin 2 → Nat) a + S128x128.size a ≤ S128x128.size a
  h_S128x128 : 0 < S128x128.numel
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  shapeCasts_S128x128_S128x128 : S128x128.ShapeCasts S128x128
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x256_S256x128_S5000x128_1_0_0_1_n_n_wf : DotDims.WF S5000x256 S256x128 S5000x128 [1] [0] [0] [1] [] []
  dot_S5000x128_S5000x128_S128x128_0_0_1_1_n_n_wf : DotDims.WF S5000x128 S5000x128 S128x128 [0] [0] [1] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33_1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51_1) S128x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51_1) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S900000x128 : Shape := ⟨2, ![900000, 128]⟩
abbrev S128x100000 : Shape := ⟨2, ![128, 100000]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S100000, .i32⟩
  | 9 => ⟨S1x800000, .i32⟩
  | 10 => ⟨S800000, .i32⟩
  | 11 => ⟨S900000, .i32⟩
  | 12 => ⟨S1x800000, .i32⟩
  | 13 => ⟨S800000, .i32⟩
  | 14 => ⟨S900000, .i32⟩
  | 15 => ⟨S_, .f32⟩
  | 16 => ⟨S900000, .f32⟩
  | 17 => ⟨S_, .f32⟩
  | 18 => ⟨S100000, .f32⟩
  | 19 => ⟨S900000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S900000, .i32⟩
  | 34 => ⟨S900000, .i1⟩
  | 35 => ⟨S_, .i32⟩
  | 36 => ⟨S900000, .i32⟩
  | 37 => ⟨S900000, .i32⟩
  | 38 => ⟨S900000, .i32⟩
  | 39 => ⟨S900000x1, .i32⟩
  | 40 => ⟨S900000, .f32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000, .f32⟩
  | 51 => ⟨S900000, .f32⟩
  | 52 => ⟨S100000x128, .f32⟩
  | 53 => ⟨S_, .f32⟩
  | 54 => ⟨S100000x128, .f32⟩
  | 55 => ⟨S100000x128, .f32⟩
  | 56 => ⟨S900000x1, .f32⟩
  | 57 => ⟨S_, .i32⟩
  | 58 => ⟨S900000, .i32⟩
  | 59 => ⟨S900000, .i1⟩
  | 60 => ⟨S_, .i32⟩
  | 61 => ⟨S900000, .i32⟩
  | 62 => ⟨S900000, .i32⟩
  | 63 => ⟨S900000, .i32⟩
  | 64 => ⟨S900000x1, .i32⟩
  | 65 => ⟨S900000x128, .f32⟩
  | 66 => ⟨S900000x128, .f32⟩
  | 67 => ⟨S900000x128, .f32⟩
  | 68 => ⟨S_, .f32⟩
  | 69 => ⟨S100000x128, .f32⟩
  | 70 => ⟨S900000x1, .i32⟩
  | 71 => ⟨S100000x128, .f32⟩
  | 72 => ⟨S_, .f32⟩
  | 73 => ⟨S100000x128, .f32⟩
  | 74 => ⟨S100000x128, .f32⟩
  | 75 => ⟨S128x100000, .f32⟩
  | 76 => ⟨S128x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S900000x1, .f32⟩
  | 94 => ⟨S_, .i32⟩
  | 95 => ⟨S900000, .i32⟩
  | 96 => ⟨S900000, .i1⟩
  | 97 => ⟨S_, .i32⟩
  | 98 => ⟨S900000, .i32⟩
  | 99 => ⟨S900000, .i32⟩
  | 100 => ⟨S900000, .i32⟩
  | 101 => ⟨S900000x1, .i32⟩
  | 102 => ⟨S900000x128, .f32⟩
  | 103 => ⟨S900000x128, .f32⟩
  | 104 => ⟨S900000x128, .f32⟩
  | 105 => ⟨S_, .f32⟩
  | 106 => ⟨S100000x128, .f32⟩
  | 107 => ⟨S900000x1, .i32⟩
  | 108 => ⟨S100000x128, .f32⟩
  | 109 => ⟨S_, .f32⟩
  | 110 => ⟨S100000x128, .f32⟩
  | 111 => ⟨S100000x128, .f32⟩
  | 112 => ⟨S128x100000, .f32⟩
  | 113 => ⟨S128x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x16, .f32⟩
  | 127 => ⟨S1x16, .f32⟩
  | _ => ⟨S100000x256, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x16, .f32⟩
  | 9 => ⟨S100000x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_call2_cst : Ref sig .tc := ⟨.hbm, 123, rfl⟩
abbrev main_call2_v0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S_S100000x128 : S_.BroadcastsInDim S100000x128 (![] : Fin 0 → Fin S100000x128.rank)
  bcast_S900000x1_S900000x128_0_1 : S900000x1.BroadcastsInDim S900000x128 (![0, 1] : Fin 2 → Fin S900000x128.rank)
  transposes_S100000x128_S128x100000_1_0 : S100000x128.Transposes [1, 0] S128x100000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S128x100000_S100000x128_S128x128_1_0_0_1_n_n_wf : DotDims.WF S128x100000 S100000x128 S128x128 [1] [0] [0] [1] [] []
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S128x100000_S100000x128_S128x128_1_0_0_1_n_n : DotDims S128x100000 S100000x128 S128x128 where
  lhsContracting := [1]
  rhsContracting := [0]
  lhsNonContracting := [0]
  rhsNonContracting := [1]
  lhsBatch := []
  rhsBatch := []
  wf := dot_S128x100000_S100000x128_S128x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.RefRun.lean ====
/-
  The reference program's run, read stage by stage. @main is a straight line of host operations; every weakly fair
  execution runs them in order and ends with each buffer at the operations' fold over the launch contents. The fold
  is opened a stretch at a time — the index vectors, the nodes' degree factors, the edge weights, the first layer, the
  second layer, the classifier's linear map, the shift by the row maximum, the log-sum-exp — each stretch's results
  stated as the stages of the stretch before, so that no term ever holds more than one stretch: the result buffer ends
  at the last stage of @main's arguments, and the arguments end as launched.
-/
import proofs.«100003_j54760833024262_1_alg».proof.Proof.RefOps
import proofs.«100003_j54760833024262_1_alg».proof.Proof.RefRead
import proofs.«100003_j54760833024262_1_alg».proof.Proof.LibKeepAll
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents carried to a typed reference's buffer and read back are the contents. -/
theorem ofBuf_toBuf {T : BufTy} (x : TRef sig T) (v : T.Contents (Elt F)) : x.ofBuf (x.toBuf v) = v := by
  obtain ⟨r, h, _, _⟩ := x
  subst h
  rfl

/-! ## The stretches of @main's operations

Each stretch is a list of consecutive operations of @main, with the buffers it writes and the fact that every other
buffer keeps its contents across it. -/

/-- The index stretch: the node numbering, the two rows of the edge list, and each row followed by the numbering (every node's edge to itself). -/
def opsIdx : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) ]

/-- The buffers the stretch writes, one per operation. -/
abbrev opsIdx_W : List (Ref sig .tc) :=
  [main_v0, main_v1, main_v2, main_v3, main_v4, main_v5, main_v6]

theorem opsIdx_writes : (opsIdx : List (HloOp τ sig (Elt F))).Forall fun op => op.writes ⊆ (opsIdx_W.map (Proc.devRef (τ := τ) .tc)).toFinset := by
  unfold opsIdx
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Idx_kept (X : Valuation τ sig (Elt F)) {r : Ref sig .tc} (h : r ∉ opsIdx_W) :
    after opsIdx X (Proc.devRef .tc r) = X (Proc.devRef .tc r) :=
  after_of_writes_sub opsIdx X opsIdx_writes h

/-- The degree stretch: the degree of every node as a scatter-add of ones along the second index vector, and its inverse square root where the degree is positive, zero elsewhere. -/
def opsDeg : List (HloOp τ sig (Elt F)) :=
  [ nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The buffers the stretch writes, one per operation. -/
abbrev opsDeg_W : List (Ref sig .tc) :=
  [main_cst, main_v7, main_cst_0, main_v8, main_v9, main_v10, main_cst_1, main_v11, main_v12, main_cst_2, main_v13, main_v14, main_v15, main_cst_3, main_call0_v0, main_call0_v1, main_v16]

theorem opsDeg_writes : (opsDeg : List (HloOp τ sig (Elt F))).Forall fun op => op.writes ⊆ (opsDeg_W.map (Proc.devRef (τ := τ) .tc)).toFinset := by
  unfold opsDeg
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Deg_kept (X : Valuation τ sig (Elt F)) {r : Ref sig .tc} (h : r ∉ opsDeg_W) :
    after opsDeg X (Proc.devRef .tc r) = X (Proc.devRef .tc r) :=
  after_of_writes_sub opsDeg X opsDeg_writes h

/-- The weight stretch: along every edge the product of the factors of its two ends (the index vectors read modulo the node count). -/
def opsWt : List (HloOp τ sig (Elt F)) :=
  [ nullary main_c (constantI S_ 32 0#32),
    unary main_c main_v17 (broadcastInDim S900000 ![] bcast_S_S900000 : (⟨S_, .i32⟩ : BufTy).Contents (Elt F) → (⟨S900000, .i32⟩ : BufTy).Contents (Elt F)),
    binary main_v3 main_v17 main_v18 (cmpi .slt : (⟨S900000, .i32⟩ : BufTy).Contents (Elt F) → (⟨S900000, .i32⟩ : BufTy).Contents (Elt F) → (⟨S900000, .i1⟩ : BufTy).Contents (Elt F)),
    nullary main_c_4 (constantI S_ 32 100000#32),
    unary main_c_4 main_v19 (broadcastInDim S900000 ![] bcast_S_S900000 : (⟨S_, .i32⟩ : BufTy).Contents (Elt F) → (⟨S900000, .i32⟩ : BufTy).Contents (Elt F)),
    binary main_v3 main_v19 main_v20 (addi : (⟨S900000, .i32⟩ : BufTy).Contents (Elt F) → (⟨S900000, .i32⟩ : BufTy).Contents (Elt F) → (⟨S900000, .i32⟩ : BufTy).Contents (Elt F)),
    ternary main_v18 main_v20 main_v3 main_v21 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v21 main_v22 (broadcastInDim S900000x1 ![0] bcast_S900000_S900000x1_0 : (⟨S900000, .i32⟩ : BufTy).Contents (Elt F) → (⟨S900000x1, .i32⟩ : BufTy).Contents (Elt F)),
    binary main_v16 main_v22 main_v23 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v23 main_v7 main_v24 (mulf : (⟨S900000, .f32⟩ : BufTy).Contents (Elt F) → (⟨S900000, .f32⟩ : BufTy).Contents (Elt F) → (⟨S900000, .f32⟩ : BufTy).Contents (Elt F)),
    nullary main_c_5 (constantI S_ 32 0#32),
    unary main_c_5 main_v25 (broadcastInDim S900000 ![] bcast_S_S900000 : (⟨S_, .i32⟩ : BufTy).Contents (Elt F) → (⟨S900000, .i32⟩ : BufTy).Contents (Elt F)),
    binary main_v6 main_v25 main_v26 (cmpi .slt : (⟨S900000, .i32⟩ : BufTy).Contents (Elt F) → (⟨S900000, .i32⟩ : BufTy).Contents (Elt F) → (⟨S900000, .i1⟩ : BufTy).Contents (Elt F)),
    nullary main_c_6 (constantI S_ 32 100000#32),
    unary main_c_6 main_v27 (broadcastInDim S900000 ![] bcast_S_S900000 : (⟨S_, .i32⟩ : BufTy).Contents (Elt F) → (⟨S900000, .i32⟩ : BufTy).Contents (Elt F)),
    binary main_v6 main_v27 main_v28 (addi : (⟨S900000, .i32⟩ : BufTy).Contents (Elt F) → (⟨S900000, .i32⟩ : BufTy).Contents (Elt F) → (⟨S900000, .i32⟩ : BufTy).Contents (Elt F)),
    ternary main_v26 main_v28 main_v6 main_v29 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v29 main_v30 (broadcastInDim S900000x1 ![0] bcast_S900000_S900000x1_0 : (⟨S900000, .i32⟩ : BufTy).Contents (Elt F) → (⟨S900000x1, .i32⟩ : BufTy).Contents (Elt F)),
    binary main_v16 main_v30 main_v31 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v24 main_v31 main_v32 (mulf : (⟨S900000, .f32⟩ : BufTy).Contents (Elt F) → (⟨S900000, .f32⟩ : BufTy).Contents (Elt F) → (⟨S900000, .f32⟩ : BufTy).Contents (Elt F)) ]

/-- The buffers the stretch writes, one per operation. -/
abbrev opsWt_W : List (Ref sig .tc) :=
  [main_c, main_v17, main_v18, main_c_4, main_v19, main_v20, main_v21, main_v22, main_v23, main_v24, main_c_5, main_v25, main_v26, main_c_6, main_v27, main_v28, main_v29, main_v30, main_v31, main_v32]

theorem opsWt_writes : (opsWt : List (HloOp τ sig (Elt F))).Forall fun op => op.writes ⊆ (opsWt_W.map (Proc.devRef (τ := τ) .tc)).toFinset := by
  unfold opsWt
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Wt_kept (X : Valuation τ sig (Elt F)) {r : Ref sig .tc} (h : r ∉ opsWt_W) :
    after opsWt X (Proc.devRef .tc r) = X (Proc.devRef .tc r) :=
  after_of_writes_sub opsWt X opsWt_writes h

/-- The first layer: the projection, its weighted neighbourhood sum, its Gram matrix applied back, the three combined with the bias, the positive part. -/
def opsL1 : List (HloOp τ sig (Elt F)) :=
  [ binary main_arg0 main_arg2 main_v33 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst_7 (constant S_ .f32 0x3F733333#32),
    unary main_cst_7 main_v34 (broadcastInDim S100000x128 ![] bcast_S_S100000x128 : (⟨S_, .f32⟩ : BufTy).Contents (Elt F) → (⟨S100000x128, .f32⟩ : BufTy).Contents (Elt F)),
    binary main_v34 main_v33 main_v35 (mulf : (⟨S100000x128, .f32⟩ : BufTy).Contents (Elt F) → (⟨S100000x128, .f32⟩ : BufTy).Contents (Elt F) → (⟨S100000x128, .f32⟩ : BufTy).Contents (Elt F)),
    unary main_v32 main_v36 (broadcastInDim S900000x1 ![0] bcast_S900000_S900000x1_0 : (⟨S900000, .f32⟩ : BufTy).Contents (Elt F) → (⟨S900000x1, .f32⟩ : BufTy).Contents (Elt F)),
    nullary main_c_8 (constantI S_ 32 0#32),
    unary main_c_8 main_v37 (broadcastInDim S900000 ![] bcast_S_S900000 : (⟨S_, .i32⟩ : BufTy).Contents (Elt F) → (⟨S900000, .i32⟩ : BufTy).Contents (Elt F)),
    binary main_v3 main_v37 main_v38 (cmpi .slt : (⟨S900000, .i32⟩ : BufTy).Contents (Elt F) → (⟨S900000, .i32⟩ : BufTy).Contents (Elt F) → (⟨S900000, .i1⟩ : BufTy).Contents (Elt F)),
    nullary main_c_9 (constantI S_ 32 100000#32),
    unary main_c_9 main_v39 (broadcastInDim S900000 ![] bcast_S_S900000 : (⟨S_, .i32⟩ : BufTy).Contents (Elt F) → (⟨S900000, .i32⟩ : BufTy).Contents (Elt F)),
    binary main_v3 main_v39 main_v40 (addi : (⟨S900000, .i32⟩ : BufTy).Contents (Elt F) → (⟨S900000, .i32⟩ : BufTy).Contents (Elt F) → (⟨S900000, .i32⟩ : BufTy).Contents (Elt F)),
    ternary main_v38 main_v40 main_v3 main_v41 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v41 main_v42 (broadcastInDim S900000x1 ![0] bcast_S900000_S900000x1_0 : (⟨S900000, .i32⟩ : BufTy).Contents (Elt F) → (⟨S900000x1, .i32⟩ : BufTy).Contents (Elt F)),
    binary main_v33 main_v42 main_v43 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v36 main_v44 (broadcastInDim S900000x128 ![0, 1] bcast_S900000x1_S900000x128_0_1 : (⟨S900000x1, .f32⟩ : BufTy).Contents (Elt F) → (⟨S900000x128, .f32⟩ : BufTy).Contents (Elt F)),
    binary main_v44 main_v43 main_v45 (mulf : (⟨S900000x128, .f32⟩ : BufTy).Contents (Elt F) → (⟨S900000x128, .f32⟩ : BufTy).Contents (Elt F) → (⟨S900000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S900000x1 ![0] bcast_S900000_S900000x1_0 : (⟨S900000, .i32⟩ : BufTy).Contents (Elt F) → (⟨S900000x1, .i32⟩ : BufTy).Contents (Elt F)),
    ternary main_v46 main_v47 main_v45 main_v48 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_11 (constant S_ .f32 0x3DCCCCCD#32),
    unary main_cst_11 main_v49 (broadcastInDim S100000x128 ![] bcast_S_S100000x128 : (⟨S_, .f32⟩ : BufTy).Contents (Elt F) → (⟨S100000x128, .f32⟩ : BufTy).Contents (Elt F)),
    binary main_v49 main_v48 main_v50 (mulf : (⟨S100000x128, .f32⟩ : BufTy).Contents (Elt F) → (⟨S100000x128, .f32⟩ : BufTy).Contents (Elt F) → (⟨S100000x128, .f32⟩ : BufTy).Contents (Elt F)),
    unary main_v33 main_v51 ((transpose S128x100000 [1, 0] · transposes_S100000x128_S128x100000_1_0) : (⟨S100000x128, .f32⟩ : BufTy).Contents (Elt F) → (⟨S128x100000, .f32⟩ : BufTy).Contents (Elt F)),
    binary main_v51 main_v33 main_v52 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    binary main_v33 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3D4CCCCD#32),
    unary main_cst_12 main_v54 (broadcastInDim S100000x128 ![] bcast_S_S100000x128 : (⟨S_, .f32⟩ : BufTy).Contents (Elt F) → (⟨S100000x128, .f32⟩ : BufTy).Contents (Elt F)),
    binary main_v54 main_v53 main_v55 (mulf : (⟨S100000x128, .f32⟩ : BufTy).Contents (Elt F) → (⟨S100000x128, .f32⟩ : BufTy).Contents (Elt F) → (⟨S100000x128, .f32⟩ : BufTy).Contents (Elt F)),
    binary main_v35 main_v50 main_v56 (addf : (⟨S100000x128, .f32⟩ : BufTy).Contents (Elt F) → (⟨S100000x128, .f32⟩ : BufTy).Contents (Elt F) → (⟨S100000x128, .f32⟩ : BufTy).Contents (Elt F)),
    binary main_v56 main_v55 main_v57 (subf : (⟨S100000x128, .f32⟩ : BufTy).Contents (Elt F) → (⟨S100000x128, .f32⟩ : BufTy).Contents (Elt F) → (⟨S100000x128, .f32⟩ : BufTy).Contents (Elt F)),
    unary main_arg3 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v60) (TRef.of (T := ⟨S100000x128, .f32⟩) main_call1_v0) (TRef.of (T := ⟨S100000x128, .f32⟩) main_v61) maximumf ]

/-- The buffers the stretch writes, one per operation. -/
abbrev opsL1_W : List (Ref sig .tc) :=
  [main_v33, main_cst_7, main_v34, main_v35, main_v36, main_c_8, main_v37, main_v38, main_c_9, main_v39, main_v40, main_v41, main_v42, main_v43, main_v44, main_v45, main_cst_10, main_v46, main_v47, main_v48, main_cst_11, main_v49, main_v50, main_v51, main_v52, main_v53, main_cst_12, main_v54, main_v55, main_v56, main_v57, main_v58, main_v59, main_v60, main_call1_cst, main_call1_v0, main_v61]

theorem opsL1_writes : (opsL1 : List (HloOp τ sig (Elt F))).Forall fun op => op.writes ⊆ (opsL1_W.map (Proc.devRef (τ := τ) .tc)).toFinset := by
  unfold opsL1
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem L1_kept (X : Valuation τ sig (Elt F)) {r : Ref sig .tc} (h : r ∉ opsL1_W) :
    after opsL1 X (Proc.devRef .tc r) = X (Proc.devRef .tc r) :=
  after_of_writes_sub opsL1 X opsL1_writes h

/-- The second layer: the same operations from the first layer's result. -/
def opsL2 : List (HloOp τ sig (Elt F)) :=
  [ binary main_v61 main_arg4 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_13 (constant S_ .f32 0x3F733333#32),
    unary main_cst_13 main_v63 (broadcastInDim S100000x128 ![] bcast_S_S100000x128 : (⟨S_, .f32⟩ : BufTy).Contents (Elt F) → (⟨S100000x128, .f32⟩ : BufTy).Contents (Elt F)),
    binary main_v63 main_v62 main_v64 (mulf : (⟨S100000x128, .f32⟩ : BufTy).Contents (Elt F) → (⟨S100000x128, .f32⟩ : BufTy).Contents (Elt F) → (⟨S100000x128, .f32⟩ : BufTy).Contents (Elt F)),
    unary main_v32 main_v65 (broadcastInDim S900000x1 ![0] bcast_S900000_S900000x1_0 : (⟨S900000, .f32⟩ : BufTy).Contents (Elt F) → (⟨S900000x1, .f32⟩ : BufTy).Contents (Elt F)),
    nullary main_c_14 (constantI S_ 32 0#32),
    unary main_c_14 main_v66 (broadcastInDim S900000 ![] bcast_S_S900000 : (⟨S_, .i32⟩ : BufTy).Contents (Elt F) → (⟨S900000, .i32⟩ : BufTy).Contents (Elt F)),
    binary main_v3 main_v66 main_v67 (cmpi .slt : (⟨S900000, .i32⟩ : BufTy).Contents (Elt F) → (⟨S900000, .i32⟩ : BufTy).Contents (Elt F) → (⟨S900000, .i1⟩ : BufTy).Contents (Elt F)),
    nullary main_c_15 (constantI S_ 32 100000#32),
    unary main_c_15 main_v68 (broadcastInDim S900000 ![] bcast_S_S900000 : (⟨S_, .i32⟩ : BufTy).Contents (Elt F) → (⟨S900000, .i32⟩ : BufTy).Contents (Elt F)),
    binary main_v3 main_v68 main_v69 (addi : (⟨S900000, .i32⟩ : BufTy).Contents (Elt F) → (⟨S900000, .i32⟩ : BufTy).Contents (Elt F) → (⟨S900000, .i32⟩ : BufTy).Contents (Elt F)),
    ternary main_v67 main_v69 main_v3 main_v70 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v70 main_v71 (broadcastInDim S900000x1 ![0] bcast_S900000_S900000x1_0 : (⟨S900000, .i32⟩ : BufTy).Contents (Elt F) → (⟨S900000x1, .i32⟩ : BufTy).Contents (Elt F)),
    binary main_v62 main_v71 main_v72 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v65 main_v73 (broadcastInDim S900000x128 ![0, 1] bcast_S900000x1_S900000x128_0_1 : (⟨S900000x1, .f32⟩ : BufTy).Contents (Elt F) → (⟨S900000x128, .f32⟩ : BufTy).Contents (Elt F)),
    binary main_v73 main_v72 main_v74 (mulf : (⟨S900000x128, .f32⟩ : BufTy).Contents (Elt F) → (⟨S900000x128, .f32⟩ : BufTy).Contents (Elt F) → (⟨S900000x128, .f32⟩ : BufTy).Contents (Elt F)),
    nullary main_cst_16 (constant S_ .f32 0x00000000#32),
    unary main_cst_16 main_v75 (broadcastInDim S100000x128 ![] bcast_S_S100000x128 : (⟨S_, .f32⟩ : BufTy).Contents (Elt F) → (⟨S100000x128, .f32⟩ : BufTy).Contents (Elt F)),
    unary main_v6 main_v76 (broadcastInDim S900000x1 ![0] bcast_S900000_S900000x1_0 : (⟨S900000, .i32⟩ : BufTy).Contents (Elt F) → (⟨S900000x1, .i32⟩ : BufTy).Contents (Elt F)),
    ternary main_v75 main_v76 main_v74 main_v77 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_17 (constant S_ .f32 0x3DCCCCCD#32),
    unary main_cst_17 main_v78 (broadcastInDim S100000x128 ![] bcast_S_S100000x128 : (⟨S_, .f32⟩ : BufTy).Contents (Elt F) → (⟨S100000x128, .f32⟩ : BufTy).Contents (Elt F)),
    binary main_v78 main_v77 main_v79 (mulf : (⟨S100000x128, .f32⟩ : BufTy).Contents (Elt F) → (⟨S100000x128, .f32⟩ : BufTy).Contents (Elt F) → (⟨S100000x128, .f32⟩ : BufTy).Contents (Elt F)),
    unary main_v62 main_v80 ((transpose S128x100000 [1, 0] · transposes_S100000x128_S128x100000_1_0) : (⟨S100000x128, .f32⟩ : BufTy).Contents (Elt F) → (⟨S128x100000, .f32⟩ : BufTy).Contents (Elt F)),
    binary main_v80 main_v62 main_v81 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    binary main_v62 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_18 (constant S_ .f32 0x3D4CCCCD#32),
    unary main_cst_18 main_v83 (broadcastInDim S100000x128 ![] bcast_S_S100000x128 : (⟨S_, .f32⟩ : BufTy).Contents (Elt F) → (⟨S100000x128, .f32⟩ : BufTy).Contents (Elt F)),
    binary main_v83 main_v82 main_v84 (mulf : (⟨S100000x128, .f32⟩ : BufTy).Contents (Elt F) → (⟨S100000x128, .f32⟩ : BufTy).Contents (Elt F) → (⟨S100000x128, .f32⟩ : BufTy).Contents (Elt F)),
    binary main_v64 main_v79 main_v85 (addf : (⟨S100000x128, .f32⟩ : BufTy).Contents (Elt F) → (⟨S100000x128, .f32⟩ : BufTy).Contents (Elt F) → (⟨S100000x128, .f32⟩ : BufTy).Contents (Elt F)),
    binary main_v85 main_v84 main_v86 (subf : (⟨S100000x128, .f32⟩ : BufTy).Contents (Elt F) → (⟨S100000x128, .f32⟩ : BufTy).Contents (Elt F) → (⟨S100000x128, .f32⟩ : BufTy).Contents (Elt F)),
    unary main_arg5 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v89) (TRef.of (T := ⟨S100000x128, .f32⟩) main_call2_v0) (TRef.of (T := ⟨S100000x128, .f32⟩) main_v90) maximumf ]

/-- The buffers the stretch writes, one per operation. -/
abbrev opsL2_W : List (Ref sig .tc) :=
  [main_v62, main_cst_13, main_v63, main_v64, main_v65, main_c_14, main_v66, main_v67, main_c_15, main_v68, main_v69, main_v70, main_v71, main_v72, main_v73, main_v74, main_cst_16, main_v75, main_v76, main_v77, main_cst_17, main_v78, main_v79, main_v80, main_v81, main_v82, main_cst_18, main_v83, main_v84, main_v85, main_v86, main_v87, main_v88, main_v89, main_call2_cst, main_call2_v0, main_v90]

theorem opsL2_writes : (opsL2 : List (HloOp τ sig (Elt F))).Forall fun op => op.writes ⊆ (opsL2_W.map (Proc.devRef (τ := τ) .tc)).toFinset := by
  unfold opsL2
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem L2_kept (X : Valuation τ sig (Elt F)) {r : Ref sig .tc} (h : r ∉ opsL2_W) :
    after opsL2 X (Proc.devRef .tc r) = X (Proc.devRef .tc r) :=
  after_of_writes_sub opsL2 X opsL2_writes h

/-- The classifier's linear map: the last projection and its bias, broadcast along the rows. -/
def opsLin : List (HloOp τ sig (Elt F)) :=
  [ binary main_v90 main_arg6 main_v91 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg7 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)) ]

/-- The buffers the stretch writes, one per operation. -/
abbrev opsLin_W : List (Ref sig .tc) :=
  [main_v91, main_v92, main_v93, main_v94]

theorem opsLin_writes : (opsLin : List (HloOp τ sig (Elt F))).Forall fun op => op.writes ⊆ (opsLin_W.map (Proc.devRef (τ := τ) .tc)).toFinset := by
  unfold opsLin
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Lin_kept (X : Valuation τ sig (Elt F)) {r : Ref sig .tc} (h : r ∉ opsLin_W) :
    after opsLin X (Proc.devRef .tc r) = X (Proc.devRef .tc r) :=
  after_of_writes_sub opsLin X opsLin_writes h

/-- The shift by the row maximum: every row's maximum (from minus infinity), broadcast back along the row and subtracted. -/
def opsShift : List (HloOp τ sig (Elt F)) :=
  [ TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf ]

/-- The buffers the stretch writes, one per operation. -/
abbrev opsShift_W : List (Ref sig .tc) :=
  [main_call3_cst, main_call3_v0, main_call3_cst_0, main_call3_v1, main_call3_v2, main_call3_v3, main_call3_v4, main_call3_v5]

theorem opsShift_writes : (opsShift : List (HloOp τ sig (Elt F))).Forall fun op => op.writes ⊆ (opsShift_W.map (Proc.devRef (τ := τ) .tc)).toFinset := by
  unfold opsShift
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Shift_kept (X : Valuation τ sig (Elt F)) {r : Ref sig .tc} (h : r ∉ opsShift_W) :
    after opsShift X (Proc.devRef .tc r) = X (Proc.devRef .tc r) :=
  after_of_writes_sub opsShift X opsShift_writes h

/-- The log-sum-exp: the exponentials of the shifted logits, their sum along every row, its logarithm broadcast back and subtracted. -/
def opsLse : List (HloOp τ sig (Elt F)) :=
  [ TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

/-- The buffers the stretch writes, one per operation. -/
abbrev opsLse_W : List (Ref sig .tc) :=
  [main_call3_v6, main_call3_cst_1, main_call3_v7, main_call3_v8, main_call3_v9, main_call3_v10, main_v95]

theorem opsLse_writes : (opsLse : List (HloOp τ sig (Elt F))).Forall fun op => op.writes ⊆ (opsLse_W.map (Proc.devRef (τ := τ) .tc)).toFinset := by
  unfold opsLse
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write keeps its contents across it. -/
theorem Lse_kept (X : Valuation τ sig (Elt F)) {r : Ref sig .tc} (h : r ∉ opsLse_W) :
    after opsLse X (Proc.devRef .tc r) = X (Proc.devRef .tc r) :=
  after_of_writes_sub opsLse X opsLse_writes h

/-- @main's operations are the eight stretches in a row. -/
theorem ops_eq : (ops : List (HloOp τ sig (Elt F))) =
    opsIdx ++ (opsDeg ++ (opsWt ++ (opsL1 ++ (opsL2 ++ (opsLin ++ (opsShift ++ opsLse)))))) := rfl

/-! ## Each stretch's results, as stages of what it is entered with -/

set_option maxHeartbeats 4000000 in
/-- The index stretch leaves row 0 of the edge list followed by the node numbering. -/
theorem Idx_v3 (X : Valuation τ sig (Elt F)) (x1 : (⟨S2x800000, .i32⟩ : BufTy).Contents (Elt F))
    (a1 : X (Proc.devRef .tc main_arg1) = x1) :
    after opsIdx X (Proc.devRef .tc main_v3) = val_main_v3 (F := F) x1 := by
  unfold opsIdx
  after_results
  rw [a1]
  unfold val_main_v3 val_main_v2 val_main_v1 val_main_v0
  rfl

set_option maxHeartbeats 4000000 in
/-- The index stretch leaves row 1 of the edge list followed by the node numbering. -/
theorem Idx_v6 (X : Valuation τ sig (Elt F)) (x1 : (⟨S2x800000, .i32⟩ : BufTy).Contents (Elt F))
    (a1 : X (Proc.devRef .tc main_arg1) = x1) :
    after opsIdx X (Proc.devRef .tc main_v6) = val_main_v6 (F := F) x1 := by
  unfold opsIdx
  after_results
  rw [a1]
  unfold val_main_v6 val_main_v5 val_main_v4 val_main_v0
  rfl

set_option maxHeartbeats 4000000 in
/-- The degree stretch leaves the vector of ones, one per edge. -/
theorem Deg_v7 (X : Valuation τ sig (Elt F)) :
    after opsDeg X (Proc.devRef .tc main_v7) = val_main_v7 (F := F) := by
  unfold opsDeg
  after_results_simp
  unfold val_main_v7 val_main_cst
  rfl

set_option maxHeartbeats 4000000 in
/-- From the second index vector the degree stretch leaves every node's factor. -/
theorem Deg_v16 (X : Valuation τ sig (Elt F)) (x1 : (⟨S2x800000, .i32⟩ : BufTy).Contents (Elt F))
    (h_v6 : X (Proc.devRef .tc main_v6) = val_main_v6 (F := F) x1) :
    after opsDeg X (Proc.devRef .tc main_v16) = val_main_v16 (F := F) x1 := by
  unfold opsDeg
  after_results_simp
  rw [h_v6]
  simp only [ofBuf_toBuf]
  unfold val_main_v16 val_main_call0_v1 val_main_call0_v0 val_main_cst_3 val_main_v15 val_main_v14 val_main_v13 val_main_cst_2 val_main_v12 val_main_v11 val_main_cst_1 val_main_v10 val_main_v9 val_main_v8 val_main_cst_0 val_main_v7 val_main_cst
  rfl

set_option maxHeartbeats 4000000 in
/-- From the two index vectors, the ones and the nodes' factors the weight stretch leaves the edge weights. -/
theorem Wt_v32 (X : Valuation τ sig (Elt F)) (x1 : (⟨S2x800000, .i32⟩ : BufTy).Contents (Elt F))
    (h_v3 : X (Proc.devRef .tc main_v3) = val_main_v3 (F := F) x1)
    (h_v6 : X (Proc.devRef .tc main_v6) = val_main_v6 (F := F) x1)
    (h_v7 : X (Proc.devRef .tc main_v7) = val_main_v7 (F := F))
    (h_v16 : X (Proc.devRef .tc main_v16) = val_main_v16 (F := F) x1) :
    after opsWt X (Proc.devRef .tc main_v32) = val_main_v32 (F := F) x1 := by
  unfold opsWt
  after_results_simp
  rw [h_v3, h_v6, h_v7, h_v16]
  unfold val_main_v32 val_main_v31 val_main_v30 val_main_v29 val_main_v28 val_main_v27 val_main_c_6 val_main_v26 val_main_v25 val_main_c_5 val_main_v24 val_main_v23 val_main_v22 val_main_v21 val_main_v20 val_main_v19 val_main_c_4 val_main_v18 val_main_v17 val_main_c
  rfl

set_option maxHeartbeats 4000000 in
/-- From the index vectors and the edge weights the first layer leaves its activation. -/
theorem L1_v61 (X : Valuation τ sig (Elt F)) (x0 : (⟨S100000x256, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F))
    (a0 : X (Proc.devRef .tc main_arg0) = x0)
    (a2 : X (Proc.devRef .tc main_arg2) = x2)
    (a3 : X (Proc.devRef .tc main_arg3) = x3)
    (h_v3 : X (Proc.devRef .tc main_v3) = val_main_v3 (F := F) x1)
    (h_v6 : X (Proc.devRef .tc main_v6) = val_main_v6 (F := F) x1)
    (h_v32 : X (Proc.devRef .tc main_v32) = val_main_v32 (F := F) x1) :
    after opsL1 X (Proc.devRef .tc main_v61) = val_main_v61 (F := F) x0 x1 x2 x3 := by
  unfold opsL1
  after_results_simp
  rw [a0, a2, a3, h_v3, h_v6, h_v32]
  simp only [ofBuf_toBuf]
  unfold val_main_v61 val_main_call1_v0 val_main_call1_cst val_main_v60 val_main_v59 val_main_v58 val_main_v57 val_main_v56 val_main_v55 val_main_v54 val_main_cst_12 val_main_v53 val_main_v52 val_main_v51 val_main_v50 val_main_v49 val_main_cst_11 val_main_v48 val_main_v47 val_main_v46 val_main_cst_10 val_main_v45 val_main_v44 val_main_v43 val_main_v42 val_main_v41 val_main_v40 val_main_v39 val_main_c_9 val_main_v38 val_main_v37 val_main_c_8 val_main_v36 val_main_v35 val_main_v34 val_main_cst_7 val_main_v33
  rfl

set_option maxHeartbeats 4000000 in
/-- From the index vectors, the edge weights and the first layer's activation the second layer leaves its activation. -/
theorem L2_v90 (X : Valuation τ sig (Elt F)) (x0 : (⟨S100000x256, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (a4 : X (Proc.devRef .tc main_arg4) = x4)
    (a5 : X (Proc.devRef .tc main_arg5) = x5)
    (h_v3 : X (Proc.devRef .tc main_v3) = val_main_v3 (F := F) x1)
    (h_v6 : X (Proc.devRef .tc main_v6) = val_main_v6 (F := F) x1)
    (h_v32 : X (Proc.devRef .tc main_v32) = val_main_v32 (F := F) x1)
    (h_v61 : X (Proc.devRef .tc main_v61) = val_main_v61 (F := F) x0 x1 x2 x3) :
    after opsL2 X (Proc.devRef .tc main_v90) = val_main_v90 (F := F) x0 x1 x2 x3 x4 x5 := by
  unfold opsL2
  after_results_simp
  rw [a4, a5, h_v3, h_v6, h_v32, h_v61]
  simp only [ofBuf_toBuf]
  unfold val_main_v90 val_main_call2_v0 val_main_call2_cst val_main_v89 val_main_v88 val_main_v87 val_main_v86 val_main_v85 val_main_v84 val_main_v83 val_main_cst_18 val_main_v82 val_main_v81 val_main_v80 val_main_v79 val_main_v78 val_main_cst_17 val_main_v77 val_main_v76 val_main_v75 val_main_cst_16 val_main_v74 val_main_v73 val_main_v72 val_main_v71 val_main_v70 val_main_v69 val_main_v68 val_main_c_15 val_main_v67 val_main_v66 val_main_c_14 val_main_v65 val_main_v64 val_main_v63 val_main_cst_13 val_main_v62
  rfl

set_option maxHeartbeats 4000000 in
/-- From the second layer's activation the linear map leaves the logits. -/
theorem Lin_v94 (X : Valuation τ sig (Elt F)) (x0 : (⟨S100000x256, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) (x7 : (⟨S16, .f32⟩ : BufTy).Contents (Elt F))
    (a6 : X (Proc.devRef .tc main_arg6) = x6)
    (a7 : X (Proc.devRef .tc main_arg7) = x7)
    (h_v90 : X (Proc.devRef .tc main_v90) = val_main_v90 (F := F) x0 x1 x2 x3 x4 x5) :
    after opsLin X (Proc.devRef .tc main_v94) = val_main_v94 (F := F) x0 x1 x2 x3 x4 x5 x6 x7 := by
  unfold opsLin
  after_results_simp
  rw [a6, a7, h_v90]
  unfold val_main_v94 val_main_v93 val_main_v92 val_main_v91
  rfl

set_option maxHeartbeats 4000000 in
/-- From the logits the shift leaves every row less its maximum. -/
theorem Shift_v5 (X : Valuation τ sig (Elt F)) (x0 : (⟨S100000x256, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) (x7 : (⟨S16, .f32⟩ : BufTy).Contents (Elt F))
    (h_v94 : X (Proc.devRef .tc main_v94) = val_main_v94 (F := F) x0 x1 x2 x3 x4 x5 x6 x7) :
    after opsShift X (Proc.devRef .tc main_call3_v5) = val_main_call3_v5 (F := F) x0 x1 x2 x3 x4 x5 x6 x7 := by
  unfold opsShift
  after_results_simp
  rw [h_v94]
  simp only [ofBuf_toBuf]
  unfold val_main_call3_v5 val_main_call3_v4 val_main_call3_v3 val_main_call3_v2 val_main_call3_v1 val_main_call3_cst_0 val_main_call3_v0 val_main_call3_cst
  rfl

set_option maxHeartbeats 4000000 in
/-- From the shifted logits the last stretch leaves the log-probabilities. -/
theorem Lse_v95 (X : Valuation τ sig (Elt F)) (x0 : (⟨S100000x256, .f32⟩ : BufTy).Contents (Elt F)) (x1 : (⟨S2x800000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) (x7 : (⟨S16, .f32⟩ : BufTy).Contents (Elt F))
    (h_call3_v5 : X (Proc.devRef .tc main_call3_v5) = val_main_call3_v5 (F := F) x0 x1 x2 x3 x4 x5 x6 x7) :
    after opsLse X (Proc.devRef .tc main_v95) = val_main_v95 (F := F) x0 x1 x2 x3 x4 x5 x6 x7 := by
  unfold opsLse
  after_results_simp
  rw [h_call3_v5]
  simp only [ofBuf_toBuf]
  unfold val_main_v95 val_main_call3_v10 val_main_call3_v9 val_main_call3_v8 val_main_call3_v7 val_main_call3_cst_1 val_main_call3_v6
  rfl

/-! ## The whole line -/

/-- The result buffer after all of @main's operations, from any contents: the last stage of the arguments' contents.
    Each stretch is entered with the stages the stretches before it left (the index vectors, the nodes' factors, the
    edge weights, the layers' activations, the logits and their shift) and the arguments it reads, all kept by the
    stretches in between. -/
theorem fold_v95 (X : Valuation τ sig (Elt F)) :
    after ops X (Proc.devRef .tc main_v95)
      = val_main_v95 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) := by
  rw [ops_eq, after_append, after_append, after_append, after_append, after_append, after_append, after_append]
  -- the index stretch
  have e3 := Idx_v3 X _ rfl
  have e6 := Idx_v6 X _ rfl
  have k0 := Idx_kept X (r := main_arg0) (by decide)
  have k2 := Idx_kept X (r := main_arg2) (by decide)
  have k3 := Idx_kept X (r := main_arg3) (by decide)
  have k4 := Idx_kept X (r := main_arg4) (by decide)
  have k5 := Idx_kept X (r := main_arg5) (by decide)
  have k6 := Idx_kept X (r := main_arg6) (by decide)
  have k7 := Idx_kept X (r := main_arg7) (by decide)
  generalize after opsIdx X = X1 at *
  -- the degree stretch
  have e7 := Deg_v7 X1
  have e16 := Deg_v16 X1 _ e6
  replace e3 := (Deg_kept X1 (r := main_v3) (by decide)).trans e3
  replace e6 := (Deg_kept X1 (r := main_v6) (by decide)).trans e6
  replace k0 := (Deg_kept X1 (r := main_arg0) (by decide)).trans k0
  replace k2 := (Deg_kept X1 (r := main_arg2) (by decide)).trans k2
  replace k3 := (Deg_kept X1 (r := main_arg3) (by decide)).trans k3
  replace k4 := (Deg_kept X1 (r := main_arg4) (by decide)).trans k4
  replace k5 := (Deg_kept X1 (r := main_arg5) (by decide)).trans k5
  replace k6 := (Deg_kept X1 (r := main_arg6) (by decide)).trans k6
  replace k7 := (Deg_kept X1 (r := main_arg7) (by decide)).trans k7
  generalize after opsDeg X1 = X2 at *
  -- the weight stretch
  have e32 := Wt_v32 X2 _ e3 e6 e7 e16
  replace e3 := (Wt_kept X2 (r := main_v3) (by decide)).trans e3
  replace e6 := (Wt_kept X2 (r := main_v6) (by decide)).trans e6
  replace k0 := (Wt_kept X2 (r := main_arg0) (by decide)).trans k0
  replace k2 := (Wt_kept X2 (r := main_arg2) (by decide)).trans k2
  replace k3 := (Wt_kept X2 (r := main_arg3) (by decide)).trans k3
  replace k4 := (Wt_kept X2 (r := main_arg4) (by decide)).trans k4
  replace k5 := (Wt_kept X2 (r := main_arg5) (by decide)).trans k5
  replace k6 := (Wt_kept X2 (r := main_arg6) (by decide)).trans k6
  replace k7 := (Wt_kept X2 (r := main_arg7) (by decide)).trans k7
  generalize after opsWt X2 = X3 at *
  -- the first layer
  have e61 := L1_v61 X3 _ _ _ _ k0 k2 k3 e3 e6 e32
  replace e3 := (L1_kept X3 (r := main_v3) (by decide)).trans e3
  replace e6 := (L1_kept X3 (r := main_v6) (by decide)).trans e6
  replace e32 := (L1_kept X3 (r := main_v32) (by decide)).trans e32
  replace k4 := (L1_kept X3 (r := main_arg4) (by decide)).trans k4
  replace k5 := (L1_kept X3 (r := main_arg5) (by decide)).trans k5
  replace k6 := (L1_kept X3 (r := main_arg6) (by decide)).trans k6
  replace k7 := (L1_kept X3 (r := main_arg7) (by decide)).trans k7
  generalize after opsL1 X3 = X4 at *
  -- the second layer
  have e90 := L2_v90 X4 _ _ _ _ _ _ k4 k5 e3 e6 e32 e61
  replace k6 := (L2_kept X4 (r := main_arg6) (by decide)).trans k6
  replace k7 := (L2_kept X4 (r := main_arg7) (by decide)).trans k7
  generalize after opsL2 X4 = X5 at *
  -- the classifier's linear map
  have e94 := Lin_v94 X5 _ _ _ _ _ _ _ _ k6 k7 e90
  generalize after opsLin X5 = X6 at *
  -- the shift by the row maximum
  have es := Shift_v5 X6 _ _ _ _ _ _ _ _ e94
  generalize after opsShift X6 = X7 at *
  -- the log-sum-exp
  exact Lse_v95 X7 _ _ _ _ _ _ _ _ es

/-- A buffer none of the eight stretches writes keeps its contents across all of @main's operations. -/
theorem ops_kept (X : Valuation τ sig (Elt F)) {r : Ref sig .tc}
    (h1 : r ∉ opsIdx_W) (h2 : r ∉ opsDeg_W) (h3 : r ∉ opsWt_W) (h4 : r ∉ opsL1_W) (h5 : r ∉ opsL2_W)
    (h6 : r ∉ opsLin_W) (h7 : r ∉ opsShift_W) (h8 : r ∉ opsLse_W) :
    after ops X (Proc.devRef .tc r) = X (Proc.devRef .tc r) := by
  rw [ops_eq, after_append, after_append, after_append, after_append, after_append, after_append, after_append,
    Lse_kept _ h8, Shift_kept _ h7, Lin_kept _ h6, L2_kept _ h5, L1_kept _ h4, Wt_kept _ h3, Deg_kept _ h2, Idx_kept _ h1]

/-! ## The run -/

/-- On every device, from any memory with zero counters: every weakly fair execution of @main terminates with the
    result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_)
    (run_seq scopedRefs_eq scopedSems_eq defs main (fun _ => ops) main_eq (fun _ => ops_sub) m ρ)
  exact ⟨(h c main_v95).trans (fold_v95 (launchContents m c)),
    (h c main_arg0).trans (ops_kept (launchContents m c) (by decide) (by decide) (by decide) (by decide) (by decide) (by decide) (by decide) (by decide)),
    (h c main_arg1).trans (ops_kept (launchContents m c) (by decide) (by decide) (by decide) (by decide) (by decide) (by decide) (by decide) (by decide)),
    (h c main_arg2).trans (ops_kept (launchContents m c) (by decide) (by decide) (by decide) (by decide) (by decide) (by decide) (by decide) (by decide)),
    (h c main_arg3).trans (ops_kept (launchContents m c) (by decide) (by decide) (by decide) (by decide) (by decide) (by decide) (by decide) (by decide)),
    (h c main_arg4).trans (ops_kept (launchContents m c) (by decide) (by decide) (by decide) (by decide) (by decide) (by decide) (by decide) (by decide)),
    (h c main_arg5).trans (ops_kept (launchContents m c) (by decide) (by decide) (by decide) (by decide) (by decide) (by decide) (by decide) (by decide)),
    (h c main_arg6).trans (ops_kept (launchContents m c) (by decide) (by decide) (by decide) (by decide) (by decide) (by decide) (by decide) (by decide)),
    (h c main_arg7).trans (ops_kept (launchContents m c) (by decide) (by decide) (by decide) (by decide) (by decide) (by decide) (by decide) (by decide))⟩

end Cert.ReferenceIdeal.RefRun

end
-- ==== Proof.Spec.lean ====
/-
  The mathematics of the network's steps, entry by entry, over the extended reals.
  A projection is a matrix product; a layer's Gram matrix is the product of the projected features' transpose with
  them; a layer's result is max(c₁·y + s − c₂·(y·g) + b, 0) with c₁, c₂ two literal scales; the classifier's logits
  are a product plus a bias row; the result is each row's log-softmax, computed after subtracting the row's maximum.
-/
import Idealize.ShloMosaic.PureOps.Ideal
import Idealize.ShloMosaic.Lib.ValueIdx

noncomputable section

open scoped BigOperators

namespace Cert.Spec

open Idealize.ShloMosaic Idealize.ShloMosaic.ValueIdx

/-- Entry (p, q) of the product of a 100000 × K matrix with a K × 128 one. -/
def projAt {K : Nat} (X : (⟨2, ![100000, K]⟩ : Shape).Idx → EReal) (W : (⟨2, ![K, 128]⟩ : Shape).Idx → EReal)
    (p : Fin 100000) (q : Fin 128) : EReal :=
  ∑ k : Fin K, X (ix2 p k) * W (ix2 k q)

/-- Entry (a, b) of the Gram matrix of a 100000 × 128 matrix: the sum over its rows of the product of two entries. -/
def gramAt (Y : (⟨2, ![100000, 128]⟩ : Shape).Idx → EReal) (a b : Fin 128) : EReal :=
  ∑ r : Fin 100000, Y (ix2 r a) * Y (ix2 r b)

/-- Entry (p, q) of a layer's result, from the projected features, their Gram matrix, the propagated term and the
    bias row. -/
def layerAt (X : (⟨2, ![100000, 128]⟩ : Shape).Idx → EReal) (G : (⟨2, ![128, 128]⟩ : Shape).Idx → EReal)
    (S : (⟨2, ![100000, 128]⟩ : Shape).Idx → EReal) (B : (⟨2, ![1, 128]⟩ : Shape).Idx → EReal)
    (p : Fin 100000) (q : Fin 128) : EReal :=
  max (Ideal.ofBits .f32 0x3F733333#32 * X (ix2 p q) + S (ix2 p q)
      - Ideal.ofBits .f32 0x3D4CCCCD#32 * (∑ k : Fin 128, X (ix2 p k) * G (ix2 k q)) + B (ix2 (0 : Fin 1) q))
    (Ideal.ofBits .f32 0x00000000#32)

/-- One logit, from the features, the classifier's weights and its bias row. -/
def logitAt (X : (⟨2, ![100000, 128]⟩ : Shape).Idx → EReal) (W : (⟨2, ![128, 16]⟩ : Shape).Idx → EReal)
    (B : (⟨2, ![1, 16]⟩ : Shape).Idx → EReal) (p : Fin 100000) (q : Fin 16) : EReal :=
  (∑ k : Fin 128, X (ix2 p k) * W (ix2 k q)) + B (ix2 (0 : Fin 1) q)

/-- The maximum of a row of sixteen values, folded from the lowest value of the format. -/
def rowMax (L : Fin 16 → EReal) : EReal := Finset.univ.fold max (Ideal.ofBits .f32 0xFF800000#32) L

/-- One entry of a row's log-softmax. -/
def logSoftmaxAt (L : Fin 16 → EReal) (q : Fin 16) : EReal :=
  (L q - rowMax L) - Ideal.log (∑ j : Fin 16, Ideal.exp (L j - rowMax L))

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibGram.lean ====
/-
  The product of a matrix's transpose with a matrix, read at an entry. For the dimension numbers "contract the left
  operand's rows with the right operand's rows, no batch axis", the vector unit's product into a zero accumulator is,
  at entry (a, b) and over the extended reals, the sum over the rows r of x(r, a) · y(r, b).
-/
import Idealize.ShloMosaic.PureOps.Ideal
import Idealize.ShloMosaic.PureOps.Ideal.Laws
import Idealize.ShloMosaic.Lib.ValueIdx

noncomputable section

open scoped BigOperators

namespace Cert.LibGram

open Idealize.ShloMosaic Idealize.ShloMosaic.ValueIdx

/-! ## The four coordinates of the operand indices

  With the left operand's columns the only free left axis, the right operand's columns the only free right axis and
  the rows shared, the left operand is read at (shared coordinate, row of the entry) and the right operand at
  (shared coordinate, column of the entry). -/

section Axes

variable {R A B : Nat} (d : DotDims ⟨2, ![R, A]⟩ ⟨2, ![R, B]⟩ ⟨2, ![A, B]⟩)

/-- One shared axis. -/
theorem rank_contr_one (hl : d.lhsContracting = [0]) : d.contr.rank = 1 := by
  rw [d.rank_contr, hl]; rfl

/-- The shared axis has the operands' row count. -/
theorem size_contr_zero (hl : d.lhsContracting = [0]) :
    d.contr.size ⟨0, by rw [rank_contr_one d hl]; exact Nat.one_pos⟩ = R := by
  have h := d.size_contr 0 (by rw [hl]; exact Nat.one_pos)
  rw [h]
  have h1 : d.lhsContracting[0]'(by rw [hl]; exact Nat.one_pos) = (0 : Fin 2) := by simp [hl]
  rw [h1]; rfl

/-- The left operand's row coordinate is the shared coordinate. -/
theorem lhs_axis0 (hl : d.lhsContracting = [0]) (j : (⟨2, ![A, B]⟩ : Shape).Idx) (k : d.contr.Idx) :
    (d.lhsIdx j k 0 : ℕ) = (k ⟨0, by rw [rank_contr_one d hl]; exact Nat.one_pos⟩ : ℕ) :=
  d.lhsIdx_val_of_single hl j k

/-- The left operand's column coordinate is the entry's row. -/
theorem lhs_axis1 (hln : d.lhsNonContracting = [1]) (hlb : d.lhsBatch = [])
    (j : (⟨2, ![A, B]⟩ : Shape).Idx) (k : d.contr.Idx) : (d.lhsIdx j k 1 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's row coordinate is the shared coordinate. -/
theorem rhs_axis0 (hl : d.lhsContracting = [0]) (hr : d.rhsContracting = [0]) (j : (⟨2, ![A, B]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [1]) (hrn : d.rhsNonContracting = [1]) (hlb : d.lhsBatch = [])
    (hrb : d.rhsBatch = []) (j : (⟨2, ![A, B]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a transposed product, re-indexed by the shared axis's coordinate: the left operand is read
    at (r, a), the right one at (r, b). -/
theorem contr_sum_transposed {R A B : Nat} {φ₁ φ₂ : FTy} (d : DotDims ⟨2, ![R, A]⟩ ⟨2, ![R, B]⟩ ⟨2, ![A, B]⟩)
    (hl : d.lhsContracting = [0]) (hr : d.rhsContracting = [0]) (hln : d.lhsNonContracting = [1])
    (hrn : d.rhsNonContracting = [1]) (hlb : d.lhsBatch = []) (hrb : d.rhsBatch = [])
    (x : FVec Ideal ⟨2, ![R, A]⟩ φ₁) (y : FVec Ideal ⟨2, ![R, B]⟩ φ₂) (a : Fin A) (b : Fin B) :
    (∑ k : d.contr.Idx, x (d.lhsIdx (ix2 a b) k) * y (d.rhsIdx (ix2 a b) k)) = ∑ r : Fin R, x (ix2 r a) * y (ix2 r b) := by
  rw [← Equiv.sum_comp (contrEquiv1 d R (rank_contr_one d hl) (size_contr_zero d hl)).symm]
  refine Finset.sum_congr rfl fun r _ => ?_
  have hk := contrEquiv1_symm_val d R (rank_contr_one d hl) (size_contr_zero d hl) r
  have hx : d.lhsIdx (ix2 a b) ((contrEquiv1 d R (rank_contr_one d hl) (size_contr_zero d hl)).symm r) = ix2 r a := by
    funext ax
    match ax with
    | ⟨0, _⟩ => exact Fin.ext ((lhs_axis0 d hl _ _).trans hk)
    | ⟨1, _⟩ => exact Fin.ext (lhs_axis1 d hln hlb _ _)
  have hy : d.rhsIdx (ix2 a b) ((contrEquiv1 d R (rank_contr_one d hl) (size_contr_zero d hl)).symm r) = ix2 r b := by
    funext ax
    match ax with
    | ⟨0, _⟩ => exact Fin.ext ((rhs_axis0 d hl hr _ _).trans hk)
    | ⟨1, _⟩ => exact Fin.ext (rhs_axis1 d hln hrn hlb hrb _ _)
  rw [hx, hy]

/-- The vector unit's transposed product into the zero accumulator, at entry (a, b). -/
theorem matmul_transposed_zero_at {R A B : Nat} {φ₁ φ₂ : FTy} (d : DotDims ⟨2, ![R, A]⟩ ⟨2, ![R, B]⟩ ⟨2, ![A, B]⟩)
    (hl : d.lhsContracting = [0]) (hr : d.rhsContracting = [0]) (hln : d.lhsNonContracting = [1])
    (hrn : d.rhsNonContracting = [1]) (hlb : d.lhsBatch = []) (hrb : d.rhsBatch = [])
    (prec : Option ContractPrecision) (x : FVec Ideal ⟨2, ![R, A]⟩ φ₁) (y : FVec Ideal ⟨2, ![R, B]⟩ φ₂) (a : Fin A) (b : Fin B) :
    FloatOps.matmul d prec x y (constant ⟨2, ![A, B]⟩ .f32 0x00000000#32) (ix2 a b) = ∑ r : Fin R, x (ix2 r a) * y (ix2 r b) := by
  rw [Ideal.matmul_constant_zero_apply]
  exact contr_sum_transposed d hl hr hln hrn hlb hrb x y a b

end Cert.LibGram

end
-- ==== Proof.LibTileSum.lean ====
/-
  Sums over tiles, regrouped. A sum over the rows of T consecutive tiles of n rows each is one sum over the T·n rows:
  row r of tile s is row n·s + r. Stated over the natural numbers (ranges) and over finite index types.
-/
import Mathlib.Algebra.BigOperators.Group.Finset.Basic
import Mathlib.Algebra.BigOperators.Fin
import Mathlib.Data.Fintype.BigOperators
import Mathlib.Logic.Equiv.Fin.Basic

open scoped BigOperators

namespace Cert.LibTileSum

variable {β : Type*} [AddCommMonoid β]

/-- The sum over T tiles of the sums over each tile's n rows is the sum over the first n·T rows. -/
theorem sum_range_tiles (f : ℕ → β) (n : ℕ) :
    ∀ T : ℕ, ∑ s ∈ Finset.range T, ∑ r ∈ Finset.range n, f (n * s + r) = ∑ R ∈ Finset.range (n * T), f R
  | 0 => by simp
  | T + 1 => by
    rw [Finset.sum_range_succ, sum_range_tiles f n T, Nat.mul_succ, Finset.sum_range_add]

/-- A sum over the T·n rows, tile by tile: row (s, r) is row r + n·s. -/
theorem sum_fin_tiles (T n : ℕ) (g : Fin (T * n) → β) :
    ∑ R : Fin (T * n), g R = ∑ s : Fin T, ∑ r : Fin n, g (finProdFinEquiv (s, r)) := by
  rw [← Fintype.sum_prod_type' (f := fun s r => g (finProdFinEquiv (s, r)))]
  exact (Fintype.sum_equiv finProdFinEquiv _ _ (fun _ => rfl)).symm

/-- The position of row r of tile s among all rows. -/
theorem finProdFinEquiv_val (T n : ℕ) (s : Fin T) (r : Fin n) :
    ((finProdFinEquiv (s, r) : Fin (T * n)) : ℕ) = r.val + n * s.val := rfl

end Cert.LibTileSum
-- ==== Proof.Region0.lean ====
/-
  The first projection region, read as functions of the arrays it finds. Its first result array is the matrix product
  of the node features with the weights: entry (p, q) is Σₖ x(p,k)·w(k,q). Its second result array is that product's
  Gram matrix, accumulated over the twenty row tiles from a zero block: entry (a, b) is Σᵣ y(r,a)·y(r,b) over all
  100000 rows r of the product y — the tile-by-tile sums regrouped into one sum over the rows.

  The steps. One point of the grid leaves the tile's product in the first result block and, in the second, the block
  it found plus the Gram sum over the tile's 5000 rows (the zero block at the first point). Row r of tile t is row
  5000·t + r of the arrays, so the first result array, written back tile by tile, is the whole product; and by
  induction on the point the carried second block after point n is zero plus the summands of the rows of tiles
  0 … n, which after the last point — the one point that writes it back — is the sum over all the rows.
-/
import proofs.«100003_j54760833024262_1_alg».proof.Proof.Gen.KernelIdeal.Frame
import proofs.«100003_j54760833024262_1_alg».proof.Proof.Spec
import proofs.«100003_j54760833024262_1_alg».proof.Proof.LibDot
import proofs.«100003_j54760833024262_1_alg».proof.Proof.LibGram
import proofs.«100003_j54760833024262_1_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

namespace Region0

/-! ## What one point leaves in the two result blocks

  Whatever staging buffers the body runs on, it leaves the tile's product in the first result block, and in the
  second the block it found there plus the tile product's Gram matrix; at the first point what it found is the zero
  block it has just stored. -/

section Pieces
variable {F : FTy → Type} [FloatOps F]

/-- The zero offsets of a whole-block access, as the constant function. -/
theorem hz0 : (![0, 0] : Fin 2 → Nat) = fun _ => 0 := funext fun a => by fin_cases a <;> rfl

/-- At the first point the first result block is the tile's product. -/
theorem out0_A_2_eq (c : Dev nD) (i : grid0.Coords) (a1 : Memref sig .tc .vmem S5000x256 .f32) (h1 : a1.IsWhole)
    (a2 : Memref sig .tc .vmem S256x128 .f32) (h2 : a2.IsWhole) (a3 : Memref sig .tc .vmem S5000x128 .f32) (h3 : a3.IsWhole)
    (a4 : Memref sig .tc .vmem S128x128 .f32) (h4 : a4.IsWhole) (hc : cond0_0 i)
    (x0 : Vec F S5000x256 .f32) (x1 : Vec F S256x128 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz0]
  simp only [View.readAt_eq_ld, h1.read_unread, h2.read_unread, View.ld_unit_zero (S := S5000x256) hz0,
    View.ld_unit_zero (S := S256x128) hz0]

/-- At the first point the second result block is the zero block plus the tile product's Gram matrix. -/
theorem out0_A_3_eq (c : Dev nD) (i : grid0.Coords) (a1 : Memref sig .tc .vmem S5000x256 .f32) (h1 : a1.IsWhole)
    (a2 : Memref sig .tc .vmem S256x128 .f32) (h2 : a2.IsWhole) (a3 : Memref sig .tc .vmem S5000x128 .f32) (h3 : a3.IsWhole)
    (a4 : Memref sig .tc .vmem S128x128 .f32) (h4 : a4.IsWhole) (hc : cond0_0 i)
    (x0 : Vec F S5000x256 .f32) (x1 : Vec F S256x128 .f32) :
    out0_A_3 c i a1 h1 a2 h2 a3 h3 a4 h4 hc x0 x1 = k0_pay3 x0 x1 k0_pay1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S128x128) hz0]
  simp only [View.readAt_eq_ld, h1.read_unread, h2.read_unread, View.ld_unit_zero (S := S5000x256) hz0,
    View.ld_unit_zero (S := S256x128) hz0, View.readCov_unit_zero (S := S128x128) _ hz0]

/-- At a later point the first result block is the tile's product. -/
theorem out0_B_2_eq (c : Dev nD) (i : grid0.Coords) (a1 : Memref sig .tc .vmem S5000x256 .f32) (h1 : a1.IsWhole)
    (a2 : Memref sig .tc .vmem S256x128 .f32) (h2 : a2.IsWhole) (a3 : Memref sig .tc .vmem S5000x128 .f32) (h3 : a3.IsWhole)
    (a4 : Memref sig .tc .vmem S128x128 .f32) (h4 : a4.IsWhole) (hc : ¬cond0_0 i)
    (x0 : Vec F S5000x256 .f32) (x1 : Vec F S256x128 .f32) (xo : Vec F S128x128 .f32) :
    out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz0]
  simp only [View.readAt_eq_ld, h1.read_unread, h2.read_unread, View.ld_unit_zero (S := S5000x256) hz0,
    View.ld_unit_zero (S := S256x128) hz0]

/-- At a later point the second result block is the block found there plus the tile product's Gram matrix. -/
theorem out0_B_3_eq (c : Dev nD) (i : grid0.Coords) (a1 : Memref sig .tc .vmem S5000x256 .f32) (h1 : a1.IsWhole)
    (a2 : Memref sig .tc .vmem S256x128 .f32) (h2 : a2.IsWhole) (a3 : Memref sig .tc .vmem S5000x128 .f32) (h3 : a3.IsWhole)
    (a4 : Memref sig .tc .vmem S128x128 .f32) (h4 : a4.IsWhole) (hc : ¬cond0_0 i)
    (x0 : Vec F S5000x256 .f32) (x1 : Vec F S256x128 .f32) (xo : Vec F S128x128 .f32) :
    out0_B_3 c i a1 h1 a2 h2 a3 h3 a4 h4 hc x0 x1 xo = k0_pay3 x0 x1 xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz0]
  simp only [View.readAt_eq_ld, h1.read_unread, h2.read_unread, h4.read_unread, View.ld_unit_zero (S := S5000x256) hz0,
    View.ld_unit_zero (S := S256x128) hz0, View.ld_unit_zero (S := S128x128) hz0]

end Pieces

/-! ## The tile's product, entry by entry, over the arrays the region finds -/

/-- The tile's product at an entry: the sum over the shared coordinate. -/
theorem tile_at (x : Vec Ideal S5000x256 .f32) (w : Vec Ideal S256x128 .f32) (r : Fin 5000) (q : Fin 128) :
    k0_pay2 (F := Ideal) x w (ix2 r q) = ∑ k : Fin 256, x (ix2 r k) * w (ix2 k q) := by
  unfold k0_pay2
  refine (Cert.LibDot.matmul_zero_at dot_S5000x256_S256x128_S5000x128_1_0_0_1_n_n rfl rfl rfl rfl rfl rfl none _ w r q).trans ?_
  rfl -- the feature block enters the product as it is

/-- The block indices of the four windows at a point: the row-tiled windows sit at the point's number, the whole-array
    windows at zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The grid has twenty points. -/
theorem lt0 (t : Fin cfg0.N) : t.val < 20 := by
  have h : t.val < cfg0.N := t.isLt
  have hN : cfg0.N = 20 := N_0
  omega

/-- Row r of the feature block at point t is row 5000·t + r of the feature array. -/
theorem xblk_at (c : Dev nD) (t : Fin cfg0.N) (r : Fin 5000) (k : Fin 256) :
    (iblk0 V c 0 t : Vec Ideal S5000x256 .f32) (ix2 r k)
      = (V c main_arg0 : S100000x256.Idx → EReal) (ix2 ⟨5000 * t.val + r.val, by have := lt0 t; omega⟩ k) := by
  unfold iblk0
  rw [View.read_apply]
  show V c main_arg0 _ = V c main_arg0 _
  congr 1
  funext a
  apply Fin.ext
  match a with
  | ⟨0, _⟩ => show win0_0.index t 0 * 5000 + 1 * r.val = 5000 * t.val + r.val; rw [(idx0 t).1]; omega
  | ⟨1, _⟩ => show win0_0.index t 1 * 256 + 1 * k.val = k.val; rw [(idx0 t).2.1]; omega

/-- The weight block at every point is the weight array. -/
theorem wblk_at (c : Dev nD) (t : Fin cfg0.N) (k : Fin 256) (q : Fin 128) :
    (iblk0 V c 1 t : Vec Ideal S256x128 .f32) (ix2 k q) = (V c main_arg2 : S256x128.Idx → EReal) (ix2 k q) := by
  unfold iblk0
  rw [View.read_apply]
  show V c main_arg2 _ = V c main_arg2 _
  congr 1
  funext a
  apply Fin.ext
  match a with
  | ⟨0, _⟩ => show win0_1.index t 0 * 256 + 1 * k.val = k.val; rw [(idx0 t).2.2.1]; omega
  | ⟨1, _⟩ => show win0_1.index t 1 * 128 + 1 * q.val = q.val; rw [(idx0 t).2.2.2.1]; omega

/-- The tile's product at point s, entry (r, q), is the whole product's entry (5000·s + r, q). -/
theorem tile_entry (X : S100000x256.Idx → EReal) (W : S256x128.Idx → EReal) (x : Vec Ideal S5000x256 .f32)
    (w : Vec Ideal S256x128 .f32) (s : Nat) (hs : s < 20)
    (hx : ∀ (r : Fin 5000) (k : Fin 256), x (ix2 r k) = X (ix2 ⟨5000 * s + r.val, by omega⟩ k))
    (hw : ∀ (k : Fin 256) (q : Fin 128), w (ix2 k q) = W (ix2 k q)) (r : Fin 5000) (q : Fin 128)
    (p : Fin 100000) (q' : Fin 128) (hp : p.val = 5000 * s + r.val) (hq : q'.val = q.val) :
    k0_pay2 (F := Ideal) x w (ix2 r q) = Cert.Spec.projAt X W p q' := by
  rw [tile_at]
  unfold Cert.Spec.projAt
  have ep : p = ⟨5000 * s + r.val, by omega⟩ := Fin.ext hp
  have eq : q' = q := Fin.ext hq
  rw [ep, eq]
  exact Finset.sum_congr rfl fun k _ => by rw [hx, hw]

/-- The whole product, as contents of the first result array. -/
abbrev projG (c : Dev nD) : S100000x128.Idx → EReal :=
  fun i => Cert.Spec.projAt (V c main_arg0) (V c main_arg2) ⟨(i 0).val, (i 0).isLt⟩ ⟨(i 1).val, (i 1).isLt⟩

/-- After every point the first result block holds the tile's product. -/
theorem outs_fst (c : Dev nD) (t : Fin cfg0.N) :
    (outsAt0 V c t.val t.isLt).1 = k0_pay2 (iblk0 V c 0 t) (iblk0 V c 1 t) := by
  by_cases h0 : t.val % 20 = 0
  · rw [outsAt0_A V c t h0]
    dsimp only
    exact out0_A_2_eq (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)
  · rw [outsAt0_B V c t h0]
    dsimp only
    exact out0_B_2_eq (F := Ideal) c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).2

/-- What point t writes back to the first result array is its block of the whole product. -/
theorem flushed2_eq (c : Dev nD) (t : Fin cfg0.N) :
    (dat0 V c).flushed 2 t = ((cfg0.win 2).blk t).view.read (Elt Ideal) (projG V c) := by
  show (cfg0.win 2).cut (grid0.coords t) ((dat0 V c).after 2 t) = _
  rw [after0_2, outs_fst]
  funext j
  obtain ⟨r, q, rfl⟩ : ∃ (r : Fin 5000) (q : Fin 128), j = ix2 r q := ⟨j 0, j 1, eq_ix2 j⟩
  rw [View.read_apply]
  show k0_pay2 (F := Ideal) (iblk0 V c 0 t) (iblk0 V c 1 t) (ix2 r q) = projG V c (((cfg0.win 2).blk t).view.emb (ix2 r q))
  refine tile_entry (V c main_arg0) (V c main_arg2) (iblk0 V c 0 t) (iblk0 V c 1 t) t.val (lt0 t) (xblk_at V c t)
    (wblk_at V c t) r q _ _ ?_ ?_
  · show win0_2.index t 0 * 5000 + 1 * r.val = 5000 * t.val + r.val
    rw [(idx0 t).2.2.2.2.1]; omega
  · show win0_2.index t 1 * 128 + 1 * q.val = q.val
    rw [(idx0 t).2.2.2.2.2.1]; omega

/-- A row of the first result array is in point t's block iff it is one of the tile's 5000 rows. -/
theorem mem_blk2 (t : Fin cfg0.N) (i : S100000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v33_0).slice (win0_2.rect t)).set ↔ _
  rw [View.set_slice_whole, Rect.mem_set_unit]
  exact Iff.rfl

/-! ## The Gram matrix: the running sum over the tiles, regrouped into one sum over the rows -/

/-- The product of two entries of row R of a 100000-row array (zero past the last row), as a function of the row's
    number: the summand of the Gram matrix's entry (a, b). -/
def rowTerm (Y : S100000x128.Idx → EReal) (a b : Fin 128) (R : Nat) : EReal :=
  if h : R < 100000 then Y (ix2 ⟨R, h⟩ a) * Y (ix2 ⟨R, h⟩ b) else 0

/-- The sum of the summands over all row numbers is the Gram matrix's entry. -/
theorem rowTerm_sum (Y : S100000x128.Idx → EReal) (a b : Fin 128) :
    ∑ R ∈ Finset.range 100000, rowTerm Y a b R = Cert.Spec.gramAt Y a b := by
  unfold Cert.Spec.gramAt
  rw [← Fin.sum_univ_eq_sum_range (rowTerm Y a b) 100000]
  exact Finset.sum_congr rfl fun r _ => by unfold rowTerm; rw [dif_pos r.isLt]

/-- The second result block after one point, at an entry: what the point found there plus the Gram sum over the
    tile product's 5000 rows. -/
theorem pay3_at (x : Vec Ideal S5000x256 .f32) (w : Vec Ideal S256x128 .f32) (acc : Vec Ideal S128x128 .f32) (a b : Fin 128) :
    k0_pay3 (F := Ideal) x w acc (ix2 a b)
      = acc (ix2 a b) + ∑ r : Fin 5000, k0_pay2 (F := Ideal) x w (ix2 r a) * k0_pay2 (F := Ideal) x w (ix2 r b) := by
  unfold k0_pay3
  refine (addf_apply _ _ _).trans ?_
  refine congrArg₂ (· + ·) ?_ ?_
  · exact congrFun (shapeCast_self acc _) (ix2 a b)
  · exact Cert.LibGram.matmul_transposed_zero_at dot_S5000x128_S5000x128_S128x128_0_0_1_1_n_n rfl rfl rfl rfl rfl rfl none
      (k0_pay2 (F := Ideal) x w) (k0_pay2 (F := Ideal) x w) a b

/-- When the tile's product is rows 5000·s … 5000·s + 4999 of Y, the point adds those rows' summands. -/
theorem pay3_step (Y : S100000x128.Idx → EReal) (x : Vec Ideal S5000x256 .f32) (w : Vec Ideal S256x128 .f32)
    (acc : Vec Ideal S128x128 .f32) (s : Nat) (hs : s < 20)
    (hy : ∀ (r : Fin 5000) (q : Fin 128), k0_pay2 (F := Ideal) x w (ix2 r q) = Y (ix2 ⟨5000 * s + r.val, by omega⟩ q))
    (a b : Fin 128) :
    k0_pay3 (F := Ideal) x w acc (ix2 a b)
      = acc (ix2 a b) + ∑ r ∈ Finset.range 5000, rowTerm Y a b (5000 * s + r) := by
  rw [pay3_at, ← Fin.sum_univ_eq_sum_range (fun r => rowTerm Y a b (5000 * s + r)) 5000]
  refine congrArg _ (Finset.sum_congr rfl fun r _ => ?_)
  have hlt : 5000 * s + r.val < 100000 := by omega
  unfold rowTerm
  rw [dif_pos hlt, hy r a, hy r b]

/-- The tile's product at point t is rows 5000·t … of the whole product. -/
theorem hy_at (c : Dev nD) (t : Fin cfg0.N) (r : Fin 5000) (q : Fin 128) :
    k0_pay2 (F := Ideal) (iblk0 V c 0 t) (iblk0 V c 1 t) (ix2 r q)
      = projG V c (ix2 ⟨5000 * t.val + r.val, by have := lt0 t; omega⟩ q) :=
  tile_entry (V c main_arg0) (V c main_arg2) (iblk0 V c 0 t) (iblk0 V c 1 t) t.val (lt0 t) (xblk_at V c t)
    (wblk_at V c t) r q _ _ rfl rfl

/-- At the first point the second result block is the zero block plus the first tile's rows' summands. -/
theorem snd_A (c : Dev nD) (t : Fin cfg0.N) (h0 : t.val % 20 = 0) (a b : Fin 128) :
    (outsAt0 V c t.val t.isLt).2 (ix2 a b)
      = Ideal.ofBits .f32 0x00000000#32 + ∑ r ∈ Finset.range 5000, rowTerm (projG V c) a b (5000 * t.val + r) := by
  rw [outsAt0_A V c t h0]
  dsimp only
  refine (congrFun (out0_A_3_eq (F := Ideal) c (grid0.coords t) (ms0_0 t) (hs0_0 t) (ms0_1 t) (hs0_1 t) (ms0_2 t) (hs0_2 t)
    (ms0_3 t) (hs0_3 t) ((hcond0_0 t).mpr h0) (iblk0 V c 0 t) (iblk0 V c 1 t)) (ix2 a b)).trans ?_
  exact pay3_step (projG V c) (iblk0 V c 0 t) (iblk0 V c 1 t) (k0_pay1 (F := Ideal)) t.val (lt0 t) (hy_at V c t) a b

/-- At a later point it is what the point before left plus the tile's rows' summands. -/
theorem snd_B (c : Dev nD) (t : Fin cfg0.N) (h0 : ¬t.val % 20 = 0) (a b : Fin 128) :
    (outsAt0 V c t.val t.isLt).2 (ix2 a b)
      = (outsAt0 V c (t.val - 1) (Nat.lt_of_le_of_lt (Nat.sub_le _ _) t.isLt)).2 (ix2 a b)
        + ∑ r ∈ Finset.range 5000, rowTerm (projG V c) a b (5000 * t.val + r) := by
  rw [outsAt0_B V c t h0]
  dsimp only
  refine (congrFun (out0_B_3_eq (F := Ideal) c (grid0.coords t) (ms0_0 t) (hs0_0 t) (ms0_1 t) (hs0_1 t) (ms0_2 t) (hs0_2 t)
    (ms0_3 t) (hs0_3 t) (fun h => h0 ((hcond0_0 t).mp h)) (iblk0 V c 0 t) (iblk0 V c 1 t)
    (outsAt0 V c (t.val - 1) (Nat.lt_of_le_of_lt (Nat.sub_le _ _) t.isLt)).2) (ix2 a b)).trans ?_
  exact pay3_step (projG V c) (iblk0 V c 0 t) (iblk0 V c 1 t)
    (outsAt0 V c (t.val - 1) (Nat.lt_of_le_of_lt (Nat.sub_le _ _) t.isLt)).2 t.val (lt0 t) (hy_at V c t) a b

/-- After point n the second result block holds the zero block plus the summands of the rows of tiles 0 … n. -/
theorem acc_eq (c : Dev nD) : ∀ (n : ℕ) (h : n < cfg0.N) (a b : Fin 128),
    (outsAt0 V c n h).2 (ix2 a b)
      = Ideal.ofBits .f32 0x00000000#32
        + ∑ s ∈ Finset.range (n + 1), ∑ r ∈ Finset.range 5000, rowTerm (projG V c) a b (5000 * s + r)
  | 0, h, a, b => by
    refine (snd_A V c ⟨0, h⟩ rfl a b).trans ?_
    rw [Finset.sum_range_one]
  | n + 1, h, a, b => by
    have hB : ¬(⟨n + 1, h⟩ : Fin cfg0.N).val % 20 = 0 := by
      have := lt0 ⟨n + 1, h⟩
      dsimp only at this ⊢
      omega
    refine (snd_B V c ⟨n + 1, h⟩ hB a b).trans ?_
    show (outsAt0 V c n _).2 (ix2 a b) + _ = _
    rw [acc_eq c n (Nat.lt_of_succ_lt h) a b, Finset.sum_range_succ _ (n + 1), add_assoc]

/-- The Gram matrix of the whole product, as contents of the second result array. -/
abbrev gramG (c : Dev nD) : S128x128.Idx → EReal :=
  fun i => Cert.Spec.gramAt (projG V c) ⟨(i 0).val, (i 0).isLt⟩ ⟨(i 1).val, (i 1).isLt⟩

/-- The second result array's one block is the whole array: a block's contents, written back, are read back as they are. -/
theorem whole3 (t : Fin cfg0.N) (g : S128x128.Idx → EReal) :
    (cfg0.win 3).cut (grid0.coords t) g = ((cfg0.win 3).blk t).view.read (Elt Ideal) g := by
  funext j
  obtain ⟨a, b, rfl⟩ : ∃ (a : Fin 128) (b : Fin 128), j = ix2 a b := ⟨j 0, j 1, eq_ix2 j⟩
  rw [View.read_apply]
  have e : ((cfg0.win 3).blk t).view.emb (ix2 a b) = (ix2 a b : S128x128.Idx) := by
    funext d
    apply Fin.ext
    match d with
    | ⟨0, _⟩ => show win0_3.index t 0 * 128 + 1 * a.val = a.val; rw [(idx0 t).2.2.2.2.2.2.1]; omega
    | ⟨1, _⟩ => show win0_3.index t 1 * 128 + 1 * b.val = b.val; rw [(idx0 t).2.2.2.2.2.2.2]; omega
  rw [e]
  rfl

/-- The one write-back to the second result array, at the last point, writes the Gram matrix: all twenty tiles' rows are
    all the rows. -/
theorem flushed3_eq (c : Dev nD) (t : Fin cfg0.N) (hf : (cfg0.win 3).flush t = true) :
    (dat0 V c).flushed 3 t = ((cfg0.win 3).blk t).view.read (Elt Ideal) (gramG V c) := by
  have h19 : t.val % 20 = 19 := (flush0_3 t).mp hf
  have ht : t.val + 1 = 20 := by have := lt0 t; omega
  have key : (outsAt0 V c t.val t.isLt).2 = gramG V c := by
    funext j
    obtain ⟨a, b, rfl⟩ : ∃ (a : Fin 128) (b : Fin 128), j = ix2 a b := ⟨j 0, j 1, eq_ix2 j⟩
    rw [acc_eq V c t.val t.isLt a b, ht, Cert.LibTileSum.sum_range_tiles (rowTerm (projG V c) a b) 5000 20,
      Ideal.ofBits_zero_f32, zero_add]
    exact rowTerm_sum (projG V c) a b
  show (cfg0.win 3).cut (grid0.coords t) ((dat0 V c).after 3 t) = _
  rw [after0_3, key]
  exact whole3 t (gramG V c)

/-- An entry of the second result array is in point t's block (the whole array) iff its coordinates are in range. -/
theorem mem_blk3 (t : Fin cfg0.N) (i : S128x128.Idx) :
    i ∈ ((cfg0.win 3).blk t).view.set
      ↔ ∀ a : Fin 2, win0_3.index t a * S128x128.size a ≤ (i a).val ∧ (i a).val < win0_3.index t a * S128x128.size a + S128x128.size a := by
  show i ∈ ((View.whole main_v33_1).slice (win0_3.rect t)).set ↔ _
  rw [View.set_slice_whole, Rect.mem_set_unit]
  exact Iff.rfl

end Region0

open Region0

/-- The projected features after the region's twenty points: the product of the features with the weights. -/
theorem proj0_final (c : Dev nD) :
    (dat0 (F := Ideal) V c).arrAt 2 cfg0.N
      = fun i : S100000x128.Idx => Cert.Spec.projAt (V c main_arg0) (V c main_arg2) ⟨(i 0).val, (i 0).isLt⟩ ⟨(i 1).val, (i 1).isLt⟩ := by
  refine (dat0 V c).arrAt_eq_of_cover 2 (projG V c) (fun t _ => flushed2_eq V c t) fun i => ?_
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_blk2]
  intro a
  match a with
  | ⟨0, _⟩ =>
    show win0_2.index ⟨(i 0).val / 5000, _⟩ 0 * 5000 ≤ (i 0).val ∧ (i 0).val < win0_2.index ⟨(i 0).val / 5000, _⟩ 0 * 5000 + 5000
    rw [(idx0 _).2.2.2.2.1]
    show (i 0).val / 5000 * 5000 ≤ (i 0).val ∧ (i 0).val < (i 0).val / 5000 * 5000 + 5000
    omega
  | ⟨1, _⟩ =>
    show win0_2.index ⟨(i 0).val / 5000, _⟩ 1 * 128 ≤ (i 1).val ∧ (i 1).val < win0_2.index ⟨(i 0).val / 5000, _⟩ 1 * 128 + 128
    rw [(idx0 _).2.2.2.2.2.1]
    omega

/-- The Gram matrix after the region's twenty points: the sum, over all rows of the projected features, of the
    products of two of the row's entries. -/
theorem gram0_final (c : Dev nD) :
    (dat0 (F := Ideal) V c).arrAt 3 cfg0.N
      = fun i : S128x128.Idx => Cert.Spec.gramAt ((dat0 (F := Ideal) V c).arrAt 2 cfg0.N) ⟨(i 0).val, (i 0).isLt⟩ ⟨(i 1).val, (i 1).isLt⟩ := by
  rw [proj0_final V c]
  refine (dat0 V c).arrAt_eq_of_cover 3 (gramG V c) (flushed3_eq V c) fun i => ?_
  have hi0 : (i 0).val < 128 := (i 0).isLt
  have hi1 : (i 1).val < 128 := (i 1).isLt
  have hN : cfg0.N = 20 := N_0
  refine ⟨⟨19, by omega⟩, (flush0_3 _).mpr rfl, ?_⟩
  rw [mem_blk3]
  intro a
  match a with
  | ⟨0, _⟩ =>
    show win0_3.index ⟨19, _⟩ 0 * 128 ≤ (i 0).val ∧ (i 0).val < win0_3.index ⟨19, _⟩ 0 * 128 + 128
    rw [(idx0 _).2.2.2.2.2.2.1]
    omega
  | ⟨1, _⟩ =>
    show win0_3.index ⟨19, _⟩ 1 * 128 ≤ (i 1).val ∧ (i 1).val < win0_3.index ⟨19, _⟩ 1 * 128 + 128
    rw [(idx0 _).2.2.2.2.2.2.2]
    omega

end Cert.KernelIdeal.Val

end
-- ==== Proof.Region1.lean ====
/-
  The first combine region, read as one function of the arrays it finds: every entry (p, q) of its result array is
  max(c₁·y(p,q) + s(p,q) − c₂·Σₖ y(p,k)·g(k,q) + b(0,q), 0), with y the projected features, g their Gram matrix, s the
  propagated term, b the bias row and c₁, c₂ the two literal scales.
-/
import proofs.«100003_j54760833024262_1_alg».proof.Proof.Gen.KernelIdeal.Frame
import proofs.«100003_j54760833024262_1_alg».proof.Proof.Spec
import proofs.«100003_j54760833024262_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

/-! ## One entry of a block -/

/-- The block's entry (r, q): the scaled feature plus the propagated term, minus the scaled product of the feature
    row with the Gram matrix's column, plus the bias, clipped below at zero. -/
theorem combine1_payload_at (x0 x2 : Vec Ideal S5000x128 .f32) (x1 : Vec Ideal S128x128 .f32) (x3 : Vec Ideal S1x128 .f32)
    (r : Fin 5000) (q : Fin 128) :
    k1_pay1 (F := Ideal) x0 x1 x2 x3 (ix2 r q)
      = max (Ideal.ofBits .f32 0x3F733333#32 * x0 (ix2 r q) + x2 (ix2 r q)
          - Ideal.ofBits .f32 0x3D4CCCCD#32 * (∑ k : Fin 128, x0 (ix2 r k) * x1 (ix2 k q)) + x3 (ix2 (0 : Fin 1) q))
        (Ideal.ofBits .f32 0x00000000#32) := by
  unfold k1_pay1
  simp only [shapeCast_self]
  rw [maximumf_apply, addf_apply, subf_apply, addf_apply, mulf_apply, mulf_apply]
  have hm : matmul (F := Ideal) dot_S5000x128_S128x128_S5000x128_1_0_0_1_n_n none x0 x1 (constant S5000x128 .f32 0x00000000#32) (ix2 r q)
      = ∑ k : Fin 128, x0 (ix2 r k) * x1 (ix2 k q) :=
    Cert.LibDot.matmul_zero_at (φ₁ := .f32) (φ₂ := .f32) dot_S5000x128_S128x128_S5000x128_1_0_0_1_n_n rfl rfl rfl rfl rfl rfl none x0 x1 r q
  have hb : broadcastTo S5000x128 x3 broadcasts_S1x128_S5000x128 (ix2 r q) = x3 (ix2 (0 : Fin 1) q) :=
    broadcastTo_1b_ab_apply x3 broadcasts_S1x128_S5000x128 r q
  rw [hm, hb]
  rfl

/-! ## The twenty row blocks -/

/-- A rectangle that starts at the block's corner has both offsets zero. -/
theorem combine1_offsets_zero : (![0, 0] : Fin 2 → Nat) = fun _ => 0 := funext fun a => by fin_cases a <;> rfl

/-- Where each window's block sits at point t: the three row-tiled arrays at row block t, the Gram matrix and the
    bias row whole. -/
theorem combine1_block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The region has twenty points. -/
theorem combine1_point_lt (t : Fin cfg1.N) : t.val < 20 := by
  have h := t.isLt
  have e : cfg1.N = 20 := N_1
  omega

/-- Row r of the feature block at point t is row 5000·t + r of the projected features. -/
theorem combine1_features_block_at (c : Dev nD) (t : Fin cfg1.N) (x : S5000x128.Idx) (k : S100000x128.Idx)
    (hk0 : (k 0).val = 5000 * t.val + (x 0).val) (hk1 : (k 1).val = (x 1).val) :
    (iblk1 (F := Ideal) V c 0 t : Vec Ideal S5000x128 .f32) x = (V c main_v33_0 : S100000x128.Idx → EReal) k := by
  obtain ⟨h0, h1, -⟩ := combine1_block_indices t
  unfold iblk1
  rw [View.read_apply]
  show V c main_v33_0 _ = V c main_v33_0 _
  congr 1
  funext a
  apply Fin.ext
  match a with
  | ⟨0, _⟩ => show win1_0.index t (0 : Fin 2) * 5000 + 1 * (x 0).val = (k 0).val; rw [h0, hk0]; omega
  | ⟨1, _⟩ => show win1_0.index t (1 : Fin 2) * 128 + 1 * (x 1).val = (k 1).val; rw [h1, hk1]; omega

/-- The Gram matrix's block is the whole matrix at every point. -/
theorem combine1_gram_block_at (c : Dev nD) (t : Fin cfg1.N) (x : S128x128.Idx) :
    (iblk1 (F := Ideal) V c 1 t : Vec Ideal S128x128 .f32) x = (V c main_v33_1 : S128x128.Idx → EReal) x := by
  obtain ⟨-, -, h0, h1, -⟩ := combine1_block_indices t
  unfold iblk1
  rw [View.read_apply]
  show V c main_v33_1 _ = V c main_v33_1 _
  congr 1
  funext a
  apply Fin.ext
  match a with
  | ⟨0, _⟩ => show win1_1.index t (0 : Fin 2) * 128 + 1 * (x 0).val = (x 0).val; rw [h0]; omega
  | ⟨1, _⟩ => show win1_1.index t (1 : Fin 2) * 128 + 1 * (x 1).val = (x 1).val; rw [h1]; omega

/-- Row r of the propagated term's block at point t is row 5000·t + r of the propagated term. -/
theorem combine1_propagated_block_at (c : Dev nD) (t : Fin cfg1.N) (x : S5000x128.Idx) (k : S100000x128.Idx)
    (hk0 : (k 0).val = 5000 * t.val + (x 0).val) (hk1 : (k 1).val = (x 1).val) :
    (iblk1 (F := Ideal) V c 2 t : Vec Ideal S5000x128 .f32) x = (V c main_v48 : S100000x128.Idx → EReal) k := by
  obtain ⟨-, -, -, -, h0, h1, -⟩ := combine1_block_indices t
  unfold iblk1
  rw [View.read_apply]
  show V c main_v48 _ = V c main_v48 _
  congr 1
  funext a
  apply Fin.ext
  match a with
  | ⟨0, _⟩ => show win1_2.index t (0 : Fin 2) * 5000 + 1 * (x 0).val = (k 0).val; rw [h0, hk0]; omega
  | ⟨1, _⟩ => show win1_2.index t (1 : Fin 2) * 128 + 1 * (x 1).val = (k 1).val; rw [h1, hk1]; omega

/-- The bias row's block is the whole row at every point. -/
theorem combine1_bias_block_at (c : Dev nD) (t : Fin cfg1.N) (x : S1x128.Idx) :
    (iblk1 (F := Ideal) V c 3 t : Vec Ideal S1x128 .f32) x = (V c main_v49 : S1x128.Idx → EReal) x := by
  obtain ⟨-, -, -, -, -, -, h0, h1, -⟩ := combine1_block_indices t
  unfold iblk1
  rw [View.read_apply]
  show V c main_v49 _ = V c main_v49 _
  congr 1
  funext a
  apply Fin.ext
  match a with
  | ⟨0, _⟩ => show win1_3.index t (0 : Fin 2) * 1 + 1 * (x 0).val = (x 0).val; rw [h0]; omega
  | ⟨1, _⟩ => show win1_3.index t (1 : Fin 2) * 128 + 1 * (x 1).val = (x 1).val; rw [h1]; omega

/-- What point t writes back is row block t of the layer's function of the arrays the region finds. -/
theorem combine1_flushed (c : Dev nD) (t : Fin cfg1.N) :
    (dat1 (F := Ideal) V c).flushed 4 t = ((cfg1.win 4).blk t).view.read (Elt Ideal)
      (fun i : S100000x128.Idx => Cert.Spec.layerAt (V c main_v33_0) (V c main_v33_1) (V c main_v48) (V c main_v49) ⟨(i 0).val, (i 0).isLt⟩ ⟨(i 1).val, (i 1).isLt⟩) := by
  show (cfg1.win 4).cut (grid1.coords t) ((dat1 V c).after 4 t) = _
  rw [after1_4]
  unfold out1_4
  rw [View.canon_unit_zero combine1_offsets_zero]
  simp only [View.ld_unit_zero (S := S5000x128) combine1_offsets_zero, View.ld_unit_zero (S := S128x128) combine1_offsets_zero,
    View.ld_unit_zero (S := S1x128) combine1_offsets_zero]
  obtain ⟨-, -, -, -, -, -, -, -, h0, h1⟩ := combine1_block_indices t
  have ht := combine1_point_lt t
  funext j
  obtain ⟨r, q, rfl⟩ : ∃ (r : Fin 5000) (q : Fin 128), j = ix2 r q := ⟨j 0, j 1, eq_ix2 (n0 := 5000) (n1 := 128) j⟩
  have hemb : ((cfg1.win 4).blk t).view.emb (ix2 r q)
      = (ix2 (⟨5000 * t.val + r.val, by omega⟩ : Fin 100000) q : S100000x128.Idx) := by
    funext a; apply Fin.ext
    match a with
    | ⟨0, _⟩ => show win1_4.index t (0 : Fin 2) * 5000 + 1 * r.val = 5000 * t.val + r.val; rw [h0]; omega
    | ⟨1, _⟩ => show win1_4.index t (1 : Fin 2) * 128 + 1 * q.val = q.val; rw [h1]; omega
  rw [View.read_apply, hemb]
  refine (combine1_payload_at _ _ _ _ r q).trans ?_
  have a0 : ∀ k : Fin 128, (iblk1 (F := Ideal) V c 0 t : Vec Ideal S5000x128 .f32) (ix2 r k)
      = (V c main_v33_0 : S100000x128.Idx → EReal) (ix2 (⟨5000 * t.val + r.val, by omega⟩ : Fin 100000) k) :=
    fun k => combine1_features_block_at V c t _ _ rfl rfl
  have a1 : ∀ k : Fin 128, (iblk1 (F := Ideal) V c 1 t : Vec Ideal S128x128 .f32) (ix2 k q)
      = (V c main_v33_1 : S128x128.Idx → EReal) (ix2 k q) :=
    fun k => combine1_gram_block_at V c t _
  have a2 : (iblk1 (F := Ideal) V c 2 t : Vec Ideal S5000x128 .f32) (ix2 r q)
      = (V c main_v48 : S100000x128.Idx → EReal) (ix2 (⟨5000 * t.val + r.val, by omega⟩ : Fin 100000) q) :=
    combine1_propagated_block_at V c t _ _ rfl rfl
  have a3 : (iblk1 (F := Ideal) V c 3 t : Vec Ideal S1x128 .f32) (ix2 (0 : Fin 1) q)
      = (V c main_v49 : S1x128.Idx → EReal) (ix2 (0 : Fin 1) q) :=
    combine1_bias_block_at V c t _
  simp only [a0, a1, a2, a3]
  rfl

/-- An index is in point t's block iff each coordinate is in the block's range on its axis. -/
theorem combine1_mem_row_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v50).slice (win1_4.rect t)).set ↔ _
  rw [View.set_slice_whole, Rect.mem_set_unit]
  exact Iff.rfl

/-- Every index of the result array is in the block of the point its row falls in. -/
theorem combine1_rows_covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, h0, h1⟩ := combine1_block_indices t
  have ht : t.val = (i 0).val / 5000 := rfl
  refine ⟨t, flush1_4 t, ?_⟩
  rw [combine1_mem_row_block]
  intro a
  match a with
  | ⟨0, _⟩ => show win1_4.index t (0 : Fin 2) * 5000 ≤ (i 0).val ∧ (i 0).val < win1_4.index t (0 : Fin 2) * 5000 + 5000; rw [h0, ht]; omega
  | ⟨1, _⟩ => show win1_4.index t (1 : Fin 2) * 128 ≤ (i 1).val ∧ (i 1).val < win1_4.index t (1 : Fin 2) * 128 + 128; rw [h1]; omega

/-- The result array of the first combine region after its twenty points. -/
theorem combine1_final (c : Dev nD) :
    (dat1 (F := Ideal) V c).arrAt 4 cfg1.N
      = fun i : S100000x128.Idx => Cert.Spec.layerAt (V c main_v33_0) (V c main_v33_1) (V c main_v48) (V c main_v49) ⟨(i 0).val, (i 0).isLt⟩ ⟨(i 1).val, (i 1).isLt⟩ :=
  (dat1 (F := Ideal) V c).arrAt_eq_of_cover 4 _ (fun t _ => combine1_flushed V c t) combine1_rows_covered

end Cert.KernelIdeal.Val

end
-- ==== Proof.Region2.lean ====
/-
  The second projection region, read as functions of the arrays it finds. Its first result array is the matrix product
  of the node features with the weights: entry (p, q) is Σₖ x(p,k)·w(k,q). Its second result array is that product's
  Gram matrix, accumulated over the twenty row tiles from a zero block: entry (a, b) is Σᵣ y(r,a)·y(r,b) over all
  100000 rows r of the product y — the tile-by-tile sums regrouped into one sum over the rows.

  The steps. One point of the grid leaves the tile's product in the first result block and, in the second, the block
  it found plus the Gram sum over the tile's 5000 rows (the zero block at the first point). Row r of tile t is row
  5000·t + r of the arrays, so the first result array, written back tile by tile, is the whole product; and by
  induction on the point the carried second block after point n is zero plus the summands of the rows of tiles
  0 … n, which after the last point — the one point that writes it back — is the sum over all the rows.
-/
import proofs.«100003_j54760833024262_1_alg».proof.Proof.Gen.KernelIdeal.Frame
import proofs.«100003_j54760833024262_1_alg».proof.Proof.Spec
import proofs.«100003_j54760833024262_1_alg».proof.Proof.LibDot
import proofs.«100003_j54760833024262_1_alg».proof.Proof.LibGram
import proofs.«100003_j54760833024262_1_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

namespace Region2

/-! ## What one point leaves in the two result blocks

  Whatever staging buffers the body runs on, it leaves the tile's product in the first result block, and in the
  second the block it found there plus the tile product's Gram matrix; at the first point what it found is the zero
  block it has just stored. -/

section Pieces
variable {F : FTy → Type} [FloatOps F]

/-- The zero offsets of a whole-block access, as the constant function. -/
theorem hz0 : (![0, 0] : Fin 2 → Nat) = fun _ => 0 := funext fun a => by fin_cases a <;> rfl

/-- At the first point the first result block is the tile's product. -/
theorem out2_A_2_eq (c : Dev nD) (i : grid2.Coords) (a1 : Memref sig .tc .vmem S5000x128 .f32) (h1 : a1.IsWhole)
    (a2 : Memref sig .tc .vmem S128x128 .f32) (h2 : a2.IsWhole) (a3 : Memref sig .tc .vmem S5000x128 .f32) (h3 : a3.IsWhole)
    (a4 : Memref sig .tc .vmem S128x128 .f32) (h4 : a4.IsWhole) (hc : cond2_0 i)
    (x0 : Vec F S5000x128 .f32) (x1 : Vec F S128x128 .f32) :
    out2_A_2 c i a1 h1 a2 h2 a3 h3 a4 h4 hc x0 x1 = k2_pay2 x0 x1 := by
  unfold out2_A_2
  rw [View.read_writes_eq_canon _ _ _ (cover2_A_2 c i a1 h1 a2 h2 a3 h3 a4 h4 hc x0 x1)]
  unfold kernelRun2_A
  dsimp only
  sl_unfold_words
  rw [View.canon_unit_zero hz0]
  simp only [View.readAt_eq_ld, h1.read_unread, h2.read_unread, View.ld_unit_zero (S := S5000x128) hz0,
    View.ld_unit_zero (S := S128x128) hz0]

/-- At the first point the second result block is the zero block plus the tile product's Gram matrix. -/
theorem out2_A_3_eq (c : Dev nD) (i : grid2.Coords) (a1 : Memref sig .tc .vmem S5000x128 .f32) (h1 : a1.IsWhole)
    (a2 : Memref sig .tc .vmem S128x128 .f32) (h2 : a2.IsWhole) (a3 : Memref sig .tc .vmem S5000x128 .f32) (h3 : a3.IsWhole)
    (a4 : Memref sig .tc .vmem S128x128 .f32) (h4 : a4.IsWhole) (hc : cond2_0 i)
    (x0 : Vec F S5000x128 .f32) (x1 : Vec F S128x128 .f32) :
    out2_A_3 c i a1 h1 a2 h2 a3 h3 a4 h4 hc x0 x1 = k2_pay3 x0 x1 k2_pay1 := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S128x128) hz0]
  simp only [View.readAt_eq_ld, h1.read_unread, h2.read_unread, View.ld_unit_zero (S := S5000x128) hz0,
    View.ld_unit_zero (S := S128x128) hz0, View.readCov_unit_zero (S := S128x128) _ hz0]

/-- At a later point the first result block is the tile's product. -/
theorem out2_B_2_eq (c : Dev nD) (i : grid2.Coords) (a1 : Memref sig .tc .vmem S5000x128 .f32) (h1 : a1.IsWhole)
    (a2 : Memref sig .tc .vmem S128x128 .f32) (h2 : a2.IsWhole) (a3 : Memref sig .tc .vmem S5000x128 .f32) (h3 : a3.IsWhole)
    (a4 : Memref sig .tc .vmem S128x128 .f32) (h4 : a4.IsWhole) (hc : ¬cond2_0 i)
    (x0 : Vec F S5000x128 .f32) (x1 : Vec F S128x128 .f32) (xo : Vec F S128x128 .f32) :
    out2_B_2 c i a1 h1 a2 h2 a3 h3 a4 h4 hc x0 x1 xo = k2_pay2 x0 x1 := by
  unfold out2_B_2
  rw [View.read_writes_eq_canon _ _ _ (cover2_B_2 c i a1 h1 a2 h2 a3 h3 a4 h4 hc x0 x1 xo)]
  unfold kernelRun2_B
  dsimp only
  sl_unfold_words
  rw [View.canon_unit_zero hz0]
  simp only [View.readAt_eq_ld, h1.read_unread, h2.read_unread, View.ld_unit_zero (S := S5000x128) hz0,
    View.ld_unit_zero (S := S128x128) hz0]

/-- At a later point the second result block is the block found there plus the tile product's Gram matrix. -/
theorem out2_B_3_eq (c : Dev nD) (i : grid2.Coords) (a1 : Memref sig .tc .vmem S5000x128 .f32) (h1 : a1.IsWhole)
    (a2 : Memref sig .tc .vmem S128x128 .f32) (h2 : a2.IsWhole) (a3 : Memref sig .tc .vmem S5000x128 .f32) (h3 : a3.IsWhole)
    (a4 : Memref sig .tc .vmem S128x128 .f32) (h4 : a4.IsWhole) (hc : ¬cond2_0 i)
    (x0 : Vec F S5000x128 .f32) (x1 : Vec F S128x128 .f32) (xo : Vec F S128x128 .f32) :
    out2_B_3 c i a1 h1 a2 h2 a3 h3 a4 h4 hc x0 x1 xo = k2_pay3 x0 x1 xo := by
  unfold out2_B_3
  rw [View.read_writes_eq_canon _ _ _ (cover2_B_3 c i a1 h1 a2 h2 a3 h3 a4 h4 hc x0 x1 xo)]
  unfold kernelRun2_B
  dsimp only
  sl_unfold_words
  rw [View.canon_unit_zero hz0]
  simp only [View.readAt_eq_ld, h1.read_unread, h2.read_unread, h4.read_unread, View.ld_unit_zero (S := S5000x128) hz0,
    View.ld_unit_zero (S := S128x128) hz0, View.ld_unit_zero (S := S128x128) hz0]

end Pieces

/-! ## The tile's product, entry by entry, over the arrays the region finds -/

/-- The tile's product at an entry: the sum over the shared coordinate. -/
theorem tile_at (x : Vec Ideal S5000x128 .f32) (w : Vec Ideal S128x128 .f32) (r : Fin 5000) (q : Fin 128) :
    k2_pay2 (F := Ideal) x w (ix2 r q) = ∑ k : Fin 128, x (ix2 r k) * w (ix2 k q) := by
  unfold k2_pay2
  refine (Cert.LibDot.matmul_zero_at dot_S5000x128_S128x128_S5000x128_1_0_0_1_n_n rfl rfl rfl rfl rfl rfl none _ w r q).trans ?_
  rw [shapeCast_self] -- the feature block enters the product through a cast to its own shape

/-- The block indices of the four windows at a point: the row-tiled windows sit at the point's number, the whole-array
    windows at zero. -/
theorem idx0 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

/-- The grid has twenty points. -/
theorem lt0 (t : Fin cfg2.N) : t.val < 20 := by
  have h : t.val < cfg2.N := t.isLt
  have hN : cfg2.N = 20 := N_2
  omega

/-- Row r of the feature block at point t is row 5000·t + r of the feature array. -/
theorem xblk_at (c : Dev nD) (t : Fin cfg2.N) (r : Fin 5000) (k : Fin 128) :
    (iblk2 V c 0 t : Vec Ideal S5000x128 .f32) (ix2 r k)
      = (V c main_v50 : S100000x128.Idx → EReal) (ix2 ⟨5000 * t.val + r.val, by have := lt0 t; omega⟩ k) := by
  unfold iblk2
  rw [View.read_apply]
  show V c main_v50 _ = V c main_v50 _
  congr 1
  funext a
  apply Fin.ext
  match a with
  | ⟨0, _⟩ => show win2_0.index t 0 * 5000 + 1 * r.val = 5000 * t.val + r.val; rw [(idx0 t).1]; omega
  | ⟨1, _⟩ => show win2_0.index t 1 * 128 + 1 * k.val = k.val; rw [(idx0 t).2.1]; omega

/-- The weight block at every point is the weight array. -/
theorem wblk_at (c : Dev nD) (t : Fin cfg2.N) (k : Fin 128) (q : Fin 128) :
    (iblk2 V c 1 t : Vec Ideal S128x128 .f32) (ix2 k q) = (V c main_arg4 : S128x128.Idx → EReal) (ix2 k q) := by
  unfold iblk2
  rw [View.read_apply]
  show V c main_arg4 _ = V c main_arg4 _
  congr 1
  funext a
  apply Fin.ext
  match a with
  | ⟨0, _⟩ => show win2_1.index t 0 * 128 + 1 * k.val = k.val; rw [(idx0 t).2.2.1]; omega
  | ⟨1, _⟩ => show win2_1.index t 1 * 128 + 1 * q.val = q.val; rw [(idx0 t).2.2.2.1]; omega

/-- The tile's product at point s, entry (r, q), is the whole product's entry (5000·s + r, q). -/
theorem tile_entry (X : S100000x128.Idx → EReal) (W : S128x128.Idx → EReal) (x : Vec Ideal S5000x128 .f32)
    (w : Vec Ideal S128x128 .f32) (s : Nat) (hs : s < 20)
    (hx : ∀ (r : Fin 5000) (k : Fin 128), x (ix2 r k) = X (ix2 ⟨5000 * s + r.val, by omega⟩ k))
    (hw : ∀ (k : Fin 128) (q : Fin 128), w (ix2 k q) = W (ix2 k q)) (r : Fin 5000) (q : Fin 128)
    (p : Fin 100000) (q' : Fin 128) (hp : p.val = 5000 * s + r.val) (hq : q'.val = q.val) :
    k2_pay2 (F := Ideal) x w (ix2 r q) = Cert.Spec.projAt X W p q' := by
  rw [tile_at]
  unfold Cert.Spec.projAt
  have ep : p = ⟨5000 * s + r.val, by omega⟩ := Fin.ext hp
  have eq : q' = q := Fin.ext hq
  rw [ep, eq]
  exact Finset.sum_congr rfl fun k _ => by rw [hx, hw]

/-- The whole product, as contents of the first result array. -/
abbrev projG (c : Dev nD) : S100000x128.Idx → EReal :=
  fun i => Cert.Spec.projAt (V c main_v50) (V c main_arg4) ⟨(i 0).val, (i 0).isLt⟩ ⟨(i 1).val, (i 1).isLt⟩

/-- After every point the first result block holds the tile's product. -/
theorem outs_fst (c : Dev nD) (t : Fin cfg2.N) :
    (outsAt2 V c t.val t.isLt).1 = k2_pay2 (iblk2 V c 0 t) (iblk2 V c 1 t) := by
  by_cases h0 : t.val % 20 = 0
  · rw [outsAt2_A V c t h0]
    dsimp only
    exact out2_A_2_eq (F := Ideal) c (grid2.coords t) (ms2_0 t) (hs2_0 t) (ms2_1 t) (hs2_1 t) (ms2_2 t) (hs2_2 t) (ms2_3 t) (hs2_3 t)
      ((hcond2_0 t).mpr h0) (iblk2 V c 0 t) (iblk2 V c 1 t)
  · rw [outsAt2_B V c t h0]
    dsimp only
    exact out2_B_2_eq (F := Ideal) c (grid2.coords t) (ms2_0 t) (hs2_0 t) (ms2_1 t) (hs2_1 t) (ms2_2 t) (hs2_2 t) (ms2_3 t) (hs2_3 t)
      (fun h => h0 ((hcond2_0 t).mp h)) (iblk2 V c 0 t) (iblk2 V c 1 t)
      (outsAt2 V c (t.val - 1) (Nat.lt_of_le_of_lt (Nat.sub_le _ _) t.isLt)).2

/-- What point t writes back to the first result array is its block of the whole product. -/
theorem flushed2_eq (c : Dev nD) (t : Fin cfg2.N) :
    (dat2 V c).flushed 2 t = ((cfg2.win 2).blk t).view.read (Elt Ideal) (projG V c) := by
  show (cfg2.win 2).cut (grid2.coords t) ((dat2 V c).after 2 t) = _
  rw [after2_2, outs_fst]
  funext j
  obtain ⟨r, q, rfl⟩ : ∃ (r : Fin 5000) (q : Fin 128), j = ix2 r q := ⟨j 0, j 1, eq_ix2 j⟩
  rw [View.read_apply]
  show k2_pay2 (F := Ideal) (iblk2 V c 0 t) (iblk2 V c 1 t) (ix2 r q) = projG V c (((cfg2.win 2).blk t).view.emb (ix2 r q))
  refine tile_entry (V c main_v50) (V c main_arg4) (iblk2 V c 0 t) (iblk2 V c 1 t) t.val (lt0 t) (xblk_at V c t)
    (wblk_at V c t) r q _ _ ?_ ?_
  · show win2_2.index t 0 * 5000 + 1 * r.val = 5000 * t.val + r.val
    rw [(idx0 t).2.2.2.2.1]; omega
  · show win2_2.index t 1 * 128 + 1 * q.val = q.val
    rw [(idx0 t).2.2.2.2.2.1]; omega

/-- A row of the first result array is in point t's block iff it is one of the tile's 5000 rows. -/
theorem mem_blk2 (t : Fin cfg2.N) (i : S100000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v51_0).slice (win2_2.rect t)).set ↔ _
  rw [View.set_slice_whole, Rect.mem_set_unit]
  exact Iff.rfl

/-! ## The Gram matrix: the running sum over the tiles, regrouped into one sum over the rows -/

/-- The product of two entries of row R of a 100000-row array (zero past the last row), as a function of the row's
    number: the summand of the Gram matrix's entry (a, b). -/
def rowTerm (Y : S100000x128.Idx → EReal) (a b : Fin 128) (R : Nat) : EReal :=
  if h : R < 100000 then Y (ix2 ⟨R, h⟩ a) * Y (ix2 ⟨R, h⟩ b) else 0

/-- The sum of the summands over all row numbers is the Gram matrix's entry. -/
theorem rowTerm_sum (Y : S100000x128.Idx → EReal) (a b : Fin 128) :
    ∑ R ∈ Finset.range 100000, rowTerm Y a b R = Cert.Spec.gramAt Y a b := by
  unfold Cert.Spec.gramAt
  rw [← Fin.sum_univ_eq_sum_range (rowTerm Y a b) 100000]
  exact Finset.sum_congr rfl fun r _ => by unfold rowTerm; rw [dif_pos r.isLt]

/-- The second result block after one point, at an entry: what the point found there plus the Gram sum over the
    tile product's 5000 rows. -/
theorem pay3_at (x : Vec Ideal S5000x128 .f32) (w : Vec Ideal S128x128 .f32) (acc : Vec Ideal S128x128 .f32) (a b : Fin 128) :
    k2_pay3 (F := Ideal) x w acc (ix2 a b)
      = acc (ix2 a b) + ∑ r : Fin 5000, k2_pay2 (F := Ideal) x w (ix2 r a) * k2_pay2 (F := Ideal) x w (ix2 r b) := by
  unfold k2_pay3
  refine (addf_apply _ _ _).trans ?_
  refine congrArg₂ (· + ·) ?_ ?_
  · exact congrFun (shapeCast_self acc _) (ix2 a b)
  · exact Cert.LibGram.matmul_transposed_zero_at dot_S5000x128_S5000x128_S128x128_0_0_1_1_n_n rfl rfl rfl rfl rfl rfl none
      (k2_pay2 (F := Ideal) x w) (k2_pay2 (F := Ideal) x w) a b

/-- When the tile's product is rows 5000·s … 5000·s + 4999 of Y, the point adds those rows' summands. -/
theorem pay3_step (Y : S100000x128.Idx → EReal) (x : Vec Ideal S5000x128 .f32) (w : Vec Ideal S128x128 .f32)
    (acc : Vec Ideal S128x128 .f32) (s : Nat) (hs : s < 20)
    (hy : ∀ (r : Fin 5000) (q : Fin 128), k2_pay2 (F := Ideal) x w (ix2 r q) = Y (ix2 ⟨5000 * s + r.val, by omega⟩ q))
    (a b : Fin 128) :
    k2_pay3 (F := Ideal) x w acc (ix2 a b)
      = acc (ix2 a b) + ∑ r ∈ Finset.range 5000, rowTerm Y a b (5000 * s + r) := by
  rw [pay3_at, ← Fin.sum_univ_eq_sum_range (fun r => rowTerm Y a b (5000 * s + r)) 5000]
  refine congrArg _ (Finset.sum_congr rfl fun r _ => ?_)
  have hlt : 5000 * s + r.val < 100000 := by omega
  unfold rowTerm
  rw [dif_pos hlt, hy r a, hy r b]

/-- The tile's product at point t is rows 5000·t … of the whole product. -/
theorem hy_at (c : Dev nD) (t : Fin cfg2.N) (r : Fin 5000) (q : Fin 128) :
    k2_pay2 (F := Ideal) (iblk2 V c 0 t) (iblk2 V c 1 t) (ix2 r q)
      = projG V c (ix2 ⟨5000 * t.val + r.val, by have := lt0 t; omega⟩ q) :=
  tile_entry (V c main_v50) (V c main_arg4) (iblk2 V c 0 t) (iblk2 V c 1 t) t.val (lt0 t) (xblk_at V c t)
    (wblk_at V c t) r q _ _ rfl rfl

/-- At the first point the second result block is the zero block plus the first tile's rows' summands. -/
theorem snd_A (c : Dev nD) (t : Fin cfg2.N) (h0 : t.val % 20 = 0) (a b : Fin 128) :
    (outsAt2 V c t.val t.isLt).2 (ix2 a b)
      = Ideal.ofBits .f32 0x00000000#32 + ∑ r ∈ Finset.range 5000, rowTerm (projG V c) a b (5000 * t.val + r) := by
  rw [outsAt2_A V c t h0]
  dsimp only
  refine (congrFun (out2_A_3_eq (F := Ideal) c (grid2.coords t) (ms2_0 t) (hs2_0 t) (ms2_1 t) (hs2_1 t) (ms2_2 t) (hs2_2 t)
    (ms2_3 t) (hs2_3 t) ((hcond2_0 t).mpr h0) (iblk2 V c 0 t) (iblk2 V c 1 t)) (ix2 a b)).trans ?_
  exact pay3_step (projG V c) (iblk2 V c 0 t) (iblk2 V c 1 t) (k2_pay1 (F := Ideal)) t.val (lt0 t) (hy_at V c t) a b

/-- At a later point it is what the point before left plus the tile's rows' summands. -/
theorem snd_B (c : Dev nD) (t : Fin cfg2.N) (h0 : ¬t.val % 20 = 0) (a b : Fin 128) :
    (outsAt2 V c t.val t.isLt).2 (ix2 a b)
      = (outsAt2 V c (t.val - 1) (Nat.lt_of_le_of_lt (Nat.sub_le _ _) t.isLt)).2 (ix2 a b)
        + ∑ r ∈ Finset.range 5000, rowTerm (projG V c) a b (5000 * t.val + r) := by
  rw [outsAt2_B V c t h0]
  dsimp only
  refine (congrFun (out2_B_3_eq (F := Ideal) c (grid2.coords t) (ms2_0 t) (hs2_0 t) (ms2_1 t) (hs2_1 t) (ms2_2 t) (hs2_2 t)
    (ms2_3 t) (hs2_3 t) (fun h => h0 ((hcond2_0 t).mp h)) (iblk2 V c 0 t) (iblk2 V c 1 t)
    (outsAt2 V c (t.val - 1) (Nat.lt_of_le_of_lt (Nat.sub_le _ _) t.isLt)).2) (ix2 a b)).trans ?_
  exact pay3_step (projG V c) (iblk2 V c 0 t) (iblk2 V c 1 t)
    (outsAt2 V c (t.val - 1) (Nat.lt_of_le_of_lt (Nat.sub_le _ _) t.isLt)).2 t.val (lt0 t) (hy_at V c t) a b

/-- After point n the second result block holds the zero block plus the summands of the rows of tiles 0 … n. -/
theorem acc_eq (c : Dev nD) : ∀ (n : ℕ) (h : n < cfg2.N) (a b : Fin 128),
    (outsAt2 V c n h).2 (ix2 a b)
      = Ideal.ofBits .f32 0x00000000#32
        + ∑ s ∈ Finset.range (n + 1), ∑ r ∈ Finset.range 5000, rowTerm (projG V c) a b (5000 * s + r)
  | 0, h, a, b => by
    refine (snd_A V c ⟨0, h⟩ rfl a b).trans ?_
    rw [Finset.sum_range_one]
  | n + 1, h, a, b => by
    have hB : ¬(⟨n + 1, h⟩ : Fin cfg2.N).val % 20 = 0 := by
      have := lt0 ⟨n + 1, h⟩
      dsimp only at this ⊢
      omega
    refine (snd_B V c ⟨n + 1, h⟩ hB a b).trans ?_
    show (outsAt2 V c n _).2 (ix2 a b) + _ = _
    rw [acc_eq c n (Nat.lt_of_succ_lt h) a b, Finset.sum_range_succ _ (n + 1), add_assoc]

/-- The Gram matrix of the whole product, as contents of the second result array. -/
abbrev gramG (c : Dev nD) : S128x128.Idx → EReal :=
  fun i => Cert.Spec.gramAt (projG V c) ⟨(i 0).val, (i 0).isLt⟩ ⟨(i 1).val, (i 1).isLt⟩

/-- The second result array's one block is the whole array: a block's contents, written back, are read back as they are. -/
theorem whole3 (t : Fin cfg2.N) (g : S128x128.Idx → EReal) :
    (cfg2.win 3).cut (grid2.coords t) g = ((cfg2.win 3).blk t).view.read (Elt Ideal) g := by
  funext j
  obtain ⟨a, b, rfl⟩ : ∃ (a : Fin 128) (b : Fin 128), j = ix2 a b := ⟨j 0, j 1, eq_ix2 j⟩
  rw [View.read_apply]
  have e : ((cfg2.win 3).blk t).view.emb (ix2 a b) = (ix2 a b : S128x128.Idx) := by
    funext d
    apply Fin.ext
    match d with
    | ⟨0, _⟩ => show win2_3.index t 0 * 128 + 1 * a.val = a.val; rw [(idx0 t).2.2.2.2.2.2.1]; omega
    | ⟨1, _⟩ => show win2_3.index t 1 * 128 + 1 * b.val = b.val; rw [(idx0 t).2.2.2.2.2.2.2]; omega
  rw [e]
  rfl

/-- The one write-back to the second result array, at the last point, writes the Gram matrix: all twenty tiles' rows are
    all the rows. -/
theorem flushed3_eq (c : Dev nD) (t : Fin cfg2.N) (hf : (cfg2.win 3).flush t = true) :
    (dat2 V c).flushed 3 t = ((cfg2.win 3).blk t).view.read (Elt Ideal) (gramG V c) := by
  have h19 : t.val % 20 = 19 := (flush2_3 t).mp hf
  have ht : t.val + 1 = 20 := by have := lt0 t; omega
  have key : (outsAt2 V c t.val t.isLt).2 = gramG V c := by
    funext j
    obtain ⟨a, b, rfl⟩ : ∃ (a : Fin 128) (b : Fin 128), j = ix2 a b := ⟨j 0, j 1, eq_ix2 j⟩
    rw [acc_eq V c t.val t.isLt a b, ht, Cert.LibTileSum.sum_range_tiles (rowTerm (projG V c) a b) 5000 20,
      Ideal.ofBits_zero_f32, zero_add]
    exact rowTerm_sum (projG V c) a b
  show (cfg2.win 3).cut (grid2.coords t) ((dat2 V c).after 3 t) = _
  rw [after2_3, key]
  exact whole3 t (gramG V c)

/-- An entry of the second result array is in point t's block (the whole array) iff its coordinates are in range. -/
theorem mem_blk3 (t : Fin cfg2.N) (i : S128x128.Idx) :
    i ∈ ((cfg2.win 3).blk t).view.set
      ↔ ∀ a : Fin 2, win2_3.index t a * S128x128.size a ≤ (i a).val ∧ (i a).val < win2_3.index t a * S128x128.size a + S128x128.size a := by
  show i ∈ ((View.whole main_v51_1).slice (win2_3.rect t)).set ↔ _
  rw [View.set_slice_whole, Rect.mem_set_unit]
  exact Iff.rfl

end Region2

open Region2

/-- The projected features after the region's twenty points: the product of the features with the weights. -/
theorem proj2_final (c : Dev nD) :
    (dat2 (F := Ideal) V c).arrAt 2 cfg2.N
      = fun i : S100000x128.Idx => Cert.Spec.projAt (V c main_v50) (V c main_arg4) ⟨(i 0).val, (i 0).isLt⟩ ⟨(i 1).val, (i 1).isLt⟩ := by
  refine (dat2 V c).arrAt_eq_of_cover 2 (projG V c) (fun t _ => flushed2_eq V c t) fun i => ?_
  have hi0 : (i 0).val < 100000 := (i 0).isLt
  have hi1 : (i 1).val < 128 := (i 1).isLt
  have hN : cfg2.N = 20 := N_2
  refine ⟨⟨(i 0).val / 5000, by omega⟩, flush2_2 _, ?_⟩
  rw [mem_blk2]
  intro a
  match a with
  | ⟨0, _⟩ =>
    show win2_2.index ⟨(i 0).val / 5000, _⟩ 0 * 5000 ≤ (i 0).val ∧ (i 0).val < win2_2.index ⟨(i 0).val / 5000, _⟩ 0 * 5000 + 5000
    rw [(idx0 _).2.2.2.2.1]
    show (i 0).val / 5000 * 5000 ≤ (i 0).val ∧ (i 0).val < (i 0).val / 5000 * 5000 + 5000
    omega
  | ⟨1, _⟩ =>
    show win2_2.index ⟨(i 0).val / 5000, _⟩ 1 * 128 ≤ (i 1).val ∧ (i 1).val < win2_2.index ⟨(i 0).val / 5000, _⟩ 1 * 128 + 128
    rw [(idx0 _).2.2.2.2.2.1]
    omega

/-- The Gram matrix after the region's twenty points: the sum, over all rows of the projected features, of the
    products of two of the row's entries. -/
theorem gram2_final (c : Dev nD) :
    (dat2 (F := Ideal) V c).arrAt 3 cfg2.N
      = fun i : S128x128.Idx => Cert.Spec.gramAt ((dat2 (F := Ideal) V c).arrAt 2 cfg2.N) ⟨(i 0).val, (i 0).isLt⟩ ⟨(i 1).val, (i 1).isLt⟩ := by
  rw [proj2_final V c]
  refine (dat2 V c).arrAt_eq_of_cover 3 (gramG V c) (flushed3_eq V c) fun i => ?_
  have hi0 : (i 0).val < 128 := (i 0).isLt
  have hi1 : (i 1).val < 128 := (i 1).isLt
  have hN : cfg2.N = 20 := N_2
  refine ⟨⟨19, by omega⟩, (flush2_3 _).mpr rfl, ?_⟩
  rw [mem_blk3]
  intro a
  match a with
  | ⟨0, _⟩ =>
    show win2_3.index ⟨19, _⟩ 0 * 128 ≤ (i 0).val ∧ (i 0).val < win2_3.index ⟨19, _⟩ 0 * 128 + 128
    rw [(idx0 _).2.2.2.2.2.2.1]
    omega
  | ⟨1, _⟩ =>
    show win2_3.index ⟨19, _⟩ 1 * 128 ≤ (i 1).val ∧ (i 1).val < win2_3.index ⟨19, _⟩ 1 * 128 + 128
    rw [(idx0 _).2.2.2.2.2.2.2]
    omega

end Cert.KernelIdeal.Val

end
-- ==== Proof.Region3.lean ====
/-
  The second combine region, read as one function of the arrays it finds: every entry (p, q) of its result array is
  max(c₁·y(p,q) + s(p,q) − c₂·Σₖ y(p,k)·g(k,q) + b(0,q), 0), with y the projected features, g their Gram matrix, s the
  propagated term, b the bias row and c₁, c₂ the two literal scales.
-/
import proofs.«100003_j54760833024262_1_alg».proof.Proof.Gen.KernelIdeal.Frame
import proofs.«100003_j54760833024262_1_alg».proof.Proof.Spec
import proofs.«100003_j54760833024262_1_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

/-! ## One entry of a block -/

/-- The block's entry (r, q): the scaled feature plus the propagated term, minus the scaled product of the feature
    row with the Gram matrix's column, plus the bias, clipped below at zero. -/
theorem combine3_payload_at (x0 x2 : Vec Ideal S5000x128 .f32) (x1 : Vec Ideal S128x128 .f32) (x3 : Vec Ideal S1x128 .f32)
    (r : Fin 5000) (q : Fin 128) :
    k3_pay1 (F := Ideal) x0 x1 x2 x3 (ix2 r q)
      = max (Ideal.ofBits .f32 0x3F733333#32 * x0 (ix2 r q) + x2 (ix2 r q)
          - Ideal.ofBits .f32 0x3D4CCCCD#32 * (∑ k : Fin 128, x0 (ix2 r k) * x1 (ix2 k q)) + x3 (ix2 (0 : Fin 1) q))
        (Ideal.ofBits .f32 0x00000000#32) := by
  unfold k3_pay1
  simp only [shapeCast_self]
  rw [maximumf_apply, addf_apply, subf_apply, addf_apply, mulf_apply, mulf_apply]
  have hm : matmul (F := Ideal) dot_S5000x128_S128x128_S5000x128_1_0_0_1_n_n none x0 x1 (constant S5000x128 .f32 0x00000000#32) (ix2 r q)
      = ∑ k : Fin 128, x0 (ix2 r k) * x1 (ix2 k q) :=
    Cert.LibDot.matmul_zero_at (φ₁ := .f32) (φ₂ := .f32) dot_S5000x128_S128x128_S5000x128_1_0_0_1_n_n rfl rfl rfl rfl rfl rfl none x0 x1 r q
  have hb : broadcastTo S5000x128 x3 broadcasts_S1x128_S5000x128 (ix2 r q) = x3 (ix2 (0 : Fin 1) q) :=
    broadcastTo_1b_ab_apply x3 broadcasts_S1x128_S5000x128 r q
  rw [hm, hb]
  rfl

/-! ## The twenty row blocks -/

/-- A rectangle that starts at the block's corner has both offsets zero. -/
theorem combine3_offsets_zero : (![0, 0] : Fin 2 → Nat) = fun _ => 0 := funext fun a => by fin_cases a <;> rfl

/-- Where each window's block sits at point t: the three row-tiled arrays at row block t, the Gram matrix and the
    bias row whole. -/
theorem combine3_block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The region has twenty points. -/
theorem combine3_point_lt (t : Fin cfg3.N) : t.val < 20 := by
  have h := t.isLt
  have e : cfg3.N = 20 := N_3
  omega

/-- Row r of the feature block at point t is row 5000·t + r of the projected features. -/
theorem combine3_features_block_at (c : Dev nD) (t : Fin cfg3.N) (x : S5000x128.Idx) (k : S100000x128.Idx)
    (hk0 : (k 0).val = 5000 * t.val + (x 0).val) (hk1 : (k 1).val = (x 1).val) :
    (iblk3 (F := Ideal) V c 0 t : Vec Ideal S5000x128 .f32) x = (V c main_v51_0 : S100000x128.Idx → EReal) k := by
  obtain ⟨h0, h1, -⟩ := combine3_block_indices t
  unfold iblk3
  rw [View.read_apply]
  show V c main_v51_0 _ = V c main_v51_0 _
  congr 1
  funext a
  apply Fin.ext
  match a with
  | ⟨0, _⟩ => show win3_0.index t (0 : Fin 2) * 5000 + 1 * (x 0).val = (k 0).val; rw [h0, hk0]; omega
  | ⟨1, _⟩ => show win3_0.index t (1 : Fin 2) * 128 + 1 * (x 1).val = (k 1).val; rw [h1, hk1]; omega

/-- The Gram matrix's block is the whole matrix at every point. -/
theorem combine3_gram_block_at (c : Dev nD) (t : Fin cfg3.N) (x : S128x128.Idx) :
    (iblk3 (F := Ideal) V c 1 t : Vec Ideal S128x128 .f32) x = (V c main_v51_1 : S128x128.Idx → EReal) x := by
  obtain ⟨-, -, h0, h1, -⟩ := combine3_block_indices t
  unfold iblk3
  rw [View.read_apply]
  show V c main_v51_1 _ = V c main_v51_1 _
  congr 1
  funext a
  apply Fin.ext
  match a with
  | ⟨0, _⟩ => show win3_1.index t (0 : Fin 2) * 128 + 1 * (x 0).val = (x 0).val; rw [h0]; omega
  | ⟨1, _⟩ => show win3_1.index t (1 : Fin 2) * 128 + 1 * (x 1).val = (x 1).val; rw [h1]; omega

/-- Row r of the propagated term's block at point t is row 5000·t + r of the propagated term. -/
theorem combine3_propagated_block_at (c : Dev nD) (t : Fin cfg3.N) (x : S5000x128.Idx) (k : S100000x128.Idx)
    (hk0 : (k 0).val = 5000 * t.val + (x 0).val) (hk1 : (k 1).val = (x 1).val) :
    (iblk3 (F := Ideal) V c 2 t : Vec Ideal S5000x128 .f32) x = (V c main_v66 : S100000x128.Idx → EReal) k := by
  obtain ⟨-, -, -, -, h0, h1, -⟩ := combine3_block_indices t
  unfold iblk3
  rw [View.read_apply]
  show V c main_v66 _ = V c main_v66 _
  congr 1
  funext a
  apply Fin.ext
  match a with
  | ⟨0, _⟩ => show win3_2.index t (0 : Fin 2) * 5000 + 1 * (x 0).val = (k 0).val; rw [h0, hk0]; omega
  | ⟨1, _⟩ => show win3_2.index t (1 : Fin 2) * 128 + 1 * (x 1).val = (k 1).val; rw [h1, hk1]; omega

/-- The bias row's block is the whole row at every point. -/
theorem combine3_bias_block_at (c : Dev nD) (t : Fin cfg3.N) (x : S1x128.Idx) :
    (iblk3 (F := Ideal) V c 3 t : Vec Ideal S1x128 .f32) x = (V c main_v67 : S1x128.Idx → EReal) x := by
  obtain ⟨-, -, -, -, -, -, h0, h1, -⟩ := combine3_block_indices t
  unfold iblk3
  rw [View.read_apply]
  show V c main_v67 _ = V c main_v67 _
  congr 1
  funext a
  apply Fin.ext
  match a with
  | ⟨0, _⟩ => show win3_3.index t (0 : Fin 2) * 1 + 1 * (x 0).val = (x 0).val; rw [h0]; omega
  | ⟨1, _⟩ => show win3_3.index t (1 : Fin 2) * 128 + 1 * (x 1).val = (x 1).val; rw [h1]; omega

/-- What point t writes back is row block t of the layer's function of the arrays the region finds. -/
theorem combine3_flushed (c : Dev nD) (t : Fin cfg3.N) :
    (dat3 (F := Ideal) V c).flushed 4 t = ((cfg3.win 4).blk t).view.read (Elt Ideal)
      (fun i : S100000x128.Idx => Cert.Spec.layerAt (V c main_v51_0) (V c main_v51_1) (V c main_v66) (V c main_v67) ⟨(i 0).val, (i 0).isLt⟩ ⟨(i 1).val, (i 1).isLt⟩) := by
  show (cfg3.win 4).cut (grid3.coords t) ((dat3 V c).after 4 t) = _
  rw [after3_4]
  unfold out3_4
  rw [View.canon_unit_zero combine3_offsets_zero]
  simp only [View.ld_unit_zero (S := S5000x128) combine3_offsets_zero, View.ld_unit_zero (S := S128x128) combine3_offsets_zero,
    View.ld_unit_zero (S := S1x128) combine3_offsets_zero]
  obtain ⟨-, -, -, -, -, -, -, -, h0, h1⟩ := combine3_block_indices t
  have ht := combine3_point_lt t
  funext j
  obtain ⟨r, q, rfl⟩ : ∃ (r : Fin 5000) (q : Fin 128), j = ix2 r q := ⟨j 0, j 1, eq_ix2 (n0 := 5000) (n1 := 128) j⟩
  have hemb : ((cfg3.win 4).blk t).view.emb (ix2 r q)
      = (ix2 (⟨5000 * t.val + r.val, by omega⟩ : Fin 100000) q : S100000x128.Idx) := by
    funext a; apply Fin.ext
    match a with
    | ⟨0, _⟩ => show win3_4.index t (0 : Fin 2) * 5000 + 1 * r.val = 5000 * t.val + r.val; rw [h0]; omega
    | ⟨1, _⟩ => show win3_4.index t (1 : Fin 2) * 128 + 1 * q.val = q.val; rw [h1]; omega
  rw [View.read_apply, hemb]
  refine (combine3_payload_at _ _ _ _ r q).trans ?_
  have a0 : ∀ k : Fin 128, (iblk3 (F := Ideal) V c 0 t : Vec Ideal S5000x128 .f32) (ix2 r k)
      = (V c main_v51_0 : S100000x128.Idx → EReal) (ix2 (⟨5000 * t.val + r.val, by omega⟩ : Fin 100000) k) :=
    fun k => combine3_features_block_at V c t _ _ rfl rfl
  have a1 : ∀ k : Fin 128, (iblk3 (F := Ideal) V c 1 t : Vec Ideal S128x128 .f32) (ix2 k q)
      = (V c main_v51_1 : S128x128.Idx → EReal) (ix2 k q) :=
    fun k => combine3_gram_block_at V c t _
  have a2 : (iblk3 (F := Ideal) V c 2 t : Vec Ideal S5000x128 .f32) (ix2 r q)
      = (V c main_v66 : S100000x128.Idx → EReal) (ix2 (⟨5000 * t.val + r.val, by omega⟩ : Fin 100000) q) :=
    combine3_propagated_block_at V c t _ _ rfl rfl
  have a3 : (iblk3 (F := Ideal) V c 3 t : Vec Ideal S1x128 .f32) (ix2 (0 : Fin 1) q)
      = (V c main_v67 : S1x128.Idx → EReal) (ix2 (0 : Fin 1) q) :=
    combine3_bias_block_at V c t _
  simp only [a0, a1, a2, a3]
  rfl

/-- An index is in point t's block iff each coordinate is in the block's range on its axis. -/
theorem combine3_mem_row_block (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v68).slice (win3_4.rect t)).set ↔ _
  rw [View.set_slice_whole, Rect.mem_set_unit]
  exact Iff.rfl

/-- Every index of the result array is in the block of the point its row falls in. -/
theorem combine3_rows_covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by omega⟩
  obtain ⟨-, -, -, -, -, -, -, -, h0, h1⟩ := combine3_block_indices t
  have ht : t.val = (i 0).val / 5000 := rfl
  refine ⟨t, flush3_4 t, ?_⟩
  rw [combine3_mem_row_block]
  intro a
  match a with
  | ⟨0, _⟩ => show win3_4.index t (0 : Fin 2) * 5000 ≤ (i 0).val ∧ (i 0).val < win3_4.index t (0 : Fin 2) * 5000 + 5000; rw [h0, ht]; omega
  | ⟨1, _⟩ => show win3_4.index t (1 : Fin 2) * 128 ≤ (i 1).val ∧ (i 1).val < win3_4.index t (1 : Fin 2) * 128 + 128; rw [h1]; omega

/-- The result array of the second combine region after its twenty points. -/
theorem combine3_final (c : Dev nD) :
    (dat3 (F := Ideal) V c).arrAt 4 cfg3.N
      = fun i : S100000x128.Idx => Cert.Spec.layerAt (V c main_v51_0) (V c main_v51_1) (V c main_v66) (V c main_v67) ⟨(i 0).val, (i 0).isLt⟩ ⟨(i 1).val, (i 1).isLt⟩ :=
  (dat3 (F := Ideal) V c).arrAt_eq_of_cover 4 _ (fun t _ => combine3_flushed V c t) combine3_rows_covered

end Cert.KernelIdeal.Val

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Region4.lean ====
/-
  The last region, read as one function of the arrays it finds: every row of its result array is the log-softmax of
  the row's sixteen logits, logit (p, q) = Σₖ x(p,k)·w(k,q) + b(0,q): with m the row's maximum, entry (p, q) is
  (logit(p,q) − m) − log Σⱼ exp(logit(p,j) − m).
-/
import proofs.«100003_j54760833024262_1_alg».proof.Proof.Gen.KernelIdeal.Frame
import proofs.«100003_j54760833024262_1_alg».proof.Proof.Spec
import proofs.«100003_j54760833024262_1_alg».proof.Proof.LibDot
import proofs.«100003_j54760833024262_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when a region is entered
variable (V : (c : Dev nD) → (b : Ref sig .tc) → Buf (Elt Ideal) ((c : Thread nD τ).loc b))

namespace Lsm4

/-! ## The body's result at an entry -/

/-- The maximum along the last axis of an `[a, b]` matrix, read at row `p`: the fold of `max` over the row's entries
    from the accumulator's value. -/
theorem multiReduction_max_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k : Fin b => src (ix2 p k)) := by
  refine (Ideal.multiReduction_maximumf_single src acc h hφ hacc (ix1 p)).trans ?_
  refine congrArg (Finset.fold max (Ideal.ofBits .f32 acc) · Finset.univ) (funext fun k => congrArg src (funext fun ax => Fin.ext ?_))
  match ax with
  | ⟨0, _⟩ => rfl
  | ⟨1, _⟩ => rfl

/-- The logits of a block of rows: entry (r, q) is the row's product with column q of the weights, plus the bias. -/
theorem logits_at (x0 : FVec Ideal S5000x128 .f32) (x1 : FVec Ideal S128x16 .f32) (x2 : FVec Ideal S1x16 .f32)
    (h0 : S5000x128.ShapeCasts S5000x128) (h2 : S1x16.ShapeCasts S1x16) (hb : S1x16.Broadcasts S5000x16) (r : Fin 5000) (q : Fin 16) :
    addf (matmul dot_S5000x128_S128x16_S5000x16_1_0_0_1_n_n none (shapeCast S5000x128 x0 h0) x1 (constant (F := Ideal) S5000x16 .f32 0x00000000#32))
        (broadcastTo S5000x16 (shapeCast S1x16 x2 h2) hb) (ix2 r q)
      = (∑ k : Fin 128, x0 (ix2 r k) * x1 (ix2 k q)) + x2 (ix2 (0 : Fin 1) q) := by
  rw [shapeCast_self, shapeCast_self]
  show FloatOps.addf _ _ = _
  rw [Ideal.addf_def]
  refine congrArg₂ (· + ·) ?_ ?_
  · exact Cert.LibDot.matmul_zero_at dot_S5000x128_S128x16_S5000x16_1_0_0_1_n_n rfl rfl rfl rfl rfl rfl none x0 x1 r q
  · exact broadcastTo_1b_ab_apply x2 hb r q

/-- The row-wise log-softmax of a block of logits: with m the row's maximum, entry (r, q) is
    (v(r,q) − m) − log Σⱼ exp(v(r,j) − m). -/
theorem lsm_at (v7 : FVec Ideal S5000x16 .f32) (hr : S5000x16.Reduces [1] S5000) (hφ : FKind.Formats FTy.f32)
    (hm : (0xFF800000#32 : BitVec 32) = FKind.maximumf.neutral .f32 hφ) (ha : (0x00000000#32 : BitVec 32) = FKind.add.neutral .f32 hφ)
    (hc : S5000.ShapeCasts S5000x1) (hb : S5000x1.Broadcasts S5000x16) (r : Fin 5000) (q : Fin 16) :
    subf (subf v7 (broadcastTo S5000x16 (shapeCast S5000x1 (multiReduction (F := Ideal) .maximumf [1] S5000 v7 0xFF800000#32 hr hφ hm) hc) hb))
         (broadcastTo S5000x16 (log (shapeCast S5000x1 (multiReduction (F := Ideal) .add [1] S5000
            (exp (subf v7 (broadcastTo S5000x16 (shapeCast S5000x1 (multiReduction (F := Ideal) .maximumf [1] S5000 v7 0xFF800000#32 hr hφ hm) hc) hb)))
            0x00000000#32 hr hφ ha) hc)) hb) (ix2 r q)
      = Cert.Spec.logSoftmaxAt (fun j => v7 (ix2 r j)) q := by
  have hmax : ∀ (r' : Fin 5000) (j : Fin 16),
      broadcastTo S5000x16 (shapeCast S5000x1 (multiReduction (F := Ideal) .maximumf [1] S5000 v7 0xFF800000#32 hr hφ hm) hc) hb (ix2 r' j)
        = Cert.Spec.rowMax (fun j => v7 (ix2 r' j)) := by
    intro r' j
    refine (broadcastTo_a1_ab_apply _ hb r' j).trans ?_
    refine (shapeCast_a_a1_apply _ hc r' 0).trans ?_
    exact multiReduction_max_rows_apply v7 _ hr hφ hm r'
  generalize broadcastTo S5000x16 (shapeCast S5000x1 (multiReduction (F := Ideal) .maximumf [1] S5000 v7 0xFF800000#32 hr hφ hm) hc) hb = M at hmax ⊢
  have hsum : broadcastTo S5000x16 (log (shapeCast S5000x1 (multiReduction (F := Ideal) .add [1] S5000 (exp (subf v7 M)) 0x00000000#32 hr hφ ha) hc)) hb (ix2 r q)
      = Ideal.log (∑ j : Fin 16, Ideal.exp (v7 (ix2 r j) - Cert.Spec.rowMax (fun j => v7 (ix2 r j)))) := by
    refine (broadcastTo_a1_ab_apply _ hb r q).trans ?_
    show Ideal.log (shapeCast S5000x1 _ hc (ix2 r (0 : Fin 1))) = _
    refine congrArg Ideal.log ?_
    refine (shapeCast_a_a1_apply _ hc r 0).trans ?_
    refine (multiReduction_add_rows_apply _ _ hr hφ ha r).trans ?_
    refine Finset.sum_congr rfl fun k _ => ?_
    show Ideal.exp (v7 (ix2 r k) - M (ix2 r k)) = _
    rw [hmax r k]
  show (v7 (ix2 r q) - M (ix2 r q)) - _ = _
  rw [hsum, hmax r q]
  rfl

/-- The body's result at an entry: the log-softmax of the row's sixteen logits. -/
theorem pay_at (x0 : Vec Ideal S5000x128 .f32) (x1 : Vec Ideal S128x16 .f32) (x2 : Vec Ideal S1x16 .f32) (r : Fin 5000) (q : Fin 16) :
    k4_pay1 (F := Ideal) x0 x1 x2 (ix2 r q)
      = Cert.Spec.logSoftmaxAt (fun j => (∑ k : Fin 128, x0 (ix2 r k) * x1 (ix2 k j)) + x2 (ix2 (0 : Fin 1) j)) q := by
  unfold k4_pay1
  dsimp only
  refine (lsm_at _ _ _ _ _ _ _ r q).trans ?_
  refine congrArg (Cert.Spec.logSoftmaxAt · q) (funext fun j => ?_)
  exact logits_at x0 x1 x2 _ _ _ r j

/-! ## From the blocks to the array -/

theorem hz : (![0, 0] : Fin 2 → Nat) = fun _ => 0 := funext fun a => by fin_cases a <;> rfl

/-- The result array as one function of the arrays the region finds. -/
abbrev lsmArr (c : Dev nD) : S100000x16.Idx → EReal := fun i =>
  Cert.Spec.logSoftmaxAt (Cert.Spec.logitAt (V c main_v68) (V c main_arg6) (V c main_v69) ⟨(i 0).val, (i 0).isLt⟩) ⟨(i 1).val, (i 1).isLt⟩

/-- The index maps over the grid: the feature and result blocks move down with the point, the weights and the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row r of point t's block is row 5000·t + r of the array. -/
def rowOf (t : Fin cfg4.N) (r : Fin 5000) : Fin 100000 :=
  ⟨t.val * 5000 + r.val, by have ht : t.val < 20 := lt_of_lt_of_eq t.isLt N_4; have := r.isLt; omega⟩

theorem emb0 (t : Fin cfg4.N) (r : Fin 5000) (k : Fin 128) :
    ((cfg4.win 0).blk t).view.emb (ix2 r k) = ix2 (rowOf t r) k := by
  obtain ⟨e0, e1, -⟩ := idx_facts t
  funext a; apply Fin.ext
  match a with
  | ⟨0, _⟩ => show win4_0.index t (0 : Fin 2) * 5000 + 1 * r.val = t.val * 5000 + r.val; omega
  | ⟨1, _⟩ => show win4_0.index t (1 : Fin 2) * 128 + 1 * k.val = k.val; omega

theorem emb1 (t : Fin cfg4.N) (k : Fin 128) (j : Fin 16) :
    ((cfg4.win 1).blk t).view.emb (ix2 k j) = ix2 k j := by
  obtain ⟨-, -, e2, e3, -⟩ := idx_facts t
  funext a; apply Fin.ext
  match a with
  | ⟨0, _⟩ => show win4_1.index t (0 : Fin 2) * 128 + 1 * k.val = k.val; omega
  | ⟨1, _⟩ => show win4_1.index t (1 : Fin 2) * 16 + 1 * j.val = j.val; omega

theorem emb2 (t : Fin cfg4.N) (u : Fin 1) (j : Fin 16) :
    ((cfg4.win 2).blk t).view.emb (ix2 u j) = ix2 u j := by
  obtain ⟨-, -, -, -, e4, e5, -⟩ := idx_facts t
  funext a; apply Fin.ext
  match a with
  | ⟨0, _⟩ => show win4_2.index t (0 : Fin 2) * 1 + 1 * u.val = u.val; omega
  | ⟨1, _⟩ => show win4_2.index t (1 : Fin 2) * 16 + 1 * j.val = j.val; omega

theorem emb3 (t : Fin cfg4.N) (r : Fin 5000) (q : Fin 16) :
    ((cfg4.win 3).blk t).view.emb (ix2 r q) = ix2 (rowOf t r) q := by
  obtain ⟨-, -, -, -, -, -, e6, e7⟩ := idx_facts t
  funext a; apply Fin.ext
  match a with
  | ⟨0, _⟩ => show win4_3.index t (0 : Fin 2) * 5000 + 1 * r.val = t.val * 5000 + r.val; omega
  | ⟨1, _⟩ => show win4_3.index t (1 : Fin 2) * 16 + 1 * q.val = q.val; omega

/-- The blocks a point reads, typed as the vectors they are. -/
abbrev xblk (c : Dev nD) (t : Fin cfg4.N) : Vec Ideal S5000x128 .f32 := iblk4 V c 0 t
abbrev wblk (c : Dev nD) (t : Fin cfg4.N) : Vec Ideal S128x16 .f32 := iblk4 V c 1 t
abbrev bblk (c : Dev nD) (t : Fin cfg4.N) : Vec Ideal S1x16 .f32 := iblk4 V c 2 t

theorem xblk_at (c : Dev nD) (t : Fin cfg4.N) (r : Fin 5000) (k : Fin 128) :
    xblk V c t (ix2 r k) = V c main_v68 (ix2 (rowOf t r) k) := by
  show V c main_v68 (((cfg4.win 0).blk t).view.emb (ix2 r k)) = _
  rw [emb0]

theorem wblk_at (c : Dev nD) (t : Fin cfg4.N) (k : Fin 128) (j : Fin 16) :
    wblk V c t (ix2 k j) = V c main_arg6 (ix2 k j) := by
  show V c main_arg6 (((cfg4.win 1).blk t).view.emb (ix2 k j)) = _
  rw [emb1]

theorem bblk_at (c : Dev nD) (t : Fin cfg4.N) (u : Fin 1) (j : Fin 16) :
    bblk V c t (ix2 u j) = V c main_v69 (ix2 u j) := by
  show V c main_v69 (((cfg4.win 2).blk t).view.emb (ix2 u j)) = _
  rw [emb2]

/-- What a point's body computes at an entry of its block is the array's function at that entry's place. -/
theorem blk_eq (c : Dev nD) (t : Fin cfg4.N) (r : Fin 5000) (q : Fin 16) :
    k4_pay1 (F := Ideal) (xblk V c t) (wblk V c t) (bblk V c t) (ix2 r q)
      = lsmArr V c (((cfg4.win 3).blk t).view.emb (ix2 r q)) := by
  refine (pay_at (xblk V c t) (wblk V c t) (bblk V c t) r q).trans ?_
  rw [emb3]
  show _ = Cert.Spec.logSoftmaxAt (Cert.Spec.logitAt (V c main_v68) (V c main_arg6) (V c main_v69) (rowOf t r)) q
  refine congrArg (Cert.Spec.logSoftmaxAt · q) (funext fun j => ?_)
  unfold Cert.Spec.logitAt
  rw [bblk_at]
  refine congrArg (· + _) (Finset.sum_congr rfl fun k _ => ?_)
  rw [xblk_at, wblk_at]

/-- What point t writes back is block t of the array's function. -/
theorem flushed_eq (c : Dev nD) (t : Fin cfg4.N) :
    (dat4 (F := Ideal) V c).flushed 3 t = ((cfg4.win 3).blk t).view.read (Elt Ideal) (lsmArr V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x16) hz, View.ld_unit_zero (S := S1x16) hz]
  funext j
  obtain ⟨r, q, rfl⟩ : ∃ (r : Fin 5000) (q : Fin 16), j = ix2 r q := ⟨j 0, j 1, eq_ix2 j⟩
  exact blk_eq V c t r q

/-- An index of the array is in point t's block iff each coordinate is in the block's range on its axis. -/
theorem mem_blk (t : Fin cfg4.N) (i : S100000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v70).slice (win4_3.rect t)).set ↔ _
  rw [View.set_slice_whole, Rect.mem_set_unit]
  exact Iff.rfl

/-- Row p of the array is in the block of point p / 5000, which is written back. -/
theorem cover (i : S100000x16.Idx) : ∃ t : Fin cfg4.N, (cfg4.win 3).flush t = true ∧ i ∈ ((cfg4.win 3).blk t).view.set := by
  have hi0 : (i 0).val < 100000 := (i 0).isLt
  have hi1 : (i 1).val < 16 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 16 ≤ (i 1).val ∧ (i 1).val < win4_3.index t (1 : Fin 2) * 16 + 16; omega

end Lsm4

/-- The result array of the last region after its twenty points. -/
theorem lsm4_final (c : Dev nD) :
    (dat4 (F := Ideal) V c).arrAt 3 cfg4.N
      = fun i : S100000x16.Idx => Cert.Spec.logSoftmaxAt
          (Cert.Spec.logitAt (V c main_v68) (V c main_arg6) (V c main_v69) ⟨(i 0).val, (i 0).isLt⟩) ⟨(i 1).val, (i 1).isLt⟩ :=
  (dat4 (F := Ideal) V c).arrAt_eq_of_cover 3 (Lsm4.lsmArr V c) (fun t _ => Lsm4.flushed_eq V c t) Lsm4.cover

end Cert.KernelIdeal.Val

end
-- ==== Proof.HostK.lean ====
/-
  The kernel program's host stretches, read back. Between its five regions the program computes, on the host, the
  normalised edge weights of the graph with self loops (once), each layer's propagated term
  0.1 · scatter-add over the target nodes of (edge weight · gathered source row), and the bias rows recast to
  one-row matrices. Each buffer a region takes in is stated here as a function of @main's arguments and of the
  arrays the regions before it left; a buffer no operation of a stretch writes keeps its contents across it.
-/
import proofs.«100003_j54760833024262_1_alg».proof.Proof.Gen.KernelIdeal.Frame
import proofs.«100003_j54760833024262_1_alg».proof.Proof.LibKeepAll
import Idealize.ShloMosaic.Lib.StableHlo.Run
import Idealize.ShloMosaic.Lib.Pipeline.Value

set_option maxRecDepth 16384

open Cert.LibKeepAll

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The host's functions of the edge list -/

/-- Row `r` (0: sources, 1: targets) of the edge list with the hundred thousand self loops appended. -/
def endpoints (e : (⟨S2x800000, .i32⟩ : BufTy).Contents (Elt F)) (off : Fin 2 → Nat) (h : S2x800000.Slices off S1x800000) :
    (⟨S900000, .i32⟩ : BufTy).Contents (Elt F) :=
  concatenate S900000 0 [⟨S800000, shapeCast S800000 (extractStridedSlice S1x800000 off e h) shapeCasts_S1x800000_S800000⟩,
    ⟨S100000, iotaInDim S100000 32 0⟩] concatenates_S800000_S100000_S900000_d0

/-- The sources. -/
def srcIdx (e : (⟨S2x800000, .i32⟩ : BufTy).Contents (Elt F)) : (⟨S900000, .i32⟩ : BufTy).Contents (Elt F) :=
  endpoints e ![0, 0] slices_S2x800000_S1x800000_0_0
/-- The targets. -/
def dstIdx (e : (⟨S2x800000, .i32⟩ : BufTy).Contents (Elt F)) : (⟨S900000, .i32⟩ : BufTy).Contents (Elt F) :=
  endpoints e ![1, 0] slices_S2x800000_S1x800000_1_0

/-- Node numbers as a gather takes them: a negative one counted from the end, then one index vector per edge. -/
def wrapIdx (r : (⟨S900000, .i32⟩ : BufTy).Contents (Elt F)) : (⟨S900000x1, .i32⟩ : BufTy).Contents (Elt F) :=
  broadcastInDim S900000x1 ![0] bcast_S900000_S900000x1_0
    (select (cmpi .slt r (broadcastInDim S900000 ![] bcast_S_S900000 (constantI S_ 32 0#32)))
      (addi r (broadcastInDim S900000 ![] bcast_S_S900000 (constantI S_ 32 100000#32))) r)

/-- Each node's in-degree (self loop counted), as a scatter-add of ones over the targets. -/
def degree (e : (⟨S2x800000, .i32⟩ : BufTy).Contents (Elt F)) : (⟨S100000, .f32⟩ : BufTy).Contents (Elt F) :=
  Host.scatterAdd scatter_S100000_S900000x1_S900000_n_0_0_1
    (broadcastInDim S100000 ![] bcast_S_S100000 (constant S_ .f32 0x00000000#32))
    (broadcastInDim S900000x1 ![0] bcast_S900000_S900000x1_0 (dstIdx e))
    (broadcastInDim S900000 ![] bcast_S_S900000 (constant S_ .f32 0x3F800000#32))

/-- 1/√degree where the degree is positive, zero elsewhere. -/
def degInv (e : (⟨S2x800000, .i32⟩ : BufTy).Contents (Elt F)) : (⟨S100000, .f32⟩ : BufTy).Contents (Elt F) :=
  select (cmpf (F := F) .ogt (degree e) (broadcastInDim S100000 ![] bcast_S_S100000 (constant S_ .f32 0x00000000#32)))
    (Host.rsqrt (maximumf (degree e) (broadcastInDim S100000 ![] bcast_S_S100000 (constant S_ .f32 0x3F800000#32))))
    (broadcastInDim S100000 ![] bcast_S_S100000 (id (constant S_ .f32 0x00000000#32)))

/-- The normalised weight of every edge: 1/√deg(source) · 1 · 1/√deg(target). -/
def edgeW (e : (⟨S2x800000, .i32⟩ : BufTy).Contents (Elt F)) : (⟨S900000, .f32⟩ : BufTy).Contents (Elt F) :=
  mulf (mulf (Host.gather gather_S100000_S900000x1_S900000_n_0_n_n_0_1_1 (degInv e) (wrapIdx (srcIdx e)))
      (broadcastInDim S900000 ![] bcast_S_S900000 (constant S_ .f32 0x3F800000#32)))
    (Host.gather gather_S100000_S900000x1_S900000_n_0_n_n_0_1_1 (degInv e) (wrapIdx (dstIdx e)))

/-- A layer's propagated term: 0.1 · Σ over the edges into a node of (edge weight · the source node's row). -/
def propagate (xp : (⟨S100000x128, .f32⟩ : BufTy).Contents (Elt F)) (e : (⟨S2x800000, .i32⟩ : BufTy).Contents (Elt F)) :
    (⟨S100000x128, .f32⟩ : BufTy).Contents (Elt F) :=
  mulf (broadcastInDim S100000x128 ![] bcast_S_S100000x128 (constant S_ .f32 0x3DCCCCCD#32))
    (Host.scatterAdd scatter_S100000x128_S900000x1_S900000x128_1_0_0_1
      (broadcastInDim S100000x128 ![] bcast_S_S100000x128 (constant S_ .f32 0x00000000#32))
      (broadcastInDim S900000x1 ![0] bcast_S900000_S900000x1_0 (dstIdx e))
      (mulf (broadcastInDim S900000x128 ![0, 1] bcast_S900000x1_S900000x128_0_1
          (broadcastInDim S900000x1 ![0] bcast_S900000_S900000x1_0 (edgeW e)))
        (Host.gather gather_S100000x128_S900000x1_S900000x128_1_0_n_n_0_1_1128 xp (wrapIdx (srcIdx e)))))

/-! ## What each region finds -/

variable (m : (ℓ : Loc nD τ sig) → Buf (Elt F) ℓ) (ρ : Dev nD → PrngReg)

/-! ### A buffer nothing writes holds, at every boundary, what the launch put there

Each lemma takes one equation per host stretch crossed (the stretch does not write the buffer) and one per region
crossed (the buffer is none of the region's arrays), and chains them back to the launch memory. -/

theorem launched3 (c : Dev nD) (b : Ref sig .tc)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W3 m ρ c (Proc.devRef .tc b) = m ((c : Thread nD τ).loc b) :=
  h2.trans (h1.trans (h0.trans rfl))

theorem launched4 (c : Dev nD) (b : Ref sig .tc) (n0 : ∀ w, Pipeline.arrRef spec0 w ≠ b)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W4 m ρ c (Proc.devRef .tc b) = m ((c : Thread nD τ).loc b) :=
  (W4_of_ne m ρ c b n0).trans (launched3 m ρ c b h2 h1 h0)

theorem launched6 (c : Dev nD) (b : Ref sig .tc) (n1 : ∀ w, Pipeline.arrRef spec1 w ≠ b)
    (h5 : W5 m ρ c (Proc.devRef .tc b) = W4 m ρ c (Proc.devRef .tc b))
    (n0 : ∀ w, Pipeline.arrRef spec0 w ≠ b)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W6 m ρ c (Proc.devRef .tc b) = m ((c : Thread nD τ).loc b) :=
  (W6_of_ne m ρ c b n1).trans (h5.trans (launched4 m ρ c b n0 h2 h1 h0))

theorem launched7 (c : Dev nD) (b : Ref sig .tc) (n2 : ∀ w, Pipeline.arrRef spec2 w ≠ b)
    (n1 : ∀ w, Pipeline.arrRef spec1 w ≠ b)
    (h5 : W5 m ρ c (Proc.devRef .tc b) = W4 m ρ c (Proc.devRef .tc b))
    (n0 : ∀ w, Pipeline.arrRef spec0 w ≠ b)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W7 m ρ c (Proc.devRef .tc b) = m ((c : Thread nD τ).loc b) :=
  (W7_of_ne m ρ c b n2).trans (launched6 m ρ c b n1 h5 n0 h2 h1 h0)

theorem launched9 (c : Dev nD) (b : Ref sig .tc) (n3 : ∀ w, Pipeline.arrRef spec3 w ≠ b)
    (h8 : W8 m ρ c (Proc.devRef .tc b) = W7 m ρ c (Proc.devRef .tc b))
    (n2 : ∀ w, Pipeline.arrRef spec2 w ≠ b)
    (n1 : ∀ w, Pipeline.arrRef spec1 w ≠ b)
    (h5 : W5 m ρ c (Proc.devRef .tc b) = W4 m ρ c (Proc.devRef .tc b))
    (n0 : ∀ w, Pipeline.arrRef spec0 w ≠ b)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W9 m ρ c (Proc.devRef .tc b) = m ((c : Thread nD τ).loc b) :=
  (W9_of_ne m ρ c b n3).trans (h8.trans (launched7 m ρ c b n2 n1 h5 n0 h2 h1 h0))

/-- Region 0 finds the node features and the first weights as launched. -/
theorem W3_arg0 (c : Dev nD) : W3 m ρ c (Proc.devRef .tc main_arg0) = m ((c : Thread nD τ).loc main_arg0) :=
  launched3 m ρ c main_arg0 (by kept_all hostOps0_2) (by kept_all hostOps0_1) (by kept_all hostOps0)
theorem W3_arg2 (c : Dev nD) : W3 m ρ c (Proc.devRef .tc main_arg2) = m ((c : Thread nD τ).loc main_arg2) :=
  launched3 m ρ c main_arg2 (by kept_all hostOps0_2) (by kept_all hostOps0_1) (by kept_all hostOps0)

/-! ### What the first host stretches compute: the endpoints, the degrees' inverse roots, the edge weights -/

theorem W1_v3 (c : Dev nD) : W1 m ρ c (Proc.devRef .tc main_v3) = srcIdx (m ((c : Thread nD τ).loc main_arg1)) := by
  show StableHlo.after hostOps0 (W0 m ρ c) (Proc.devRef .tc main_v3) = _
  after_results
  rfl
theorem W1_v6 (c : Dev nD) : W1 m ρ c (Proc.devRef .tc main_v6) = dstIdx (m ((c : Thread nD τ).loc main_arg1)) := by
  show StableHlo.after hostOps0 (W0 m ρ c) (Proc.devRef .tc main_v6) = _
  after_results
  rfl
theorem W1_v7 (c : Dev nD) : W1 m ρ c (Proc.devRef .tc main_v7)
    = broadcastInDim S900000 ![] bcast_S_S900000 (constant (F := F) S_ .f32 0x3F800000#32) := by
  show StableHlo.after hostOps0 (W0 m ρ c) (Proc.devRef .tc main_v7) = _
  after_results

theorem W1_v12 (c : Dev nD) : W1 m ρ c (Proc.devRef .tc main_v12)
    = cmpf (F := F) .ogt (degree (m ((c : Thread nD τ).loc main_arg1)))
        (broadcastInDim S100000 ![] bcast_S_S100000 (constant S_ .f32 0x00000000#32)) := by
  show StableHlo.after hostOps0 (W0 m ρ c) (Proc.devRef .tc main_v12) = _
  after_results
  rfl
theorem W1_v15 (c : Dev nD) : W1 m ρ c (Proc.devRef .tc main_v15)
    = Host.rsqrt (maximumf (degree (m ((c : Thread nD τ).loc main_arg1)))
        (broadcastInDim S100000 ![] bcast_S_S100000 (constant S_ .f32 0x3F800000#32))) := by
  show StableHlo.after hostOps0 (W0 m ρ c) (Proc.devRef .tc main_v15) = _
  after_results
  rfl
theorem W1_cst_3 (c : Dev nD) : W1 m ρ c (Proc.devRef .tc main_cst_3) = constant (F := F) S_ .f32 0x00000000#32 := by
  show StableHlo.after hostOps0 (W0 m ρ c) (Proc.devRef .tc main_cst_3) = _
  after_results

theorem W2_v16 (c : Dev nD) : W2 m ρ c (Proc.devRef .tc main_v16) = degInv (m ((c : Thread nD τ).loc main_arg1)) := by
  show StableHlo.after hostOps0_1 (W1 m ρ c) (Proc.devRef .tc main_v16) = _
  after_results
  simp only [StableHlo.TRef.ofBuf, StableHlo.TRef.toBuf, cast_eq]
  rfl

theorem W3_v3 (c : Dev nD) : W3 m ρ c (Proc.devRef .tc main_v3) = srcIdx (m ((c : Thread nD τ).loc main_arg1)) :=
  calc W3 m ρ c (Proc.devRef .tc main_v3)
    _ = W2 m ρ c (Proc.devRef .tc main_v3) := by kept_all hostOps0_2
    _ = W1 m ρ c (Proc.devRef .tc main_v3) := by kept_all hostOps0_1
    _ = _ := W1_v3 m ρ c
theorem W3_v6 (c : Dev nD) : W3 m ρ c (Proc.devRef .tc main_v6) = dstIdx (m ((c : Thread nD τ).loc main_arg1)) :=
  calc W3 m ρ c (Proc.devRef .tc main_v6)
    _ = W2 m ρ c (Proc.devRef .tc main_v6) := by kept_all hostOps0_2
    _ = W1 m ρ c (Proc.devRef .tc main_v6) := by kept_all hostOps0_1
    _ = _ := W1_v6 m ρ c
theorem W2_v3 (c : Dev nD) : W2 m ρ c (Proc.devRef .tc main_v3) = srcIdx (m ((c : Thread nD τ).loc main_arg1)) :=
  calc W2 m ρ c (Proc.devRef .tc main_v3)
    _ = W1 m ρ c (Proc.devRef .tc main_v3) := by kept_all hostOps0_1
    _ = _ := W1_v3 m ρ c
theorem W2_v6 (c : Dev nD) : W2 m ρ c (Proc.devRef .tc main_v6) = dstIdx (m ((c : Thread nD τ).loc main_arg1)) :=
  calc W2 m ρ c (Proc.devRef .tc main_v6)
    _ = W1 m ρ c (Proc.devRef .tc main_v6) := by kept_all hostOps0_1
    _ = _ := W1_v6 m ρ c
theorem W2_v7 (c : Dev nD) : W2 m ρ c (Proc.devRef .tc main_v7)
    = broadcastInDim S900000 ![] bcast_S_S900000 (constant (F := F) S_ .f32 0x3F800000#32) :=
  calc W2 m ρ c (Proc.devRef .tc main_v7)
    _ = W1 m ρ c (Proc.devRef .tc main_v7) := by kept_all hostOps0_1
    _ = _ := W1_v7 m ρ c

/-- The edge weights, from the degrees' inverse roots gathered at the sources and at the targets. -/
theorem W3_v32 (c : Dev nD) : W3 m ρ c (Proc.devRef .tc main_v32) = edgeW (m ((c : Thread nD τ).loc main_arg1)) := by
  have h3 := W2_v3 m ρ c
  have h6 := W2_v6 m ρ c
  have h7 := W2_v7 m ρ c
  have h16 := W2_v16 m ρ c
  show StableHlo.after hostOps0_2 (W2 m ρ c) (Proc.devRef .tc main_v32) = _
  generalize W2 m ρ c = X at h3 h6 h7 h16 ⊢
  after_results_simp
  rw [h3, h6, h7, h16]
  rfl

/-! ### The endpoints and the edge weights are still there at the later boundaries -/

theorem W4_v3 (c : Dev nD) : W4 m ρ c (Proc.devRef .tc main_v3) = srcIdx (m ((c : Thread nD τ).loc main_arg1)) :=
  (W4_of_ne m ρ c main_v3 (by decide)).trans (W3_v3 m ρ c)
theorem W4_v6 (c : Dev nD) : W4 m ρ c (Proc.devRef .tc main_v6) = dstIdx (m ((c : Thread nD τ).loc main_arg1)) :=
  (W4_of_ne m ρ c main_v6 (by decide)).trans (W3_v6 m ρ c)
theorem W4_v32 (c : Dev nD) : W4 m ρ c (Proc.devRef .tc main_v32) = edgeW (m ((c : Thread nD τ).loc main_arg1)) :=
  (W4_of_ne m ρ c main_v32 (by decide)).trans (W3_v32 m ρ c)

theorem W7_v3 (c : Dev nD) : W7 m ρ c (Proc.devRef .tc main_v3) = srcIdx (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by kept_all hostOps1
    _ = _ := W4_v3 m ρ c
theorem W7_v6 (c : Dev nD) : W7 m ρ c (Proc.devRef .tc main_v6) = dstIdx (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by kept_all hostOps1
    _ = _ := W4_v6 m ρ c
theorem W7_v32 (c : Dev nD) : W7 m ρ c (Proc.devRef .tc main_v32) = edgeW (m ((c : Thread nD τ).loc main_arg1)) :=
  calc W7 m ρ c (Proc.devRef .tc main_v32)
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := by kept_all hostOps1
    _ = _ := W4_v32 m ρ c

/-- The bias vectors are still as launched where the stretch that recasts each of them reads it. -/
theorem W4_arg3 (c : Dev nD) : W4 m ρ c (Proc.devRef .tc main_arg3) = m ((c : Thread nD τ).loc main_arg3) :=
  launched4 m ρ c main_arg3 (by decide) (by kept_all hostOps0_2) (by kept_all hostOps0_1) (by kept_all hostOps0)
theorem W7_arg5 (c : Dev nD) : W7 m ρ c (Proc.devRef .tc main_arg5) = m ((c : Thread nD τ).loc main_arg5) :=
  launched7 m ρ c main_arg5 (by decide) (by decide) (by kept_all hostOps1) (by decide)
    (by kept_all hostOps0_2) (by kept_all hostOps0_1) (by kept_all hostOps0)
theorem W9_arg7 (c : Dev nD) : W9 m ρ c (Proc.devRef .tc main_arg7) = m ((c : Thread nD τ).loc main_arg7) :=
  launched9 m ρ c main_arg7 (by decide) (by kept_all hostOps3) (by decide) (by decide) (by kept_all hostOps1) (by decide)
    (by kept_all hostOps0_2) (by kept_all hostOps0_1) (by kept_all hostOps0)

/-- Region 1 finds region 0's two results as region 0 left them, -/
theorem W5_v33_0 (c : Dev nD) : W5 m ρ c (Proc.devRef .tc main_v33_0) = W4 m ρ c (Proc.devRef .tc main_v33_0) := by
  kept_all hostOps1
theorem W5_v33_1 (c : Dev nD) : W5 m ρ c (Proc.devRef .tc main_v33_1) = W4 m ρ c (Proc.devRef .tc main_v33_1) := by
  kept_all hostOps1
/-- the first layer's propagated term of region 0's projected features and the edge list, -/
theorem W5_v48 (c : Dev nD) : W5 m ρ c (Proc.devRef .tc main_v48)
    = propagate (W4 m ρ c (Proc.devRef .tc main_v33_0)) (m ((c : Thread nD τ).loc main_arg1)) := by
  have h3 := W4_v3 m ρ c
  have h6 := W4_v6 m ρ c
  have h32 := W4_v32 m ρ c
  show StableHlo.after hostOps1 (W4 m ρ c) (Proc.devRef .tc main_v48) = _
  generalize W4 m ρ c = X at h3 h6 h32 ⊢
  after_results_simp
  rw [h3, h6, h32]
  rfl
/-- and the first bias as a one-row matrix. -/
theorem W5_v49 (c : Dev nD) : W5 m ρ c (Proc.devRef .tc main_v49)
    = shapeCast S1x128 (m ((c : Thread nD τ).loc main_arg3)) shapeCasts_S128_S1x128 := by
  have h := W4_arg3 m ρ c
  show StableHlo.after hostOps1 (W4 m ρ c) (Proc.devRef .tc main_v49) = _
  generalize W4 m ρ c = X at h ⊢
  after_results_simp
  rw [h]
  rfl

/-- Region 2 finds the second weights as launched (region 1's result it finds where region 1 left it: `W6` is its entry). -/
theorem W6_arg4 (c : Dev nD) : W6 m ρ c (Proc.devRef .tc main_arg4) = m ((c : Thread nD τ).loc main_arg4) :=
  launched6 m ρ c main_arg4 (by decide) (by kept_all hostOps1) (by decide)
    (by kept_all hostOps0_2) (by kept_all hostOps0_1) (by kept_all hostOps0)

/-- Region 3 finds region 2's two results as region 2 left them, -/
theorem W8_v51_0 (c : Dev nD) : W8 m ρ c (Proc.devRef .tc main_v51_0) = W7 m ρ c (Proc.devRef .tc main_v51_0) := by
  kept_all hostOps3
theorem W8_v51_1 (c : Dev nD) : W8 m ρ c (Proc.devRef .tc main_v51_1) = W7 m ρ c (Proc.devRef .tc main_v51_1) := by
  kept_all hostOps3
/-- the second layer's propagated term, -/
theorem W8_v66 (c : Dev nD) : W8 m ρ c (Proc.devRef .tc main_v66)
    = propagate (W7 m ρ c (Proc.devRef .tc main_v51_0)) (m ((c : Thread nD τ).loc main_arg1)) := by
  have h3 := W7_v3 m ρ c
  have h6 := W7_v6 m ρ c
  have h32 := W7_v32 m ρ c
  show StableHlo.after hostOps3 (W7 m ρ c) (Proc.devRef .tc main_v66) = _
  generalize W7 m ρ c = X at h3 h6 h32 ⊢
  after_results_simp
  rw [h3, h6, h32]
  rfl
/-- and the second bias as a one-row matrix. -/
theorem W8_v67 (c : Dev nD) : W8 m ρ c (Proc.devRef .tc main_v67)
    = shapeCast S1x128 (m ((c : Thread nD τ).loc main_arg5)) shapeCasts_S128_S1x128 := by
  have h := W7_arg5 m ρ c
  show StableHlo.after hostOps3 (W7 m ρ c) (Proc.devRef .tc main_v67) = _
  generalize W7 m ρ c = X at h ⊢
  after_results_simp
  rw [h]
  rfl

/-- Region 4 finds region 3's result as region 3 left it, the classifier's weights as launched and its bias as a
    one-row matrix. -/
theorem W10_v68 (c : Dev nD) : W10 m ρ c (Proc.devRef .tc main_v68) = W9 m ρ c (Proc.devRef .tc main_v68) := by
  kept_all hostOps4
theorem W10_arg6 (c : Dev nD) : W10 m ρ c (Proc.devRef .tc main_arg6) = m ((c : Thread nD τ).loc main_arg6) :=
  (by kept_all hostOps4 : W10 m ρ c (Proc.devRef .tc main_arg6) = W9 m ρ c (Proc.devRef .tc main_arg6)).trans
    (launched9 m ρ c main_arg6 (by decide) (by kept_all hostOps3) (by decide) (by decide) (by kept_all hostOps1) (by decide)
      (by kept_all hostOps0_2) (by kept_all hostOps0_1) (by kept_all hostOps0))
theorem W10_v69 (c : Dev nD) : W10 m ρ c (Proc.devRef .tc main_v69)
    = shapeCast S1x16 (m ((c : Thread nD τ).loc main_arg7)) shapeCasts_S16_S1x16 := by
  have h := W9_arg7 m ρ c
  show StableHlo.after hostOps4 (W9 m ρ c) (Proc.devRef .tc main_v69) = _
  generalize W9 m ρ c = X at h ⊢
  after_results_simp
  rw [h]
  rfl

end Cert.KernelIdeal.Host

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.RefMath.lean ====
/-
  The reference's whole-array operations, read entry by entry over the extended reals: its matrix products are the
  sums Σₖ x(p,k)·w(k,q); the product of the features' transpose with the features is the Gram matrix Σᵣ y(r,a)·y(r,b);
  a layer's chain of pointwise operations is max(c₁·y + s − c₂·(y·g) + b, 0) at every entry, the bias spread down the
  rows; and its log-softmax of the logits is, row by row, (l − m) − log Σⱼ exp(lⱼ − m) with m the row's maximum — the
  further maximum with the lowest value of the format that it takes changes nothing, since m is already above it.
-/
import proofs.«100003_j54760833024262_1_alg».proof.Proof.Gen.ReferenceIdeal
import proofs.«100003_j54760833024262_1_alg».proof.Proof.Spec
import proofs.«100003_j54760833024262_1_alg».proof.Proof.LibDot
import proofs.«100003_j54760833024262_1_alg».proof.Proof.LibRowRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.RefMath

open Cert.ReferenceIdeal Cert.ReferenceIdeal.Gen Cert.Spec
open Idealize.ShloMosaic Idealize.ShloMosaic.TcCoe Idealize.ShloMosaic.ValueIdx

section Chains

variable {F : FTy → Type} [FloatOps F]

/-- A layer's chain of whole-array operations, of the projected features, their Gram matrix, the propagated term and
    the bias vector. -/
def refLayer (Y : (⟨S100000x128, .f32⟩ : BufTy).Contents (Elt F)) (G : (⟨S128x128, .f32⟩ : BufTy).Contents (Elt F)) (S : (⟨S100000x128, .f32⟩ : BufTy).Contents (Elt F)) (b : (⟨S128, .f32⟩ : BufTy).Contents (Elt F)) :
    (⟨S100000x128, .f32⟩ : BufTy).Contents (Elt F) :=
  maximumf
    (addf
      (subf
        (addf (mulf (broadcastInDim S100000x128 ![] bcast_S_S100000x128 (constant (F := F) S_ .f32 0x3F733333#32)) Y) S)
        (mulf (broadcastInDim S100000x128 ![] bcast_S_S100000x128 (constant (F := F) S_ .f32 0x3D4CCCCD#32))
          (Host.dotGeneral dot_S100000x128_S128x128_S100000x128_1_0_0_1_n_n none Y G)))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The classifier's logits as the reference computes them. -/
def refLogits (X : (⟨S100000x128, .f32⟩ : BufTy).Contents (Elt F)) (W : (⟨S128x16, .f32⟩ : BufTy).Contents (Elt F)) (b : (⟨S16, .f32⟩ : BufTy).Contents (Elt F)) : (⟨S100000x16, .f32⟩ : BufTy).Contents (Elt F) :=
  addf (Host.dotGeneral dot_S100000x128_S128x16_S100000x16_1_0_0_1_n_n none X W)
    (broadcastInDim S100000x16 ![0, 1] bcast_S1x16_S100000x16_0_1 (broadcastInDim S1x16 ![1] bcast_S16_S1x16_1 b))

/-- The logits less each row's maximum, as the reference computes them. -/
def refShifted (L : (⟨S100000x16, .f32⟩ : BufTy).Contents (Elt F)) : (⟨S100000x16, .f32⟩ : BufTy).Contents (Elt F) :=
  subf L
    (broadcastInDim S100000x16 ![0, 1] bcast_S100000x1_S100000x16_0_1
      (broadcastInDim S100000x1 ![0] bcast_S100000_S100000x1_0
        (maximumf (broadcastInDim S100000 ![] bcast_S_S100000 (constant (F := F) S_ .f32 0xFF800000#32))
          (Host.reduce FloatOps.maximumf L (constant (F := F) S_ .f32 0xFF800000#32) reducesTo_S100000x16_S100000_d1 h_S_))))

/-- The reference's log-softmax of the logits. -/
def refLogSoftmax (L : (⟨S100000x16, .f32⟩ : BufTy).Contents (Elt F)) : (⟨S100000x16, .f32⟩ : BufTy).Contents (Elt F) :=
  subf (refShifted L)
    (broadcastInDim S100000x16 ![0, 1] bcast_S100000x1_S100000x16_0_1
      (Host.log (broadcastInDim S100000x1 ![0] bcast_S100000_S100000x1_0
        (Host.reduceAdd (Host.exp (refShifted L)) (constant (F := F) S_ .f32 0x00000000#32) reducesTo_S100000x16_S100000_d1 h_S_))))

/-- The classifier and its log-softmax as the reference's chain of whole-array operations. -/
def refHead (X : (⟨S100000x128, .f32⟩ : BufTy).Contents (Elt F)) (W : (⟨S128x16, .f32⟩ : BufTy).Contents (Elt F)) (b : (⟨S16, .f32⟩ : BufTy).Contents (Elt F)) : (⟨S100000x16, .f32⟩ : BufTy).Contents (Elt F) :=
  refLogSoftmax (refLogits X W b)

end Chains

/-- The first layer's projection: the product of the 256-wide features with the weights, entry by entry. -/
theorem proj256_eq (X : FVec Ideal S100000x256 .f32) (W : FVec Ideal S256x128 .f32) :
    Host.dotGeneral (F := Ideal) dot_S100000x256_S256x128_S100000x128_1_0_0_1_n_n none X W
      = fun i : S100000x128.Idx => projAt X W ⟨(i 0).val, (i 0).isLt⟩ ⟨(i 1).val, (i 1).isLt⟩ := by
  funext i
  obtain ⟨p, q, rfl⟩ : ∃ (p : Fin 100000) (q : Fin 128), i = ix2 p q := ⟨i 0, i 1, eq_ix2 i⟩
  simp only [Host.dotGeneral]
  exact Cert.LibDot.dotGeneral_at _ rfl rfl rfl rfl rfl rfl _ _ X W p q

/-- The second layer's projection: the product of the 128-wide features with the weights, entry by entry. -/
theorem proj128_eq (X : FVec Ideal S100000x128 .f32) (W : FVec Ideal S128x128 .f32) :
    Host.dotGeneral (F := Ideal) dot_S100000x128_S128x128_S100000x128_1_0_0_1_n_n none X W
      = fun i : S100000x128.Idx => projAt X W ⟨(i 0).val, (i 0).isLt⟩ ⟨(i 1).val, (i 1).isLt⟩ := by
  funext i
  obtain ⟨p, q, rfl⟩ : ∃ (p : Fin 100000) (q : Fin 128), i = ix2 p q := ⟨i 0, i 1, eq_ix2 i⟩
  simp only [Host.dotGeneral]
  exact Cert.LibDot.dotGeneral_at _ rfl rfl rfl rfl rfl rfl _ _ X W p q

/-- The product of the features' transpose with the features is their Gram matrix, entry by entry. -/
theorem gram_eq (Y : FVec Ideal S100000x128 .f32) :
    Host.dotGeneral (F := Ideal) dot_S128x100000_S100000x128_S128x128_1_0_0_1_n_n none
        (transpose S128x100000 [1, 0] Y transposes_S100000x128_S128x100000_1_0) Y
      = fun i : S128x128.Idx => gramAt Y ⟨(i 0).val, (i 0).isLt⟩ ⟨(i 1).val, (i 1).isLt⟩ := by
  funext i
  obtain ⟨p, q, rfl⟩ : ∃ (p : Fin 128) (q : Fin 128), i = ix2 p q := ⟨i 0, i 1, eq_ix2 i⟩
  simp only [Host.dotGeneral]
  refine (Cert.LibDot.dotGeneral_at _ rfl rfl rfl rfl rfl rfl _ _ _ Y p q).trans ?_
  show _ = ∑ r : Fin 100000, Y (ix2 r p) * Y (ix2 r q)
  refine Finset.sum_congr rfl fun r _ => ?_
  refine congrArg (· * Y (ix2 r q)) ?_
  -- the transpose's entry (p, r) is the features' entry (r, p)
  refine transpose_apply _ Y _ _ (ix2 r p) fun b => ?_
  match b with
  | ⟨0, _⟩ => rfl
  | ⟨1, _⟩ => rfl

/-- A scalar spread over a whole array reads, everywhere, the value of its word. -/
theorem bcast_const_apply {T : Shape} (hT : S_.BroadcastsInDim T ![]) (w : BitVec 32) (j : T.Idx) :
    broadcastInDim T ![] hT (constant (F := Ideal) S_ .f32 w) j = Ideal.ofBits .f32 w :=
  broadcastInDim_scalar_apply hT _ j

/-- A bias vector recast to a one-row matrix reads, at (0, q), the vector's entry q. -/
theorem row_cast_apply {α : Type} {C : Nat} (b : (⟨1, ![C]⟩ : Shape).Idx → α)
    (h : (⟨1, ![C]⟩ : Shape).ShapeCasts ⟨2, ![1, C]⟩) (q : Fin C) :
    shapeCast ⟨2, ![1, C]⟩ b h (ix2 (0 : Fin 1) q) = b (ix1 q) := by
  refine shapeCast_apply b h _ (ix1 q) ?_
  rw [Shape.rowMajor_val_two, Shape.rowMajor_val_one]
  show q.val = (0 : Fin 1).val * C + q.val
  simp

/-- A layer's chain, entry by entry, with the bias recast to a one-row matrix (by any witness of the recast). -/
theorem layer_eq (Y : (⟨S100000x128, .f32⟩ : BufTy).Contents (Elt Ideal)) (G : (⟨S128x128, .f32⟩ : BufTy).Contents (Elt Ideal)) (S : (⟨S100000x128, .f32⟩ : BufTy).Contents (Elt Ideal)) (b : (⟨S128, .f32⟩ : BufTy).Contents (Elt Ideal))
    (h : S128.ShapeCasts S1x128) :
    refLayer (F := Ideal) Y G S b = fun i : S100000x128.Idx => layerAt Y G S (shapeCast S1x128 b h) ⟨(i 0).val, (i 0).isLt⟩ ⟨(i 1).val, (i 1).isLt⟩ := by
  funext i
  obtain ⟨p, q, rfl⟩ : ∃ (p : Fin 100000) (q : Fin 128), i = ix2 p q := ⟨i 0, i 1, eq_ix2 i⟩
  have hdot : Host.dotGeneral (F := Ideal) (φ₁ := .f32) (φ₂ := .f32) dot_S100000x128_S128x128_S100000x128_1_0_0_1_n_n none Y G (ix2 p q)
      = ∑ k : Fin 128, Y (ix2 p k) * G (ix2 k q) := by
    simp only [Host.dotGeneral]
    exact Cert.LibDot.dotGeneral_at (φ₁ := .f32) (φ₂ := .f32) _ rfl rfl rfl rfl rfl rfl _ _ Y G p q
  have hb : broadcastInDim S100000x128 ![0, 1] bcast_S1x128_S100000x128_0_1 (broadcastInDim S1x128 ![1] bcast_S128_S1x128_1 b) (ix2 p q)
      = shapeCast S1x128 b h (ix2 (0 : Fin 1) q) :=
    (Cert.LibRowRead.bcast_perCol_apply bcast_S128_S1x128_1 bcast_S1x128_S100000x128_0_1 b p q).trans (row_cast_apply b h q).symm
  have hc : ∀ w : BitVec 32, broadcastInDim S100000x128 ![] bcast_S_S100000x128 (constant (F := Ideal) S_ .f32 w) (ix2 p q) = Ideal.ofBits .f32 w :=
    fun w => bcast_const_apply bcast_S_S100000x128 w _
  show max (broadcastInDim S100000x128 ![] bcast_S_S100000x128 (constant (F := Ideal) S_ .f32 0x3F733333#32) (ix2 p q) * Y (ix2 p q) + S (ix2 p q)
        - broadcastInDim S100000x128 ![] bcast_S_S100000x128 (constant (F := Ideal) S_ .f32 0x3D4CCCCD#32) (ix2 p q)
          * Host.dotGeneral (F := Ideal) (φ₁ := .f32) (φ₂ := .f32) dot_S100000x128_S128x128_S100000x128_1_0_0_1_n_n none Y G (ix2 p q)
        + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q))
    = layerAt Y G S (shapeCast S1x128 b h) p q
  rw [hc, hc, hc, hdot, hb]
  rfl

/-- A fold of max over sixteen values is at least the value it starts from, so the further maximum with that value
    changes nothing. -/
theorem max_fold_self (m : EReal) (f : Fin 16 → EReal) :
    max m ((Finset.univ : Finset (Fin 16)).fold max m f) = (Finset.univ : Finset (Fin 16)).fold max m f :=
  max_eq_right ((Finset.le_fold_max m).2 (Or.inl le_rfl))

/-- The maximum of two arrays, at an index. -/
theorem maximumf_at {s : Shape} (A B : FVec Ideal s .f32) (i : s.Idx) : maximumf A B i = max (A i) (B i) := rfl

/-- The sum of two arrays, at an index. -/
theorem addf_at {s : Shape} (A B : FVec Ideal s .f32) (i : s.Idx) : addf A B i = A i + B i := rfl

/-- The difference of two arrays, at an index. -/
theorem subf_at {s : Shape} (A B : FVec Ideal s .f32) (i : s.Idx) : subf A B i = A i - B i := rfl

/-- The host's exponential of an array, at an index. -/
theorem hostExp_at {s : Shape} (A : FVec Ideal s .f32) (i : s.Idx) : Host.exp A i = Ideal.exp (A i) := rfl

/-- The host's logarithm of an array, at an index. -/
theorem hostLog_at {s : Shape} (A : FVec Ideal s .f32) (i : s.Idx) : Host.log A i = Ideal.log (A i) := rfl

/-- One logit of the reference's chain: the product's entry plus the bias row's entry. -/
theorem logits_at (X : (⟨S100000x128, .f32⟩ : BufTy).Contents (Elt Ideal)) (W : (⟨S128x16, .f32⟩ : BufTy).Contents (Elt Ideal)) (b : (⟨S16, .f32⟩ : BufTy).Contents (Elt Ideal)) (h : S16.ShapeCasts S1x16)
    (p : Fin 100000) (j : Fin 16) :
    refLogits (F := Ideal) X W b (ix2 p j) = logitAt X W (shapeCast S1x16 b h) p j := by
  have hdot : Host.dotGeneral (F := Ideal) (φ₁ := .f32) (φ₂ := .f32) dot_S100000x128_S128x16_S100000x16_1_0_0_1_n_n none X W (ix2 p j)
      = ∑ k : Fin 128, X (ix2 p k) * W (ix2 k j) := by
    simp only [Host.dotGeneral]
    exact Cert.LibDot.dotGeneral_at (φ₁ := .f32) (φ₂ := .f32) _ rfl rfl rfl rfl rfl rfl _ _ X W p j
  have hb : broadcastInDim S100000x16 ![0, 1] bcast_S1x16_S100000x16_0_1 (broadcastInDim S1x16 ![1] bcast_S16_S1x16_1 b) (ix2 p j)
      = shapeCast S1x16 b h (ix2 (0 : Fin 1) j) :=
    (Cert.LibRowRead.bcast_perCol_apply bcast_S16_S1x16_1 bcast_S1x16_S100000x16_0_1 b p j).trans (row_cast_apply b h j).symm
  unfold refLogits
  rw [addf_at, hdot, hb]
  rfl

/-- The maximum the reference subtracts from a row is the row's maximum: the further maximum with the lowest value
    changes nothing, the fold having started from it. -/
theorem refMax_at (L : (⟨S100000x16, .f32⟩ : BufTy).Contents (Elt Ideal)) (p : Fin 100000) :
    maximumf (broadcastInDim S100000 ![] bcast_S_S100000 (constant (F := Ideal) S_ .f32 0xFF800000#32))
        (Host.reduce FloatOps.maximumf L (constant (F := Ideal) S_ .f32 0xFF800000#32) reducesTo_S100000x16_S100000_d1 h_S_) (ix1 p)
      = rowMax (fun c => L (ix2 p c)) := by
  have hred : S100000x16.Reduces [1] S100000 := by decide
  have h1 : broadcastInDim S100000 ![] bcast_S_S100000 (constant (F := Ideal) S_ .f32 0xFF800000#32) (ix1 p)
      = Ideal.ofBits .f32 0xFF800000#32 := bcast_const_apply _ _ _
  have h2 : Host.reduce FloatOps.maximumf L (constant (F := Ideal) S_ .f32 0xFF800000#32) reducesTo_S100000x16_S100000_d1 h_S_ (ix1 p)
      = rowMax (fun c => L (ix2 p c)) :=
    Cert.LibRowRead.hostReduceMax_row L _ reducesTo_S100000x16_S100000_d1 hred h_S_ p
  rw [maximumf_at, h1, h2]
  unfold rowMax
  exact max_fold_self _ _

/-- A logit less its row's maximum, as the reference computes it. -/
theorem shifted_at (L : (⟨S100000x16, .f32⟩ : BufTy).Contents (Elt Ideal)) (p : Fin 100000) (j : Fin 16) :
    refShifted (F := Ideal) L (ix2 p j) = L (ix2 p j) - rowMax (fun c => L (ix2 p c)) := by
  unfold refShifted
  rw [subf_at, Cert.LibRowRead.bcast_perRow_apply bcast_S100000_S100000x1_0 bcast_S100000x1_S100000x16_0_1 _ p j, refMax_at]

/-- The sum of the exponentials of a row's shifted logits, as the reference computes it. -/
theorem expSum_at (L : (⟨S100000x16, .f32⟩ : BufTy).Contents (Elt Ideal)) (p : Fin 100000) :
    Host.reduceAdd (F := Ideal) (Host.exp (refShifted (F := Ideal) L)) (constant (F := Ideal) S_ .f32 0x00000000#32)
        reducesTo_S100000x16_S100000_d1 h_S_ (ix1 p)
      = ∑ c : Fin 16, Ideal.exp (L (ix2 p c) - rowMax (fun c => L (ix2 p c))) := by
  have hred : S100000x16.Reduces [1] S100000 := by decide
  have hz : constant (F := Ideal) S_ .f32 0x00000000#32 (Shape.Idx.first h_S_) = 0 := Ideal.ofBits_zero_f32
  rw [Cert.LibRowRead.hostReduceAdd_row _ _ reducesTo_S100000x16_S100000_d1 hred h_S_ p, hz, zero_add]
  refine Finset.sum_congr rfl fun c _ => ?_
  rw [hostExp_at, shifted_at]

/-- One entry of the reference's log-softmax. -/
theorem logSoftmax_at (L : (⟨S100000x16, .f32⟩ : BufTy).Contents (Elt Ideal)) (p : Fin 100000) (j : Fin 16) :
    refLogSoftmax (F := Ideal) L (ix2 p j) = logSoftmaxAt (fun c => L (ix2 p c)) j := by
  unfold refLogSoftmax
  rw [subf_at, Cert.LibRowRead.bcast_alongRows_apply bcast_S100000x1_S100000x16_0_1 _ p j, hostLog_at,
    Cert.LibRowRead.bcast_column_apply bcast_S100000_S100000x1_0 _ p 0, expSum_at, shifted_at]
  rfl

/-- The classifier's chain, entry by entry, with the bias recast to a one-row matrix (by any witness of the recast). -/
theorem head_eq (X : (⟨S100000x128, .f32⟩ : BufTy).Contents (Elt Ideal)) (W : (⟨S128x16, .f32⟩ : BufTy).Contents (Elt Ideal)) (b : (⟨S16, .f32⟩ : BufTy).Contents (Elt Ideal)) (h : S16.ShapeCasts S1x16) :
    refHead (F := Ideal) X W b = fun i : S100000x16.Idx =>
      logSoftmaxAt (logitAt X W (shapeCast S1x16 b h) ⟨(i 0).val, (i 0).isLt⟩) ⟨(i 1).val, (i 1).isLt⟩ := by
  funext i
  obtain ⟨p, q, rfl⟩ : ∃ (p : Fin 100000) (q : Fin 16), i = ix2 p q := ⟨i 0, i 1, eq_ix2 i⟩
  unfold refHead
  show refLogSoftmax (F := Ideal) (refLogits (F := Ideal) X W b) (ix2 p q) = logSoftmaxAt (logitAt X W (shapeCast S1x16 b h) p) q
  rw [logSoftmax_at]
  exact congrArg (fun f => logSoftmaxAt f q) (funext fun c => logits_at X W b h p c)

end Cert.ReferenceIdeal.RefMath

end
-- ==== Proof.Bridge.lean ====
/-
  The kernel program's result is the reference's last stage. Layer by layer: the projected features the first region
  leaves are the reference's matrix product; the Gram matrix accumulated over the row tiles is the reference's
  product of the transpose with the features (one sum over all rows, regrouped); the propagated term is the same
  host function of equal features; the combine region's entry is the reference's chain of pointwise operations at
  that entry; likewise the second layer; and the last region's log-softmax is the reference's, whose extra
  maximum with the lowest value changes nothing.
-/
import proofs.«100003_j54760833024262_1_alg».proof.Proof.Gen.KernelIdeal.Frame
import proofs.«100003_j54760833024262_1_alg».proof.Proof.Spec
import proofs.«100003_j54760833024262_1_alg».proof.Proof.Region0
import proofs.«100003_j54760833024262_1_alg».proof.Proof.Region1
import proofs.«100003_j54760833024262_1_alg».proof.Proof.Region2
import proofs.«100003_j54760833024262_1_alg».proof.Proof.Region3
import proofs.«100003_j54760833024262_1_alg».proof.Proof.Region4
import proofs.«100003_j54760833024262_1_alg».proof.Proof.HostK
import proofs.«100003_j54760833024262_1_alg».proof.Proof.RefRead
import proofs.«100003_j54760833024262_1_alg».proof.Proof.RefMath
import proofs.«100003_j54760833024262_1_alg».proof.Proof.LibDot
import proofs.«100003_j54760833024262_1_alg».proof.Proof.LibRowRead
import Idealize.ShloMosaic.Lib.Pipeline.Value
import Idealize.ShloMosaic.Lib.ValueIdx
import Idealize.ShloMosaic.PureOps.Ideal.Laws

set_option maxRecDepth 16384

noncomputable section

open scoped BigOperators

namespace Cert.Proof.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The host's functions of the edge list are the reference's stages

Both programs print the same host operations on the edge list; stage by stage, innermost first, the reference's
stages are the functions the kernel side's host stretches are read through. -/

section HostStages

variable {F : FTy → Type} [FloatOps F]

open Cert.ReferenceIdeal.ReadP

/-- The sources with the self loops appended. -/
theorem src_eq (x1 : (⟨Cert.ReferenceIdeal.S2x800000, .i32⟩ : BufTy).Contents (Elt F)) :
    val_main_v3 (F := F) x1 = Host.srcIdx (F := F) x1 := by
  unfold val_main_v3 val_main_v2 val_main_v1 val_main_v0 Host.srcIdx Host.endpoints
  rfl

/-- The targets with the self loops appended. -/
theorem dst_eq (x1 : (⟨Cert.ReferenceIdeal.S2x800000, .i32⟩ : BufTy).Contents (Elt F)) :
    val_main_v6 (F := F) x1 = Host.dstIdx (F := F) x1 := by
  unfold val_main_v6 val_main_v5 val_main_v4 val_main_v0 Host.dstIdx Host.endpoints
  rfl

/-- The in-degrees. -/
theorem deg_eq (x1 : (⟨Cert.ReferenceIdeal.S2x800000, .i32⟩ : BufTy).Contents (Elt F)) :
    val_main_v10 (F := F) x1 = Host.degree (F := F) x1 := by
  unfold val_main_v10 val_main_v9 val_main_v8 val_main_v7 val_main_cst val_main_cst_0 Host.degree
  rw [dst_eq]
  rfl

/-- The inverse square roots of the degrees. -/
theorem degInv_eq (x1 : (⟨Cert.ReferenceIdeal.S2x800000, .i32⟩ : BufTy).Contents (Elt F)) :
    val_main_v16 (F := F) x1 = Host.degInv (F := F) x1 := by
  unfold val_main_v16 val_main_v15 val_main_v14 val_main_v13 val_main_v12 val_main_v11 val_main_cst_1 val_main_cst_2
    val_main_call0_v1 val_main_call0_v0 val_main_cst_3 Host.degInv
  rw [deg_eq]

/-- The sources as gather indices (the edge weights' first factor). -/
theorem wrap22_eq (x1 : (⟨Cert.ReferenceIdeal.S2x800000, .i32⟩ : BufTy).Contents (Elt F)) :
    val_main_v22 (F := F) x1 = Host.wrapIdx (F := F) (Host.srcIdx (F := F) x1) := by
  unfold val_main_v22 val_main_v21 val_main_v20 val_main_v19 val_main_v18 val_main_v17 val_main_c val_main_c_4 Host.wrapIdx
  rw [src_eq]

/-- The targets as gather indices. -/
theorem wrap30_eq (x1 : (⟨Cert.ReferenceIdeal.S2x800000, .i32⟩ : BufTy).Contents (Elt F)) :
    val_main_v30 (F := F) x1 = Host.wrapIdx (F := F) (Host.dstIdx (F := F) x1) := by
  unfold val_main_v30 val_main_v29 val_main_v28 val_main_v27 val_main_v26 val_main_v25 val_main_c_5 val_main_c_6 Host.wrapIdx
  rw [dst_eq]

/-- The sources as gather indices (the first layer's rows). -/
theorem wrap42_eq (x1 : (⟨Cert.ReferenceIdeal.S2x800000, .i32⟩ : BufTy).Contents (Elt F)) :
    val_main_v42 (F := F) x1 = Host.wrapIdx (F := F) (Host.srcIdx (F := F) x1) := by
  unfold val_main_v42 val_main_v41 val_main_v40 val_main_v39 val_main_v38 val_main_v37 val_main_c_8 val_main_c_9 Host.wrapIdx
  rw [src_eq]

/-- The sources as gather indices (the second layer's rows). -/
theorem wrap71_eq (x1 : (⟨Cert.ReferenceIdeal.S2x800000, .i32⟩ : BufTy).Contents (Elt F)) :
    val_main_v71 (F := F) x1 = Host.wrapIdx (F := F) (Host.srcIdx (F := F) x1) := by
  unfold val_main_v71 val_main_v70 val_main_v69 val_main_v68 val_main_v67 val_main_v66 val_main_c_14 val_main_c_15 Host.wrapIdx
  rw [src_eq]

/-- The normalised edge weights. -/
theorem edgeW_eq (x1 : (⟨Cert.ReferenceIdeal.S2x800000, .i32⟩ : BufTy).Contents (Elt F)) :
    val_main_v32 (F := F) x1 = Host.edgeW (F := F) x1 := by
  unfold val_main_v32 val_main_v31 val_main_v24 val_main_v23 val_main_v7 val_main_cst Host.edgeW
  rw [degInv_eq, wrap22_eq, wrap30_eq]
  rfl

end HostStages

section Propagated

variable {F : FTy → Type} [FloatOps F]

open Cert.ReferenceIdeal.ReadP

/-- The first layer's propagated term is the host's function of the first projection and the edge list. -/
theorem prop50_eq (x0 : (⟨Cert.ReferenceIdeal.S100000x256, .f32⟩ : BufTy).Contents (Elt F))
    (x1 : (⟨Cert.ReferenceIdeal.S2x800000, .i32⟩ : BufTy).Contents (Elt F))
    (x2 : (⟨Cert.ReferenceIdeal.S256x128, .f32⟩ : BufTy).Contents (Elt F)) :
    val_main_v50 (F := F) x0 x1 x2 = Host.propagate (F := F) (val_main_v33 (F := F) x0 x2) x1 := by
  unfold val_main_v50 val_main_v49 val_main_v48 val_main_v47 val_main_v46 val_main_v45 val_main_v44 val_main_v43
    val_main_v36 val_main_cst_10 val_main_cst_11 Host.propagate
  rw [edgeW_eq, wrap42_eq, dst_eq]
  rfl

/-- The second layer's propagated term is the same function of the second projection. -/
theorem prop79_eq (x0 : (⟨Cert.ReferenceIdeal.S100000x256, .f32⟩ : BufTy).Contents (Elt F))
    (x1 : (⟨Cert.ReferenceIdeal.S2x800000, .i32⟩ : BufTy).Contents (Elt F))
    (x2 : (⟨Cert.ReferenceIdeal.S256x128, .f32⟩ : BufTy).Contents (Elt F))
    (x3 : (⟨Cert.ReferenceIdeal.S128, .f32⟩ : BufTy).Contents (Elt F))
    (x4 : (⟨Cert.ReferenceIdeal.S128x128, .f32⟩ : BufTy).Contents (Elt F)) :
    val_main_v79 (F := F) x0 x1 x2 x3 x4 = Host.propagate (F := F) (val_main_v62 (F := F) x0 x1 x2 x3 x4) x1 := by
  unfold val_main_v79 val_main_v78 val_main_v77 val_main_v76 val_main_v75 val_main_v74 val_main_v73 val_main_v72
    val_main_v65 val_main_cst_16 val_main_cst_17 Host.propagate
  rw [edgeW_eq, wrap71_eq, dst_eq]
  rfl

/-- The first layer's result is the layer's chain of the first projection, its Gram matrix, the propagated term and
    the bias. -/
theorem layer61_eq (x0 : (⟨Cert.ReferenceIdeal.S100000x256, .f32⟩ : BufTy).Contents (Elt F))
    (x1 : (⟨Cert.ReferenceIdeal.S2x800000, .i32⟩ : BufTy).Contents (Elt F))
    (x2 : (⟨Cert.ReferenceIdeal.S256x128, .f32⟩ : BufTy).Contents (Elt F))
    (x3 : (⟨Cert.ReferenceIdeal.S128, .f32⟩ : BufTy).Contents (Elt F)) :
    val_main_v61 (F := F) x0 x1 x2 x3
      = Cert.ReferenceIdeal.RefMath.refLayer (F := F) (val_main_v33 (F := F) x0 x2) (val_main_v52 (F := F) x0 x2)
          (val_main_v50 (F := F) x0 x1 x2) x3 := by
  unfold val_main_v61 val_main_v60 val_main_v59 val_main_v58 val_main_v57 val_main_v56 val_main_v55 val_main_v54
    val_main_v53 val_main_v35 val_main_v34 val_main_cst_7 val_main_cst_12 val_main_call1_v0 val_main_call1_cst
    Cert.ReferenceIdeal.RefMath.refLayer
  rfl

/-- The second layer's result likewise. -/
theorem layer90_eq (x0 : (⟨Cert.ReferenceIdeal.S100000x256, .f32⟩ : BufTy).Contents (Elt F))
    (x1 : (⟨Cert.ReferenceIdeal.S2x800000, .i32⟩ : BufTy).Contents (Elt F))
    (x2 : (⟨Cert.ReferenceIdeal.S256x128, .f32⟩ : BufTy).Contents (Elt F))
    (x3 : (⟨Cert.ReferenceIdeal.S128, .f32⟩ : BufTy).Contents (Elt F))
    (x4 : (⟨Cert.ReferenceIdeal.S128x128, .f32⟩ : BufTy).Contents (Elt F))
    (x5 : (⟨Cert.ReferenceIdeal.S128, .f32⟩ : BufTy).Contents (Elt F)) :
    val_main_v90 (F := F) x0 x1 x2 x3 x4 x5
      = Cert.ReferenceIdeal.RefMath.refLayer (F := F) (val_main_v62 (F := F) x0 x1 x2 x3 x4)
          (val_main_v81 (F := F) x0 x1 x2 x3 x4) (val_main_v79 (F := F) x0 x1 x2 x3 x4) x5 := by
  unfold val_main_v90 val_main_v89 val_main_v88 val_main_v87 val_main_v86 val_main_v85 val_main_v84 val_main_v83
    val_main_v82 val_main_v64 val_main_v63 val_main_cst_13 val_main_cst_18 val_main_call2_v0 val_main_call2_cst
    Cert.ReferenceIdeal.RefMath.refLayer
  rfl

/-- The result is the classifier's chain of the second layer's result. -/
theorem head95_eq (x0 : (⟨Cert.ReferenceIdeal.S100000x256, .f32⟩ : BufTy).Contents (Elt F))
    (x1 : (⟨Cert.ReferenceIdeal.S2x800000, .i32⟩ : BufTy).Contents (Elt F))
    (x2 : (⟨Cert.ReferenceIdeal.S256x128, .f32⟩ : BufTy).Contents (Elt F))
    (x3 : (⟨Cert.ReferenceIdeal.S128, .f32⟩ : BufTy).Contents (Elt F))
    (x4 : (⟨Cert.ReferenceIdeal.S128x128, .f32⟩ : BufTy).Contents (Elt F))
    (x5 : (⟨Cert.ReferenceIdeal.S128, .f32⟩ : BufTy).Contents (Elt F))
    (x6 : (⟨Cert.ReferenceIdeal.S128x16, .f32⟩ : BufTy).Contents (Elt F))
    (x7 : (⟨Cert.ReferenceIdeal.S16, .f32⟩ : BufTy).Contents (Elt F)) :
    val_main_v95 (F := F) x0 x1 x2 x3 x4 x5 x6 x7
      = Cert.ReferenceIdeal.RefMath.refHead (F := F) (val_main_v90 (F := F) x0 x1 x2 x3 x4 x5) x6 x7 := by
  unfold val_main_v95 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1 val_main_v94 val_main_v93 val_main_v92 val_main_v91
    Cert.ReferenceIdeal.RefMath.refHead Cert.ReferenceIdeal.RefMath.refLogSoftmax Cert.ReferenceIdeal.RefMath.refShifted
    Cert.ReferenceIdeal.RefMath.refLogits
  rfl

end Propagated

/-! ## The chain of boundaries

Each array a region leaves, and each buffer a host stretch computes, is the reference's stage of `@main`'s arguments
as launched. -/

/-- The first region's projected features are the reference's first matrix product. -/
theorem xp1 (c : Dev nD) :
    W4 m ρ c (Proc.devRef .tc main_v33_0) = Cert.ReferenceIdeal.ReadP.val_main_v33 (F := Ideal) (m ((c.tc : Thread nD τ).loc main_arg0)) (m ((c.tc : Thread nD τ).loc main_arg2)) := by
  show W4 m ρ c (Proc.devRef .tc (Pipeline.arrRef spec0 2)) = _
  rw [W4_arr, Val.proj0_final (V3 m ρ) c]
  show (fun i : S100000x128.Idx => Cert.Spec.projAt (W3 m ρ c (Proc.devRef .tc main_arg0)) (W3 m ρ c (Proc.devRef .tc main_arg2)) ⟨(i 0).val, (i 0).isLt⟩ ⟨(i 1).val, (i 1).isLt⟩) = _
  rw [Host.W3_arg0, Host.W3_arg2]
  unfold Cert.ReferenceIdeal.ReadP.val_main_v33
  rw [Cert.ReferenceIdeal.RefMath.proj256_eq]

/-- The first region's Gram matrix is the reference's product of the features' transpose with the features. -/
theorem g1 (c : Dev nD) :
    W4 m ρ c (Proc.devRef .tc main_v33_1) = Cert.ReferenceIdeal.ReadP.val_main_v52 (F := Ideal) (m ((c.tc : Thread nD τ).loc main_arg0)) (m ((c.tc : Thread nD τ).loc main_arg2)) := by
  show W4 m ρ c (Proc.devRef .tc (Pipeline.arrRef spec0 3)) = _
  rw [W4_arr, Val.gram0_final (V3 m ρ) c, ← W4_arr m ρ c 2]
  show (fun i : S128x128.Idx => Cert.Spec.gramAt (W4 m ρ c (Proc.devRef .tc main_v33_0)) ⟨(i 0).val, (i 0).isLt⟩ ⟨(i 1).val, (i 1).isLt⟩) = _
  rw [xp1]
  unfold Cert.ReferenceIdeal.ReadP.val_main_v52 Cert.ReferenceIdeal.ReadP.val_main_v51
  rw [Cert.ReferenceIdeal.RefMath.gram_eq]

/-- The first layer's propagated term is the reference's. -/
theorem s1 (c : Dev nD) :
    W5 m ρ c (Proc.devRef .tc main_v48) = Cert.ReferenceIdeal.ReadP.val_main_v50 (F := Ideal) (m ((c.tc : Thread nD τ).loc main_arg0)) (m ((c.tc : Thread nD τ).loc main_arg1)) (m ((c.tc : Thread nD τ).loc main_arg2)) := by
  rw [Host.W5_v48, xp1, prop50_eq]

/-- The first layer's result is the reference's. -/
theorem h1 (c : Dev nD) :
    W6 m ρ c (Proc.devRef .tc main_v50) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) := by
  show W6 m ρ c (Proc.devRef .tc (Pipeline.arrRef spec1 4)) = _
  rw [W6_arr, Val.combine1_final (V5 m ρ) c]
  show (fun i : S100000x128.Idx => Cert.Spec.layerAt (W5 m ρ c (Proc.devRef .tc main_v33_0)) (W5 m ρ c (Proc.devRef .tc main_v33_1)) (W5 m ρ c (Proc.devRef .tc main_v48)) (W5 m ρ c (Proc.devRef .tc main_v49)) ⟨(i 0).val, (i 0).isLt⟩ ⟨(i 1).val, (i 1).isLt⟩) = _
  rw [Host.W5_v33_0, Host.W5_v33_1, Host.W5_v49, xp1, g1, s1, layer61_eq,
    Cert.ReferenceIdeal.RefMath.layer_eq _ _ _ _ shapeCasts_S128_S1x128]

/-- The second projection region's projected features are the reference's. -/
theorem xp2 (c : Dev nD) :
    W7 m ρ c (Proc.devRef .tc main_v51_0) = Cert.ReferenceIdeal.ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show W7 m ρ c (Proc.devRef .tc (Pipeline.arrRef spec2 2)) = _
  rw [W7_arr, Val.proj2_final (V6 m ρ) c]
  show (fun i : S100000x128.Idx => Cert.Spec.projAt (W6 m ρ c (Proc.devRef .tc main_v50)) (W6 m ρ c (Proc.devRef .tc main_arg4)) ⟨(i 0).val, (i 0).isLt⟩ ⟨(i 1).val, (i 1).isLt⟩) = _
  rw [h1, Host.W6_arg4]
  unfold Cert.ReferenceIdeal.ReadP.val_main_v62
  rw [Cert.ReferenceIdeal.RefMath.proj128_eq]

/-- The second projection region's Gram matrix is the reference's. -/
theorem g2 (c : Dev nD) :
    W7 m ρ c (Proc.devRef .tc main_v51_1) = Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show W7 m ρ c (Proc.devRef .tc (Pipeline.arrRef spec2 3)) = _
  rw [W7_arr, Val.gram2_final (V6 m ρ) c, ← W7_arr m ρ c 2]
  show (fun i : S128x128.Idx => Cert.Spec.gramAt (W7 m ρ c (Proc.devRef .tc main_v51_0)) ⟨(i 0).val, (i 0).isLt⟩ ⟨(i 1).val, (i 1).isLt⟩) = _
  rw [xp2]
  unfold Cert.ReferenceIdeal.ReadP.val_main_v81 Cert.ReferenceIdeal.ReadP.val_main_v80
  rw [Cert.ReferenceIdeal.RefMath.gram_eq]

/-- The second layer's propagated term is the reference's. -/
theorem s2 (c : Dev nD) :
    W8 m ρ c (Proc.devRef .tc main_v66) = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Host.W8_v66, xp2, prop79_eq]

/-- The second layer's result is the reference's. -/
theorem h2 (c : Dev nD) :
    W9 m ρ c (Proc.devRef .tc main_v68) = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show W9 m ρ c (Proc.devRef .tc (Pipeline.arrRef spec3 4)) = _
  rw [W9_arr, Val.combine3_final (V8 m ρ) c]
  show (fun i : S100000x128.Idx => Cert.Spec.layerAt (W8 m ρ c (Proc.devRef .tc main_v51_0)) (W8 m ρ c (Proc.devRef .tc main_v51_1)) (W8 m ρ c (Proc.devRef .tc main_v66)) (W8 m ρ c (Proc.devRef .tc main_v67)) ⟨(i 0).val, (i 0).isLt⟩ ⟨(i 1).val, (i 1).isLt⟩) = _
  rw [Host.W8_v51_0, Host.W8_v51_1, Host.W8_v67, xp2, g2, s2, layer90_eq,
    Cert.ReferenceIdeal.RefMath.layer_eq _ _ _ _ shapeCasts_S128_S1x128]

/-- What the kernel program's result array holds at the last boundary is the reference's last stage of the same
    arguments. -/
theorem kernel_result (c : Dev nD) :
    W11 m ρ c (Proc.devRef .tc main_v70)
      = Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show W11 m ρ c (Proc.devRef .tc (Pipeline.arrRef spec4 3)) = _
  rw [W11_arr, Val.lsm4_final (V10 m ρ) c]
  show (fun i : S100000x16.Idx => Cert.Spec.logSoftmaxAt (Cert.Spec.logitAt (W10 m ρ c (Proc.devRef .tc main_v68)) (W10 m ρ c (Proc.devRef .tc main_arg6)) (W10 m ρ c (Proc.devRef .tc main_v69)) ⟨(i 0).val, (i 0).isLt⟩) ⟨(i 1).val, (i 1).isLt⟩) = _
  rw [Host.W10_v68, Host.W10_arg6, Host.W10_v69, h2, head95_eq,
    Cert.ReferenceIdeal.RefMath.head_eq _ _ _ shapeCasts_S16_S1x16]

end Cert.Proof.Bridge

end
-- ==== Proof.lean ====
/-
  A two-layer graph network with a dense Gram correction, tiled over the nodes, against its plain reference: over the
  extended reals the two programs compute the same function. Both apply the same host operations to the edge list
  (normalised weights, gather and scatter-add); the kernel's five tiled regions compute the matrix products, the Gram
  matrices (accumulated tile by tile), the pointwise combination and the final log-softmax that the reference
  computes with whole-array operations — the same sums, regrouped, and the same pointwise chains.
  The three frames: the kernel program's two are its regions' and host stretches' runs chained; the reference's is
  its straight line of host operations. Nothing was rewritten by the idealization, so that claim is trivial.
-/
import proofs.«100003_j54760833024262_1_alg».proof.Defs
import proofs.«100003_j54760833024262_1_alg».proof.Proof.Gen.Kernel
import proofs.«100003_j54760833024262_1_alg».proof.Proof.Gen.Kernel.Frame
import proofs.«100003_j54760833024262_1_alg».proof.Proof.Gen.KernelIdeal
import proofs.«100003_j54760833024262_1_alg».proof.Proof.Gen.KernelIdeal.Frame
import proofs.«100003_j54760833024262_1_alg».proof.Proof.Gen.ReferenceIdeal
import proofs.«100003_j54760833024262_1_alg».proof.Proof.Gen.Pre_finite_inputs
import proofs.«100003_j54760833024262_1_alg».proof.Proof.KernelRun
import proofs.«100003_j54760833024262_1_alg».proof.Proof.RefRun
import proofs.«100003_j54760833024262_1_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run with its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- Both programs run; the kernel program's result array ends at the last boundary's contents, which are the
    reference's last stage of the arguments, and the reference's result buffer ends at that stage of arguments that
    agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W11 m ρ c (Proc.devRef .tc Cert.KernelIdeal.main_v70),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7⟩ := hagree c
  rw [h0, h1, h2, h3, h4, h5, h6, h7]
  exact (Cert.Proof.Bridge.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
